-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x8192 : Shape := ⟨3, ![4, 3, 8192]⟩
abbrev S_ : Shape := ⟨0, ![]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel

variable [Facts]

def fn {F : FTy → Type} [FloatOps F] (main_arg0 : FVec F S4x3x8192 .f32) (main_arg1 : FVec F S4x3x8192 .f32) (main_arg2 : FVec F S4x3x8192 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x3x8192 .f32 := Host.absf main_arg1
  let main_cst_0 : FVec F S_ .f32 := constant S_ .f32 0x7F800000#32
  let main_v5 : FVec F S4x3x8192 .f32 := broadcastInDim S4x3x8192 ![] bcast_S_S4x3x8192 main_cst_0
  let main_v6 : IVec S4x3x8192 1 := cmpf .olt main_v4 main_v5
  let main_c_1 : IVec S_ 1 := constantI S_ 1 1#1
  let main_v7 : IVec S_ 1 := (fun x v => Host.reduce IntOp.andi x v reducesTo_S4x3x8192_S_d0_1_2 h_S_) main_v6 main_c_1
  let main_v8 : IVec S_ 1 := andi main_v3 main_v7
  let main_v9 : FVec F S4x3x8192 .f32 := Host.absf main_arg2
  let main_cst_2 : FVec F S_ .f32 := constant S_ .f32 0x7F800000#32
  let main_v10 : FVec F S4x3x8192 .f32 := broadcastInDim S4x3x8192 ![] bcast_S_S4x3x8192 main_cst_2
  let main_v11 : IVec S4x3x8192 1 := cmpf .olt main_v9 main_v10
  let main_c_3 : IVec S_ 1 := constantI S_ 1 1#1
  let main_v12 : IVec S_ 1 := (fun x v => Host.reduce IntOp.andi x v reducesTo_S4x3x8192_S_d0_1_2 h_S_) main_v11 main_c_3
  let main_v13 : IVec S_ 1 := andi main_v8 main_v12
  main_v13
-- ==== Kernel.lean ====
abbrev S4x3x8192 : Shape := ⟨3, ![4, 3, 8192]⟩
abbrev S_ : Shape := ⟨0, ![]⟩
abbrev S4x8192 : Shape := ⟨2, ![4, 8192]⟩
abbrev S4x1x8192 : Shape := ⟨3, ![4, 1, 8192]⟩
abbrev S1x3x1024 : Shape := ⟨3, ![1, 3, 1024]⟩
abbrev S1x1x1024 : Shape := ⟨3, ![1, 1, 1024]⟩
abbrev S1024x1 : Shape := ⟨2, ![1024, 1]⟩
abbrev S3x1024 : Shape := ⟨2, ![3, 1024]⟩
abbrev S1024x1024 : Shape := ⟨2, ![1024, 1024]⟩
abbrev S1024 : Shape := ⟨1, ![1024]⟩
abbrev S1x1024 : Shape := ⟨2, ![1, 1024]⟩
abbrev S4 : Shape := ⟨1, ![4]⟩

abbrev nBuf : Space → Nat
  | .hbm => 30
  | .vmem => 22
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x3x8192, .f32⟩
  | .hbm, ⟨3, _⟩ => ⟨S4x3x8192, .f32⟩
  | .hbm, ⟨4, _⟩ => ⟨S4x3x8192, .f32⟩
  | .hbm, ⟨5, _⟩ => ⟨S4x3x8192, .f32⟩
  | .hbm, ⟨6, _⟩ => ⟨S_, .f32⟩
  | .hbm, ⟨7, _⟩ => ⟨S4x8192, .f32⟩
  | .hbm, ⟨8, _⟩ => ⟨S4x1x8192, .f32⟩
  | .hbm, ⟨9, _⟩ => ⟨S4x3x8192, .f32⟩
  | .hbm, ⟨10, _⟩ => ⟨S_, .f32⟩
  | .hbm, ⟨11, _⟩ => ⟨S4x8192, .f32⟩
  | .hbm, ⟨12, _⟩ => ⟨S4x1x8192, .f32⟩
  | .hbm, ⟨13, _⟩ => ⟨S4x1x8192, .f32⟩
  | .hbm, ⟨14, _⟩ => ⟨S4x8192, .f32⟩
  | .hbm, ⟨15, _⟩ => ⟨S4x1x8192, .f32⟩
  | .hbm, ⟨16, _⟩ => ⟨S4x8192, .f32⟩
  | .hbm, ⟨17, _⟩ => ⟨S_, .f32⟩
  | .hbm, ⟨18, _⟩ => ⟨S4, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1, .f32⟩
  | .local _ .vmem, ⟨11, _⟩ => ⟨S1x3x1024, .f32⟩
  | .local _ .vmem, ⟨12, _⟩ => ⟨S1x3x1024, .f32⟩
  | .local _ .vmem, ⟨13, _⟩ => ⟨S1x3x1024, .f32⟩
  | .local _ .vmem, ⟨14, _⟩ => ⟨S1x3x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1024x1, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_15 : BitVec 32 := 0#32
  let v26 : BitVec 1 := Scalar.cmpi .ne v25 c0_i32_15
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![4, 8, 8], ![false, false, false]⟩

def k1_cond2 (i : grid1.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_15 : BitVec 32 := 0#32
  let v26 : BitVec 1 := Scalar.cmpi .ne v25 c0_i32_15
  v26

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x3x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  reducesTo_S4x3x8192_S4x8192_d1 : S4x3x8192.ReducesTo [1] S4x8192
  h_S_ : 0 < S_.numel
  bcast_S4x8192_S4x1x8192_0_2 : S4x8192.BroadcastsInDim S4x1x8192 (![0, 2] : Fin 2 → Fin S4x1x8192.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  shapeCasts_S1024x1_S1024 : S1024x1.ShapeCasts S1024
  shapeCasts_S1024_S1x1x1024 : S1024.ShapeCasts S1x1x1024
  shapeCasts_S4x1x8192_S4x8192 : S4x1x8192.ShapeCasts S4x8192
  reducesTo_S4x8192_S4_d1 : S4x8192.ReducesTo [1] S4
  reducesTo_S4_S_d0 : S4.ReducesTo [0] S_
  dot_S3x1024_S3x1024_S1024x1024_0_0_1_1_n_n_wf : DotDims.WF S3x1024 S3x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S4x3x8192.size a
  hwx0_0 : ∀ i : grid0.Coords, EltTy.bits .f32 = 32 ∨ (Rect.block (s := S4x3x8192) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x8192.size a
  hwx0_1 : ∀ i : grid0.Coords, EltTy.bits .f32 = 32 ∨ (Rect.block (s := S4x3x8192) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x8192.size a
  hwx0_2 : ∀ i : grid0.Coords, EltTy.bits .f32 = 32 ∨ (Rect.block (s := S4x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x8192.size a
  hwx0_3 : ∀ i : grid0.Coords, EltTy.bits .f32 = 32 ∨ (Rect.block (s := S4x1x8192) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S4x1x8192.size a
  hwx0_4 : ∀ i : grid0.Coords, EltTy.bits .f32 = 32 ∨ (Rect.block (s := S4x1x8192) S1x1x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x1024.size a ≤ S4x3x8192.size a
  hwx1_0 : ∀ i : grid1.Coords, EltTy.bits .f32 = 32 ∨ (Rect.block (s := S4x3x8192) S1x3x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x1024.size a ≤ S4x3x8192.size a
  hwx1_1 : ∀ i : grid1.Coords, EltTy.bits .f32 = 32 ∨ (Rect.block (s := S4x3x8192) S1x3x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S4x1x8192.size a
  hwx1_2 : ∀ i : grid1.Coords, EltTy.bits .f32 = 32 ∨ (Rect.block (s := S4x1x8192) S1x1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S4x1x8192.size a
  hwx1_3 : ∀ i : grid1.Coords, EltTy.bits .f32 = 32 ∨ (Rect.block (s := S4x1x8192) S1x1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024.size a ≤ S4x1x8192.size a
  hwx1_4 : ∀ i : grid1.Coords, EltTy.bits .f32 = 32 ∨ (Rect.block (s := S4x1x8192) S1x1x1024.size (cc1_transform_4 i) (hinb1_4 i)).WholeWords (EltTy.packing .f32)

variable [Facts₀]

def dot_S3x1024_S3x1024_S1024x1024_0_0_1_1_n_n : DotDims S3x1024 S3x1024 S1024x1024 where
  lhsContracting := [0]
  rhsContracting := [0]
  lhsNonContracting := [1]
  rhsNonContracting := [1]
  lhsBatch := []
  rhsBatch := []
  wf := dot_S3x1024_S3x1024_S1024x1024_0_0_1_1_n_n_wf

abbrev win0_0 : Pipeline.Window sig grid0 :=
  Pipeline.Window.ofSpec (Memref.whole main_v0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v1) S1x3x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x3x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x1x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x3x8192 : Shape := ⟨3, ![4, 3, 8192]⟩
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 40
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x3x8192, .f32⟩
  | .hbm, ⟨3, _⟩ => ⟨S4x3x8192, .f32⟩
  | .hbm, ⟨4, _⟩ => ⟨S4x8192x3, .f32⟩
  | .hbm, ⟨5, _⟩ => ⟨S4x3x8192, .f32⟩
  | .hbm, ⟨6, _⟩ => ⟨S4x8192x3, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x8192x3, .f32⟩
  | .hbm, ⟨11, _⟩ => ⟨S_, .f32⟩
  | .hbm, ⟨12, _⟩ => ⟨S4x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x1, .f32⟩
  | .hbm, ⟨18, _⟩ => ⟨S4x8192x8192, .f32⟩
  | .hbm, ⟨19, _⟩ => ⟨S4x8192x8192, .f32⟩
  | .hbm, ⟨20, _⟩ => ⟨S4x1x8192, .f32⟩
  | .hbm, ⟨21, _⟩ => ⟨S4x8192x8192, .f32⟩
  | .hbm, ⟨22, _⟩ => ⟨S4x8192x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_cst_8 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  transposes_S4x3x8192_S4x8192x3_0_2_1 : S4x3x8192.Transposes [0, 2, 1] S4x8192x3
  reducesTo_S4x8192x3_S4x8192_d2 : S4x8192x3.ReducesTo [2] S4x8192
  h_S_ : 0 < S_.numel
  bcast_S_S4x8192x8192 : S_.BroadcastsInDim S4x8192x8192 (![] : Fin 0 → Fin S4x8192x8192.rank)
  bcast_S4x8192_S4x8192x1_0_1 : S4x8192.BroadcastsInDim S4x8192x1 (![0, 1] : Fin 2 → Fin S4x8192x1.rank)
  bcast_S4x8192x1_S4x8192x8192_0_1_2 : S4x8192x1.BroadcastsInDim S4x8192x8192 (![0, 1, 2] : Fin 3 → Fin S4x8192x8192.rank)
  bcast_S4x8192_S4x1x8192_0_2 : S4x8192.BroadcastsInDim S4x1x8192 (![0, 2] : Fin 2 → Fin S4x1x8192.rank)
  bcast_S4x1x8192_S4x8192x8192_0_1_2 : S4x1x8192.BroadcastsInDim S4x8192x8192 (![0, 1, 2] : Fin 3 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KBody0.lean ====
import proofs.«106419_j65987877535942_1_alg».proof.Proof.Gen.Kernel.Launch
import proofs.«106419_j65987877535942_1_alg».proof.Proof.Gen.Kernel.Skeleton
import proofs.«106419_j65987877535942_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 0: the row-minimum kernel, point by point

The grid is 4 batches × 8 row tiles × 8 column tiles, the column tile fastest.  A scratch column of 1024
numbers carries the running minimum of a row tile across its eight column tiles: reset to +∞ at column
tile 0, lowered by each tile's minimum, and at column tile 7 written out with the rows' own square norms
added.  Three cases of the body, by the column tile: the first, a middle one, the last. -/

/-- The whole-buffer rectangles start at zero on every axis. -/
private theorem hz2 : (![0, 0] : Fin 2 → Nat) = fun _ => 0 := by funext a; fin_cases a <;> rfl
private theorem hz3 : (![0, 0, 0] : Fin 3 → Nat) = fun _ => 0 := by funext a; fin_cases a <;> rfl

/-- Column tile 0: the body's first condition, as it computes it from the third grid coordinate. -/
abbrev condFirst0 (i : grid0.Coords) : Prop :=
  (Scalar.cmpi .ne (Scalar.extui (Scalar.cmpi .eq (BitVec.ofNat 32 (i 2).val) 0#32)) 0#32) = 1#1
/-- Column tile 7: the body's second condition. -/
abbrev condLast0 (i : grid0.Coords) : Prop := k0_cond2 i = 1#1

/-- The column tile is the point's number modulo 8. -/
theorem hcondFirst0 : ∀ t : Fin cfg0.N, condFirst0 (grid0.coords t) ↔ t.val % 8 = 0 :=
  (by decide +kernel : ∀ t : Fin grid0.N, condFirst0 (grid0.coords t) ↔ t.val % 8 = 0)
theorem hcondLast0 : ∀ t : Fin cfg0.N, condLast0 (grid0.coords t) ↔ t.val % 8 = 7 :=
  (by decide +kernel : ∀ t : Fin grid0.N, condLast0 (grid0.coords t) ↔ t.val % 8 = 7)

/-- The output window is live exactly at the last column tile, and only there is it written back. -/
theorem idle0_4_of : ∀ t : Fin cfg0.N, ¬condLast0 (grid0.coords t) → cfg0.idle 4 (grid0.coords t) = true :=
  (by decide +kernel : ∀ t : Fin grid0.N, ¬condLast0 (grid0.coords t) → cfg0.idle 4 (grid0.coords t) = true)
theorem live0_4_of : ∀ t : Fin cfg0.N, condLast0 (grid0.coords t) → cfg0.idle 4 (grid0.coords t) = false :=
  (by decide +kernel : ∀ t : Fin grid0.N, condLast0 (grid0.coords t) → cfg0.idle 4 (grid0.coords t) = false)
theorem noFlush0_4_of (t : Fin cfg0.N) (h : ¬condLast0 (grid0.coords t)) : (cfg0.win 4).flush t = false :=
  Bool.eq_false_iff.mpr fun hf => h ((hcondLast0 t).mpr ((flush0_4 t).mp hf))

/-- The scratch column, a whole buffer of the kernel's own. -/
abbrev scM0 : Memref sig .tc .vmem S1024x1 .f32 := Memref.whole cc0_scratch0

/-! ## The body, case by case -/

set_option maxHeartbeats 1000000 in
/-- A MIDDLE column tile: the scratch column `s` is lowered by this tile's minimum; nothing else changes. -/
theorem sound_kernel0_mid (c : Dev nD) (E : Set ℕ) (i : grid0.Coords) (h1 : ¬condFirst0 i) (h2 : ¬condLast0 i)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1024x1 .f32) (harg8 : arg8.IsWhole)
    (x3 x4 : Vec F S1x3x1024 .f32) (x5 x6 x7 : Vec F S1x1x1024 .f32) (s : Vec F S1024x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare s
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (k0_pay2 x3 x4 x5 s)) -∗ K ⟨⟩))
      ⊢ wp frame (wpE (defs₀ (F := F)) Variants.none c none) E (cc0__row_min_kernel i arg3 harg3 arg4 harg4 arg5 harg5 arg6 harg6 arg7 harg7 arg8 harg8) K := by
  simp only [cc0__row_min_kernel_eq_skeleton]; unfold cc0__row_min_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  rw [View.read_writes_eq_canon _ _ _ (fun y => ⟨_, List.mem_cons_self, View.mem_set_unit_zero hz2 Facts₀.inb_S1024x1_S1024x1_0_0 y⟩)]
  first | rw [View.canon_unit_zero hz2] | rw [View.canon_cons_unit_zero hz2]
  simp only [View.readAt_eq_ld, View.ld_unit_zero (S := S1x3x1024) hz3, View.ld_unit_zero (S := S1x1x1024) hz3,
    View.ld_unit_zero (S := S1024x1) hz2, View.readCov_unit_zero (S := S1024x1) _ hz2]

set_option maxHeartbeats 1000000 in
/-- The FIRST column tile: whatever the scratch column held, it is reset to +∞ and lowered by this tile's
    minimum. -/
theorem sound_kernel0_first (c : Dev nD) (E : Set ℕ) (i : grid0.Coords) (h1 : condFirst0 i) (h2 : ¬condLast0 i)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1024x1 .f32) (harg8 : arg8.IsWhole)
    (x3 x4 : Vec F S1x3x1024 .f32) (x5 x6 x7 : Vec F S1x1x1024 .f32) (s : Vec F S1024x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare s
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (k0_pay2 x3 x4 x5 (k0_pay1 (F := F)))) -∗ K ⟨⟩))
      ⊢ wp frame (wpE (defs₀ (F := F)) Variants.none c none) E (cc0__row_min_kernel i arg3 harg3 arg4 harg4 arg5 harg5 arg6 harg6 arg7 harg7 arg8 harg8) K := by
  simp only [cc0__row_min_kernel_eq_skeleton]; unfold cc0__row_min_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  rw [View.read_writes_eq_canon _ _ _ (fun y => ⟨_, List.mem_cons_self, View.mem_set_unit_zero hz2 Facts₀.inb_S1024x1_S1024x1_0_0 y⟩)]
  first | rw [View.canon_unit_zero hz2] | rw [View.canon_cons_unit_zero hz2]
  simp only [View.readAt_eq_ld, View.ld_unit_zero (S := S1x3x1024) hz3, View.ld_unit_zero (S := S1x1x1024) hz3,
    View.ld_unit_zero (S := S1024x1) hz2, View.readCov_unit_zero (S := S1024x1) _ hz2]

set_option maxHeartbeats 1000000 in
/-- The LAST column tile: the scratch column is lowered by this tile's minimum, and the output block
    receives it with the rows' square norms added. -/
theorem sound_kernel0_last (c : Dev nD) (E : Set ℕ) (i : grid0.Coords) (h1 : ¬condFirst0 i) (h2 : condLast0 i)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1024x1 .f32) (harg8 : arg8.IsWhole)
    (x3 x4 : Vec F S1x3x1024 .f32) (x5 x6 : Vec F S1x1x1024 .f32) (s : Vec F S1024x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare s
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k0_pay3 x6 (k0_pay2 x3 x4 x5 s))
            ∗ owns (c : Thread nD τ) arg8 fullShare (k0_pay2 x3 x4 x5 s)) -∗ K ⟨⟩))
      ⊢ wp frame (wpE (defs₀ (F := F)) Variants.none c none) E (cc0__row_min_kernel i arg3 harg3 arg4 harg4 arg5 harg5 arg6 harg6 arg7 harg7 arg8 harg8) K := by
  simp only [cc0__row_min_kernel_eq_skeleton]; unfold cc0__row_min_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf3; subst hf4; subst hf5; subst hf6; subst hf8
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_cons_self, View.mem_set_unit_zero hz3 Facts₀.inb_S1x1x1024_S1x1x1024_0_0_0 y⟩)]
    rw [View.canon_unit_zero hz3]
    simp only [View.readAt_eq_ld, View.ld_unit_zero (S := S1x3x1024) hz3, View.ld_unit_zero (S := S1x1x1024) hz3,
      View.ld_unit_zero (S := S1024x1) hz2, View.readCov_unit_zero (S := S1024x1) _ hz2]
  iexists _; isplitr
  swap; · iexact H8
  ipureintro
  sl_unfold_words
  rw [View.read_writes_eq_canon _ _ _ (fun y => ⟨_, List.mem_cons_self, View.mem_set_unit_zero hz2 Facts₀.inb_S1024x1_S1024x1_0_0 y⟩)]
  first | rw [View.canon_unit_zero hz2] | rw [View.canon_cons_unit_zero hz2]
  simp only [View.readAt_eq_ld, View.ld_unit_zero (S := S1x3x1024) hz3, View.ld_unit_zero (S := S1x1x1024) hz3,
    View.ld_unit_zero (S := S1024x1) hz2, View.readCov_unit_zero (S := S1024x1) _ hz2]

/-! ## The proof data of this launch, at the buffer contents `V` it is entered with -/

section Region

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- THE RUNNING MINIMUM.  The scratch column after point `n`: at a first column tile the reset value
    lowered by the tile's minimum, otherwise what the point before left, lowered by the tile's minimum. -/
def acc0 (c : Dev nD) : (n : ℕ) → n < cfg0.N → Vec F S1024x1 .f32
  | 0, hn => k0_pay2 (iblk0 V c 0 ⟨0, hn⟩) (iblk0 V c 1 ⟨0, hn⟩) (iblk0 V c 2 ⟨0, hn⟩) (k0_pay1 (F := F))
  | n + 1, hn =>
    if (n + 1) % 8 = 0 then
      k0_pay2 (iblk0 V c 0 ⟨n + 1, hn⟩) (iblk0 V c 1 ⟨n + 1, hn⟩) (iblk0 V c 2 ⟨n + 1, hn⟩) (k0_pay1 (F := F))
    else
      k0_pay2 (iblk0 V c 0 ⟨n + 1, hn⟩) (iblk0 V c 1 ⟨n + 1, hn⟩) (iblk0 V c 2 ⟨n + 1, hn⟩) (acc0 c n (Nat.lt_of_succ_lt hn))

theorem acc0_first (c : Dev nD) (t : Fin cfg0.N) (h : t.val % 8 = 0) :
    acc0 V c t.val t.isLt = k0_pay2 (iblk0 V c 0 t) (iblk0 V c 1 t) (iblk0 V c 2 t) (k0_pay1 (F := F)) := by
  obtain ⟨n, hn⟩ := t
  cases n with
  | zero => rfl
  | succ n => exact if_pos h

theorem acc0_next (c : Dev nD) (t : Fin cfg0.N) (h : ¬t.val % 8 = 0) :
    acc0 V c t.val t.isLt = k0_pay2 (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact if_neg h

/-- Every scoped buffer that is neither a staging buffer of this launch nor its scratch column, at some contents. -/
abbrev rest0 (c : Dev nD) : sProp 𝕄 :=
  Pipeline.scopedRestBut (Ix := Unit) (Name := ℕ) (U := UR sig nD τ) (Lvl := ℕ) (Val := Elt F) spec0 c [cc0_scratch0]

/-- The invariant every launch is entered with, the scratch column taken out of the scoped rest. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole]
  rfl

/-- The invariant before point `n`: before the first point the one the launch is entered with; afterwards the
    scratch column at the running minimum the point before left, the other scoped buffers at anything, the
    generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ (∃ r, prngReg c r)) := by
  cases n with
  | zero => exact absurd rfl hz
  | succ n => rfl

/-- The proof data: the arrays as the launch finds them; after the body each input's buffer at its block, the
    output's at the running minimum plus the rows' square norms (consulted only at a last column tile, where the
    block is written back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (iblk0 V c 3 t) (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay3 (iblk0 V c 3 t) (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_in (c : Dev nD) (t : Fin cfg0.N) (w : Fin cfg0.W) (hw : cfg0.idle w (grid0.coords t) = false) :
    (dat0 V c).leavesExact w t = owns (c : Thread nD τ) ((cfg0.win w).stage (cfg0.slots t w)) fullShare ((dat0 V c).after w t) := by
  unfold Dat.leavesExact; rw [hw]

set_option maxHeartbeats 4000000 in
/-- The body at any point, by the column tile: the invariant hands it the scratch column (at anything before
    the first point, else at what the point before left) and takes it back at this point's running minimum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_in V c t 0 rfl, leaves0_in V c t 1 rfl, leaves0_in V c t 2 rfl, leaves0_in V c t 3 rfl,
    after0_0, after0_1, after0_2, after0_3]
  have hN : t.val < 256 := lt_of_lt_of_eq t.isLt (show cfg0.N = 256 from N_0)
  by_cases hl : t.val % 8 = 7
  · -- the last column tile
    have h1 : ¬condFirst0 (grid0.coords t) := fun h => by have := (hcondFirst0 t).mp h; omega
    have h2 : condLast0 (grid0.coords t) := (hcondLast0 t).mpr hl
    have hz : t.val ≠ 0 := by omega
    rw [leaves0_in V c t 4 (live0_4_of t h2), after0_4, acc0_next V c t (by omega)]
    rw [PhiS0_castSucc V c t, PhiS0_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (sound_kernel0_last c Set.univ (grid0.coords t) h1 h2 _ _ _ _ _ _ _ _ _ _ _ _
      (iblk0 V c 0 t) (iblk0 V c 1 t) (iblk0 V c 2 t) (iblk0 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · have h2 : ¬condLast0 (grid0.coords t) := fun h => hl ((hcondLast0 t).mp h)
    rw [Dat.leavesExact_idle (dat0 V c) 4 t (idle0_4_of t h2) (noFlush0_4_of t h2)]
    by_cases hf : t.val % 8 = 0
    · -- a first column tile
      have h1 : condFirst0 (grid0.coords t) := (hcondFirst0 t).mpr hf
      rw [acc0_first V c t hf]
      by_cases hz : t.val = 0
      · rw [PhiS0_castSucc V c t, PhiS0_zero V c _ _ hz, PhiA0_eq]
        iintro ⟨⟨⟨⟨%s, HS⟩, HR⟩, Hg⟩, Ho, ⟨%d0, H0⟩, ⟨%d1, H1⟩, ⟨%d2, H2⟩, ⟨%d3, H3⟩, ⟨%d4, H4⟩⟩
        iapply (sound_kernel0_first c Set.univ (grid0.coords t) h1 h2 _ _ _ _ _ _ _ _ _ _ _ _
          (iblk0 V c 0 t) (iblk0 V c 1 t) (iblk0 V c 2 t) (iblk0 V c 3 t) ((dat0 V c).before 4 t d4) s _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists d4; iexact H4
      · rw [PhiS0_castSucc V c t, PhiS0_pos V c _ _ hz]
        iintro ⟨⟨⟨HS, HR⟩, Hg⟩, Ho, ⟨%d0, H0⟩, ⟨%d1, H1⟩, ⟨%d2, H2⟩, ⟨%d3, H3⟩, ⟨%d4, H4⟩⟩
        iapply (sound_kernel0_first c Set.univ (grid0.coords t) h1 h2 _ _ _ _ _ _ _ _ _ _ _ _
          (iblk0 V c 0 t) (iblk0 V c 1 t) (iblk0 V c 2 t) (iblk0 V c 3 t) ((dat0 V c).before 4 t d4) _ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists d4; iexact H4
    · -- a middle column tile
      have h1 : ¬condFirst0 (grid0.coords t) := fun h => hf ((hcondFirst0 t).mp h)
      have hz : t.val ≠ 0 := fun h => hf (by rw [h])
      rw [acc0_next V c t hf]
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel0_mid c Set.univ (grid0.coords t) h1 h2 _ _ _ _ _ _ _ _ _ _ _ _
        (iblk0 V c 0 t) (iblk0 V c 1 t) (iblk0 V c 2 t) (iblk0 V c 3 t) ((dat0 V c).before 4 t d4) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the kernel is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the running minimum is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega), PhiA0_eq]
  iintro ⟨⟨HS, HR⟩, Hg⟩
  isplitl [HS HR]
  · isplitl [HS]; · iexists _; iexact HS
    iexact HR
  iexact Hg

end Region

end Cert.Kernel.Hand

end
-- ==== Proof.KBody1.lean ====
import proofs.«106419_j65987877535942_1_alg».proof.Proof.Gen.Kernel.Launch
import proofs.«106419_j65987877535942_1_alg».proof.Proof.Gen.Kernel.Skeleton
import proofs.«106419_j65987877535942_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 1: the row-minimum kernel, point by point

The grid is 4 batches × 8 row tiles × 8 column tiles, the column tile fastest.  A scratch column of 1024
numbers carries the running minimum of a row tile across its eight column tiles: reset to +∞ at column
tile 0, lowered by each tile's minimum, and at column tile 7 written out with the rows' own square norms
added.  Three cases of the body, by the column tile: the first, a middle one, the last. -/

/-- The whole-buffer rectangles start at zero on every axis. -/
private theorem hz2 : (![0, 0] : Fin 2 → Nat) = fun _ => 0 := by funext a; fin_cases a <;> rfl
private theorem hz3 : (![0, 0, 0] : Fin 3 → Nat) = fun _ => 0 := by funext a; fin_cases a <;> rfl

/-- Column tile 0: the body's first condition, as it computes it from the third grid coordinate. -/
abbrev condFirst1 (i : grid1.Coords) : Prop :=
  (Scalar.cmpi .ne (Scalar.extui (Scalar.cmpi .eq (BitVec.ofNat 32 (i 2).val) 0#32)) 0#32) = 1#1
/-- Column tile 7: the body's second condition. -/
abbrev condLast1 (i : grid1.Coords) : Prop := k1_cond2 i = 1#1

/-- The column tile is the point's number modulo 8. -/
theorem hcondFirst1 : ∀ t : Fin cfg1.N, condFirst1 (grid1.coords t) ↔ t.val % 8 = 0 :=
  (by decide +kernel : ∀ t : Fin grid1.N, condFirst1 (grid1.coords t) ↔ t.val % 8 = 0)
theorem hcondLast1 : ∀ t : Fin cfg1.N, condLast1 (grid1.coords t) ↔ t.val % 8 = 7 :=
  (by decide +kernel : ∀ t : Fin grid1.N, condLast1 (grid1.coords t) ↔ t.val % 8 = 7)

/-- The output window is live exactly at the last column tile, and only there is it written back. -/
theorem idle1_4_of : ∀ t : Fin cfg1.N, ¬condLast1 (grid1.coords t) → cfg1.idle 4 (grid1.coords t) = true :=
  (by decide +kernel : ∀ t : Fin grid1.N, ¬condLast1 (grid1.coords t) → cfg1.idle 4 (grid1.coords t) = true)
theorem live1_4_of : ∀ t : Fin cfg1.N, condLast1 (grid1.coords t) → cfg1.idle 4 (grid1.coords t) = false :=
  (by decide +kernel : ∀ t : Fin grid1.N, condLast1 (grid1.coords t) → cfg1.idle 4 (grid1.coords t) = false)
theorem noFlush1_4_of (t : Fin cfg1.N) (h : ¬condLast1 (grid1.coords t)) : (cfg1.win 4).flush t = false :=
  Bool.eq_false_iff.mpr fun hf => h ((hcondLast1 t).mpr ((flush1_4 t).mp hf))

/-- The scratch column, a whole buffer of the kernel's own. -/
abbrev scM1 : Memref sig .tc .vmem S1024x1 .f32 := Memref.whole cc1_scratch0

/-! ## The body, case by case -/

set_option maxHeartbeats 1000000 in
/-- A MIDDLE column tile: the scratch column `s` is lowered by this tile's minimum; nothing else changes. -/
theorem sound_kernel1_mid (c : Dev nD) (E : Set ℕ) (i : grid1.Coords) (h1 : ¬condFirst1 i) (h2 : ¬condLast1 i)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1024x1 .f32) (harg8 : arg8.IsWhole)
    (x3 x4 : Vec F S1x3x1024 .f32) (x5 x6 x7 : Vec F S1x1x1024 .f32) (s : Vec F S1024x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare s
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (k1_pay2 x3 x4 x5 s)) -∗ K ⟨⟩))
      ⊢ wp frame (wpE (defs₀ (F := F)) Variants.none c none) E (cc1__row_min_kernel i arg3 harg3 arg4 harg4 arg5 harg5 arg6 harg6 arg7 harg7 arg8 harg8) K := by
  simp only [cc1__row_min_kernel_eq_skeleton]; unfold cc1__row_min_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  rw [View.read_writes_eq_canon _ _ _ (fun y => ⟨_, List.mem_cons_self, View.mem_set_unit_zero hz2 Facts₀.inb_S1024x1_S1024x1_0_0 y⟩)]
  first | rw [View.canon_unit_zero hz2] | rw [View.canon_cons_unit_zero hz2]
  simp only [View.readAt_eq_ld, View.ld_unit_zero (S := S1x3x1024) hz3, View.ld_unit_zero (S := S1x1x1024) hz3,
    View.ld_unit_zero (S := S1024x1) hz2, View.readCov_unit_zero (S := S1024x1) _ hz2]

set_option maxHeartbeats 1000000 in
/-- The FIRST column tile: whatever the scratch column held, it is reset to +∞ and lowered by this tile's
    minimum. -/
theorem sound_kernel1_first (c : Dev nD) (E : Set ℕ) (i : grid1.Coords) (h1 : condFirst1 i) (h2 : ¬condLast1 i)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1024x1 .f32) (harg8 : arg8.IsWhole)
    (x3 x4 : Vec F S1x3x1024 .f32) (x5 x6 x7 : Vec F S1x1x1024 .f32) (s : Vec F S1024x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare s
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (k1_pay2 x3 x4 x5 (k1_pay1 (F := F)))) -∗ K ⟨⟩))
      ⊢ wp frame (wpE (defs₀ (F := F)) Variants.none c none) E (cc1__row_min_kernel i arg3 harg3 arg4 harg4 arg5 harg5 arg6 harg6 arg7 harg7 arg8 harg8) K := by
  simp only [cc1__row_min_kernel_eq_skeleton]; unfold cc1__row_min_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  rw [View.read_writes_eq_canon _ _ _ (fun y => ⟨_, List.mem_cons_self, View.mem_set_unit_zero hz2 Facts₀.inb_S1024x1_S1024x1_0_0 y⟩)]
  first | rw [View.canon_unit_zero hz2] | rw [View.canon_cons_unit_zero hz2]
  simp only [View.readAt_eq_ld, View.ld_unit_zero (S := S1x3x1024) hz3, View.ld_unit_zero (S := S1x1x1024) hz3,
    View.ld_unit_zero (S := S1024x1) hz2, View.readCov_unit_zero (S := S1024x1) _ hz2]

set_option maxHeartbeats 1000000 in
/-- The LAST column tile: the scratch column is lowered by this tile's minimum, and the output block
    receives it with the rows' square norms added. -/
theorem sound_kernel1_last (c : Dev nD) (E : Set ℕ) (i : grid1.Coords) (h1 : ¬condFirst1 i) (h2 : condLast1 i)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1024x1 .f32) (harg8 : arg8.IsWhole)
    (x3 x4 : Vec F S1x3x1024 .f32) (x5 x6 : Vec F S1x1x1024 .f32) (s : Vec F S1024x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare s
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k1_pay3 x6 (k1_pay2 x3 x4 x5 s))
            ∗ owns (c : Thread nD τ) arg8 fullShare (k1_pay2 x3 x4 x5 s)) -∗ K ⟨⟩))
      ⊢ wp frame (wpE (defs₀ (F := F)) Variants.none c none) E (cc1__row_min_kernel i arg3 harg3 arg4 harg4 arg5 harg5 arg6 harg6 arg7 harg7 arg8 harg8) K := by
  simp only [cc1__row_min_kernel_eq_skeleton]; unfold cc1__row_min_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf3; subst hf4; subst hf5; subst hf6; subst hf8
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_cons_self, View.mem_set_unit_zero hz3 Facts₀.inb_S1x1x1024_S1x1x1024_0_0_0 y⟩)]
    rw [View.canon_unit_zero hz3]
    simp only [View.readAt_eq_ld, View.ld_unit_zero (S := S1x3x1024) hz3, View.ld_unit_zero (S := S1x1x1024) hz3,
      View.ld_unit_zero (S := S1024x1) hz2, View.readCov_unit_zero (S := S1024x1) _ hz2]
  iexists _; isplitr
  swap; · iexact H8
  ipureintro
  sl_unfold_words
  rw [View.read_writes_eq_canon _ _ _ (fun y => ⟨_, List.mem_cons_self, View.mem_set_unit_zero hz2 Facts₀.inb_S1024x1_S1024x1_0_0 y⟩)]
  first | rw [View.canon_unit_zero hz2] | rw [View.canon_cons_unit_zero hz2]
  simp only [View.readAt_eq_ld, View.ld_unit_zero (S := S1x3x1024) hz3, View.ld_unit_zero (S := S1x1x1024) hz3,
    View.ld_unit_zero (S := S1024x1) hz2, View.readCov_unit_zero (S := S1024x1) _ hz2]

/-! ## The proof data of this launch, at the buffer contents `V` it is entered with -/

section Region

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- THE RUNNING MINIMUM.  The scratch column after point `n`: at a first column tile the reset value
    lowered by the tile's minimum, otherwise what the point before left, lowered by the tile's minimum. -/
def acc1 (c : Dev nD) : (n : ℕ) → n < cfg1.N → Vec F S1024x1 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 8 = 0 then
      k1_pay2 (iblk1 V c 0 ⟨n + 1, hn⟩) (iblk1 V c 1 ⟨n + 1, hn⟩) (iblk1 V c 2 ⟨n + 1, hn⟩) (k1_pay1 (F := F))
    else
      k1_pay2 (iblk1 V c 0 ⟨n + 1, hn⟩) (iblk1 V c 1 ⟨n + 1, hn⟩) (iblk1 V c 2 ⟨n + 1, hn⟩) (acc1 c n (Nat.lt_of_succ_lt hn))

theorem acc1_first (c : Dev nD) (t : Fin cfg1.N) (h : t.val % 8 = 0) :
    acc1 V c t.val t.isLt = k1_pay2 (iblk1 V c 0 t) (iblk1 V c 1 t) (iblk1 V c 2 t) (k1_pay1 (F := F)) := by
  obtain ⟨n, hn⟩ := t
  cases n with
  | zero => rfl
  | succ n => exact if_pos h

theorem acc1_next (c : Dev nD) (t : Fin cfg1.N) (h : ¬t.val % 8 = 0) :
    acc1 V c t.val t.isLt = k1_pay2 (iblk1 V c 0 t) (iblk1 V c 1 t) (iblk1 V c 2 t)
      (acc1 V c (t.val - 1) (Nat.lt_of_le_of_lt (Nat.sub_le _ _) t.isLt)) := by
  obtain ⟨n, hn⟩ := t
  cases n with
  | zero => exact absurd (Nat.zero_mod _) h
  | succ n => exact if_neg h

/-- Every scoped buffer that is neither a staging buffer of this launch nor its scratch column, at some contents. -/
abbrev rest1 (c : Dev nD) : sProp 𝕄 :=
  Pipeline.scopedRestBut (Ix := Unit) (Name := ℕ) (U := UR sig nD τ) (Lvl := ℕ) (Val := Elt F) spec1 c [cc1_scratch0]

/-- The invariant every launch is entered with, the scratch column taken out of the scoped rest. -/
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole]
  rfl

/-- The invariant before point `n`: before the first point the one the launch is entered with; afterwards the
    scratch column at the running minimum the point before left, the other scoped buffers at anything, the
    generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ rest1 c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ rest1 c) ∗ (∃ r, prngReg c r)) := by
  cases n with
  | zero => exact absurd rfl hz
  | succ n => rfl

/-- The proof data: the arrays as the launch finds them; after the body each input's buffer at its block, the
    output's at the running minimum plus the rows' square norms (consulted only at a last column tile, where the
    block is written back); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (iblk1 V c 3 t) (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (iblk1 V c 3 t) (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_in (c : Dev nD) (t : Fin cfg1.N) (w : Fin cfg1.W) (hw : cfg1.idle w (grid1.coords t) = false) :
    (dat1 V c).leavesExact w t = owns (c : Thread nD τ) ((cfg1.win w).stage (cfg1.slots t w)) fullShare ((dat1 V c).after w t) := by
  unfold Dat.leavesExact; rw [hw]

set_option maxHeartbeats 4000000 in
/-- The body at any point, by the column tile: the invariant hands it the scratch column (at anything before
    the first point, else at what the point before left) and takes it back at this point's running minimum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_in V c t 0 rfl, leaves1_in V c t 1 rfl, leaves1_in V c t 2 rfl, leaves1_in V c t 3 rfl,
    after1_0, after1_1, after1_2, after1_3]
  have hN : t.val < 256 := lt_of_lt_of_eq t.isLt (show cfg1.N = 256 from N_1)
  by_cases hl : t.val % 8 = 7
  · -- the last column tile
    have h1 : ¬condFirst1 (grid1.coords t) := fun h => by have := (hcondFirst1 t).mp h; omega
    have h2 : condLast1 (grid1.coords t) := (hcondLast1 t).mpr hl
    have hz : t.val ≠ 0 := by omega
    rw [leaves1_in V c t 4 (live1_4_of t h2), after1_4, acc1_next V c t (by omega)]
    rw [PhiS1_castSucc V c t, PhiS1_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (sound_kernel1_last c Set.univ (grid1.coords t) h1 h2 _ _ _ _ _ _ _ _ _ _ _ _
      (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · have h2 : ¬condLast1 (grid1.coords t) := fun h => hl ((hcondLast1 t).mp h)
    rw [Dat.leavesExact_idle (dat1 V c) 4 t (idle1_4_of t h2) (noFlush1_4_of t h2)]
    by_cases hf : t.val % 8 = 0
    · -- a first column tile
      have h1 : condFirst1 (grid1.coords t) := (hcondFirst1 t).mpr hf
      rw [acc1_first V c t hf]
      by_cases hz : t.val = 0
      · rw [PhiS1_castSucc V c t, PhiS1_zero V c _ _ hz, PhiA1_eq]
        iintro ⟨⟨⟨⟨%s, HS⟩, HR⟩, Hg⟩, Ho, ⟨%d0, H0⟩, ⟨%d1, H1⟩, ⟨%d2, H2⟩, ⟨%d3, H3⟩, ⟨%d4, H4⟩⟩
        iapply (sound_kernel1_first c Set.univ (grid1.coords t) h1 h2 _ _ _ _ _ _ _ _ _ _ _ _
          (iblk1 V c 0 t) (iblk1 V c 1 t) (iblk1 V c 2 t) (iblk1 V c 3 t) ((dat1 V c).before 4 t d4) s _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists d4; iexact H4
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩⟩
        iapply (sound_kernel1_first c Set.univ (grid1.coords t) h1 h2 _ _ _ _ _ _ _ _ _ _ _ _
          (iblk1 V c 0 t) (iblk1 V c 1 t) (iblk1 V c 2 t) (iblk1 V c 3 t) ((dat1 V c).before 4 t d4) _ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists d4; iexact H4
    · -- a middle column tile
      have h1 : ¬condFirst1 (grid1.coords t) := fun h => hf ((hcondFirst1 t).mp h)
      have hz : t.val ≠ 0 := fun h => hf (by rw [h])
      rw [acc1_next V c t hf]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel1_mid c Set.univ (grid1.coords t) h1 h2 _ _ _ _ _ _ _ _ _ _ _ _
        (iblk1 V c 0 t) (iblk1 V c 1 t) (iblk1 V c 2 t) (iblk1 V c 3 t) ((dat1 V c).before 4 t d4) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the running minimum is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  iintro ⟨⟨HS, HR⟩, Hg⟩
  isplitl [HS HR]
  · isplitl [HS]; · iexists _; iexact HS
    iexact HR
  iexact Hg

end Region

end Cert.Kernel.Hand

end
-- ==== Proof.KRegs.lean ====
/-
  The launch side of the program's frame: the contents the two launches leave in their output arrays, each launch's
  proof data at the contents its region is entered from, the two regions as segments between the thread states
  "every unscoped buffer whole at the item's valuation, the generator register at some state, nothing owed", the
  launch's side conditions, and the frame claim from them.
-/
import proofs.«106419_j65987877535942_1_alg».proof.Proof.KBody0
import proofs.«106419_j65987877535942_1_alg».proof.Proof.KBody1
import proofs.«106419_j65987877535942_1_alg».proof.Proof.Gen.Kernel.Regions
import proofs.«106419_j65987877535942_1_alg».proof.Proof.Gen.Kernel.Launch
import proofs.«106419_j65987877535942_1_alg».proof.Proof.Gen.Kernel.Points
import Idealize.ShloMosaic.Lib.Pipeline.FrameBody
import Idealize.ShloMosaic.Lib.Pipeline.RegionsLoop
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the two launches leave in their output arrays -/

/-- The TensorCore's buffers when the first launch is entered. -/
abbrev Vin0 : (c : Dev nD) → (b : Ref sig .tc) → Buf (Elt F) ((c : Thread nD τ).loc b) :=
  fun c b => Gen.V1 m c (Proc.devRef .tc b)

/-- What the first launch's write-backs leave in its output array. -/
def out8 (c : Dev nD) : Buf (Elt F) ((c : Thread nD τ).loc main_v8) :=
  (dat0 (Vin0 m) c).arrAt 4 cfg0.N

/-- The buffers when the second launch is entered, stated from the first launch's output alone. -/
def Wmid (c : Dev nD) : Valuation τ sig (Elt F) :=
  StableHlo.after hostOps1 (Function.update (Gen.V1 m c) main_v8 (out8 m c))

/-- The same read at the TensorCore's references. -/
abbrev VinA : (c : Dev nD) → (b : Ref sig .tc) → Buf (Elt F) ((c : Thread nD τ).loc b) :=
  fun c b => Wmid m c (Proc.devRef .tc b)

/-- What the second launch's write-backs leave in its output array. -/
def out10 (c : Dev nD) : Buf (Elt F) ((c : Thread nD τ).loc main_v10) :=
  (dat1 (VinA m) c).arrAt 4 cfg1.N

/-- The contents the regions leave: the first launch's output array, the second's, and anything elsewhere
    (it is read at those two points only). -/
def outs : Gen.Outs (F := F) := fun _ r c =>
  if h : r = main_v8 then h ▸ out8 m c
  else if h' : r = main_v10 then h' ▸ out10 m c
  else m ((c : Thread nD τ).loc r)

theorem outs_main_v8 (j : ℕ) (c : Dev nD) : outs m j main_v8 c = out8 m c := by
  unfold outs; rw [dif_pos rfl]

theorem outs_main_v10 (j : ℕ) (c : Dev nD) : outs m j main_v10 c = out10 m c := by
  unfold outs; rw [dif_neg (by decide), dif_pos rfl]

/-- The TensorCore's buffers when the second launch is entered. -/
abbrev Vin1 : (c : Dev nD) → (b : Ref sig .tc) → Buf (Elt F) ((c : Thread nD τ).loc b) :=
  fun c b => Gen.V3 m (outs m) c (Proc.devRef .tc b)

/-- The buffers at the second launch's entry depend on the first launch's output only. -/
theorem V3_outs (c : Dev nD) : Gen.V3 m (outs m) c = Wmid m c := by
  show StableHlo.after hostOps1 (Function.update (Gen.V1 m c) main_v8 (outs m 2 main_v8 c)) = _
  rw [outs_main_v8]; rfl

theorem Vin1_eq : Vin1 m = VinA m := by
  funext c b; show Gen.V3 m (outs m) c (Proc.devRef .tc b) = _; rw [V3_outs]

/-- The first launch's output array holds what its write-backs leave. -/
theorem outs_2 (c : Dev nD) :
    outs m 2 main_v8 c = (dat0 (fun c b => Gen.V1 m c (Proc.devRef .tc b)) c).arrAt 4 cfg0.N :=
  outs_main_v8 m 2 c

/-- The second launch's output array holds what its write-backs leave. -/
theorem outs_4 (c : Dev nD) :
    outs m 4 main_v10 c = (dat1 (fun c b => Gen.V3 m (outs m) c (Proc.devRef .tc b)) c).arrAt 4 cfg1.N := by
  rw [outs_main_v10, show (fun (c : Dev nD) (b : Ref sig .tc) => Gen.V3 m (outs m) c (Proc.devRef .tc b)) = VinA m from Vin1_eq m]; rfl

/-! ## The proof data family -/

/-- Each launch's proof data at the contents its region is entered from. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-! ## The exit contents of each region -/

/-- At the first region's exit each window's array holds the exit contents at its reference: an input array is never
    written, the output array holds what the write-backs leave. -/
theorem hF0 (c : Dev nD) (w : Fin cfg0.W) :
    (pdats m 0 c).arrAt w cfg0.N = Gen.V2 m (outs m) c (Proc.devRef .tc (Pipeline.arrRef spec0 w)) := by
  match w with
  | ⟨0, _⟩ =>
    exact ((dat0 (Vin0 m) c).arrAt_in 0 rfl _).trans ((A_eq0 (Vin0 m) c 0).trans (Gen.V2_of m (outs m) c _ (by decide)).symm)
  | ⟨1, _⟩ =>
    exact ((dat0 (Vin0 m) c).arrAt_in 1 rfl _).trans ((A_eq0 (Vin0 m) c 1).trans (Gen.V2_of m (outs m) c _ (by decide)).symm)
  | ⟨2, _⟩ =>
    exact ((dat0 (Vin0 m) c).arrAt_in 2 rfl _).trans ((A_eq0 (Vin0 m) c 2).trans (Gen.V2_of m (outs m) c _ (by decide)).symm)
  | ⟨3, _⟩ =>
    exact ((dat0 (Vin0 m) c).arrAt_in 3 rfl _).trans ((A_eq0 (Vin0 m) c 3).trans (Gen.V2_of m (outs m) c _ (by decide)).symm)
  | ⟨4, _⟩ =>
    show (dat0 (Vin0 m) c).arrAt 4 cfg0.N
      = Function.update (Gen.V1 m c) (Proc.devRef .tc main_v8) (outs m 2 main_v8 c) (Proc.devRef .tc main_v8)
    rw [Function.update_self, outs_main_v8]; rfl

/-- Every buffer that is no window's array of the first launch leaves its region as it entered. -/
theorem hrest0 (c : Dev nD) (b : Ref sig .tc) (hb : b ∉ Finset.univ.image (Pipeline.arrRef spec0)) :
    Gen.V2 m (outs m) c (Proc.devRef .tc b) = Vin0 m c b :=
  Gen.V2_of m (outs m) c b fun h =>
    hb (Finset.mem_image.mpr ⟨4, Finset.mem_univ _, (List.mem_singleton.mp h).symm⟩)

/-- At the second region's exit each window's array holds the exit contents at its reference. -/
theorem hF1 (c : Dev nD) (w : Fin cfg1.W) :
    (pdats m 1 c).arrAt w cfg1.N = Gen.V4 m (outs m) c (Proc.devRef .tc (Pipeline.arrRef spec1 w)) := by
  match w with
  | ⟨0, _⟩ =>
    exact ((dat1 (Vin1 m) c).arrAt_in 0 rfl _).trans ((A_eq1 (Vin1 m) c 0).trans (Gen.V4_of m (outs m) c _ (by decide)).symm)
  | ⟨1, _⟩ =>
    exact ((dat1 (Vin1 m) c).arrAt_in 1 rfl _).trans ((A_eq1 (Vin1 m) c 1).trans (Gen.V4_of m (outs m) c _ (by decide)).symm)
  | ⟨2, _⟩ =>
    exact ((dat1 (Vin1 m) c).arrAt_in 2 rfl _).trans ((A_eq1 (Vin1 m) c 2).trans (Gen.V4_of m (outs m) c _ (by decide)).symm)
  | ⟨3, _⟩ =>
    exact ((dat1 (Vin1 m) c).arrAt_in 3 rfl _).trans ((A_eq1 (Vin1 m) c 3).trans (Gen.V4_of m (outs m) c _ (by decide)).symm)
  | ⟨4, _⟩ =>
    show (dat1 (Vin1 m) c).arrAt 4 cfg1.N
      = Function.update (Gen.V3 m (outs m) c) (Proc.devRef .tc main_v10) (outs m 4 main_v10 c) (Proc.devRef .tc main_v10)
    rw [Function.update_self, outs_4]

/-- Every buffer that is no window's array of the second launch leaves its region as it entered. -/
theorem hrest1 (c : Dev nD) (b : Ref sig .tc) (hb : b ∉ Finset.univ.image (Pipeline.arrRef spec1)) :
    Gen.V4 m (outs m) c (Proc.devRef .tc b) = Gen.V3 m (outs m) c (Proc.devRef .tc b) :=
  Gen.V4_of m (outs m) c b fun h =>
    hb (Finset.mem_image.mpr ⟨4, Finset.mem_univ _, (List.mem_singleton.mp h).symm⟩)

/-! ## What rides beside the buffers -/

/-- No level is assigned: no core owes another anything. -/
abbrev Lz : GSem nD τ sig → Finset Unit := fun _ => ∅
abbrev lvz : GSem nD τ sig → Unit → ℕ := fun _ _ => 0

/-- Beside the buffers, through every item: the core's generator register at some state, and nothing owed. -/
def E : Fin 3 → Dev nD → sProp 𝕄 := fun _ c =>
  iprop((∃ r, prngReg c r) ∗ ∃ W, owes (c : Thread nD τ) (0 : CellTallies nD τ sig Unit) W)

/-! ## Small steps shared by the two regions -/

/-- The kernels' class invariant is the generator register and the scoped buffers no window stages; a resource
    beside them is dropped. -/
theorem ΦA_intro {gr W : Nat} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hprng, -, Hscoped⟩
  isplitl [Hscoped]; · iexact Hscoped
  iexact Hprng

/-- The class invariant gives the generator register and those scoped buffers back. -/
theorem ΦA_elim {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hscoped, Hprng⟩
  isplitl [Hprng]; · iexact Hprng
  isplitr; · iempintro
  iexact Hscoped

/-! ## The regions as segments -/

set_option backward.isDefEq.respectTransparency.types false in
/-- The first launch's region: entered with every unscoped buffer at the contents after the first host stretch, left
    with them at the same contents but for the launch's output array, which holds what the write-backs leave. The
    generator register goes into the kernel's invariant and comes back; nothing is owed; the kernel has no
    semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (Gen.V1 m c) ∗ E 0 c)
  post c := iprop(StableHlo.held (c : Thread nD τ) (Pipeline.ucRefs τ sig) (Gen.V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    -- the unscoped buffers are the launch's arrays and the rest
    have hsplit := Pipeline.arrays_of_unscopedBufs (p := 0) (pcfgs (F := F)) Gen.adm (pdats m) launch0.win launch0.arr_whole c
      ((pdats m 0 c).share_full fun _ => rfl) (Vin0 m c) (fun w => A_eq0 (Vin0 m) c w)
    rw [Pipeline.unscopedBufs_held] at hsplit
    unfold E
    iintro ⟨⟨Hheld, Hprng, Howes⟩, -, -⟩
    ihave Hs := hsplit $$ Hheld
    icases Hs with ⟨Harr, Hrest⟩
    imodintro
    isplitl [Harr]; · iexact Harr
    isplitr
    · -- no table is prefetched
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := (ΦA_intro spec0 c _).trans (hin0 (Vin0 m) c)
  hout c := by
    rw [Pipeline.ownSems0_none]
    exact (hout0 (Vin0 m) c).trans (ΦA_elim spec0 c)
  hexit c := by
    -- the arrays at their final contents and the rest are the unscoped buffers at the exit contents
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (fun b => Gen.V2 m (outs m) c (Proc.devRef .tc b)) ((pdats m 0 c).arrAt · cfg0.N) (hF0 m c) (hrest0 m c)
    rw [Pipeline.unscopedBufs_held c (Gen.V2 m (outs m) c)] at hjoin
    unfold E
    iintro ⟨Harr, Howes, Hprng, Hrest⟩
    imodintro
    isplitl [Harr Hrest]
    · iapply hjoin
      isplitl [Harr]; · iexact Harr
      iexact Hrest
    isplitl [Hprng]; · iexact Hprng
    unfold Pipeline.Dat.owesAt Pipeline.owesWithin
    icases Howes with ⟨%W, -, Howes⟩
    iexists W
    iexact Howes

set_option backward.isDefEq.respectTransparency.types false in
/-- The second launch's region: entered with every unscoped buffer at the contents after the second host stretch,
    left with them at the same contents but for the launch's output array. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (Gen.V3 m (outs m) c) ∗ E 1 c)
  post c := iprop(StableHlo.held (c : Thread nD τ) (Pipeline.ucRefs τ sig) (Gen.V4 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    have hsplit := Pipeline.arrays_of_unscopedBufs (p := 1) (pcfgs (F := F)) Gen.adm (pdats m) launch1.win launch1.arr_whole c
      ((pdats m 1 c).share_full fun _ => rfl) (Vin1 m c) (fun w => A_eq1 (Vin1 m) c w)
    rw [Pipeline.unscopedBufs_held] at hsplit
    unfold E
    iintro ⟨⟨Hheld, Hprng, Howes⟩, -, -⟩
    ihave Hs := hsplit $$ Hheld
    icases Hs with ⟨Harr, Hrest⟩
    imodintro
    isplitl [Harr]; · iexact Harr
    isplitr
    · -- no table is prefetched
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := (ΦA_intro spec1 c _).trans (hin1 (Vin1 m) c)
  hout c := by
    rw [Pipeline.ownSems0_none]
    exact (hout1 (Vin1 m) c).trans (ΦA_elim spec1 c)
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (fun b => Gen.V4 m (outs m) c (Proc.devRef .tc b)) ((pdats m 1 c).arrAt · cfg1.N) (hF1 m c) (hrest1 m c)
    rw [Pipeline.unscopedBufs_held c (Gen.V4 m (outs m) c)] at hjoin
    unfold E
    iintro ⟨Harr, Howes, Hprng, Hrest⟩
    imodintro
    isplitl [Harr Hrest]
    · iapply hjoin
      isplitl [Harr]; · iexact Harr
      iexact Hrest
    isplitl [Hprng]; · iexact Hprng
    unfold Pipeline.Dat.owesAt Pipeline.owesWithin
    icases Howes with ⟨%W, -, Howes⟩
    iexists W
    iexact Howes

/-! ## The regions meet the items' thread states -/

theorem hpre0 (c : Dev nD) :
    iprop(StableHlo.held (c : Thread nD τ) (Pipeline.ucRefs τ sig) (Gen.V1 m c) ∗ E (F := F) 0 c) ⊢ (reg0 m).pre c := .rfl
theorem hpost0 (c : Dev nD) :
    (reg0 m).post c ⊢ iprop(StableHlo.held (c : Thread nD τ) (Pipeline.ucRefs τ sig) (Gen.V2 m (outs m) c) ∗ E (F := F) 1 c) := .rfl
theorem hpre1 (c : Dev nD) :
    iprop(StableHlo.held (c : Thread nD τ) (Pipeline.ucRefs τ sig) (Gen.V3 m (outs m) c) ∗ E (F := F) 1 c) ⊢ (reg1 m).pre c := .rfl
theorem hpost1 (c : Dev nD) :
    (reg1 m).post c ⊢ iprop(StableHlo.held (c : Thread nD τ) (Pipeline.ucRefs τ sig) (Gen.V4 m (outs m) c) ∗ E (F := F) 2 c) := .rfl

/-! ## The launch's side conditions -/

/-- The launch element: the pipeline library's at every launch's staging cells. -/
abbrev u₀ : UR sig nD τ := initOf (Pipeline.cells cfgs cellOf_inj) (Pipeline.launchToks cfgs cellOf_inj)

/-- The launch element is the library's own, and no ghost resource is dealt to a core. -/
theorem hu₀ : (ownU (u₀ : UR sig nD τ) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  rw [BI.bigSep_emp_const]
  iintro Hu
  imodintro
  isplitl [Hu]
  · iapply (show (ownU (u₀ : UR sig nD τ) : sProp 𝕄) ⊢ BI.own (emb₁ (u₀ : UR sig nD τ)) from .rfl)
    iexact Hu
  iempintro

/-- What the launch deals a core makes the first rest state: the generator register, and the core's empty dues. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (E (F := F) 0) : sProp 𝕄) := by
  refine Pipeline.initEach Lz lvz fun c => ?_
  unfold E
  iintro ⟨⟨-, Howes, -, Hprng, -⟩, -⟩
  imodintro
  isplitl [Hprng]
  · iexists _; iexact Hprng
  iexists ∅
  iexact Howes

/-- The last rest state owes nothing. -/
theorem hE2 (c : Dev nD) :
    E (F := F) 2 c ⊢ (iprop(∃ W, owes (c : Thread nD τ) (0 : CellTallies nD τ sig Unit) W) : sProp 𝕄) := by
  unfold E
  iintro ⟨-, Howes⟩
  iexact Howes

/-! ## The frame -/

set_option backward.isDefEq.respectTransparency.types false in
/-- From any memory with zero counters every weakly fair execution of the program terminates and every final memory
    holds each argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m (Ix := Unit) (U := UR sig nD τ) (Lvl := ℕ) emb₁ () Variants.none Lz lvz (fun _ _ => rfl) ρ (outs m) (pdats m)
    0 (fun _ => BI.emp) u₀ hu₀ E (hE0 ρ) hE2 (reg0 m) (hpre0 m) (hpost0 m) (reg1 m) (hpre1 m) (hpost1 m)

end Cert.Kernel.Hand

end
-- ==== Proof.Body0.lean ====
import proofs.«106419_j65987877535942_1_alg».proof.Proof.Gen.KernelIdeal.Launch
import proofs.«106419_j65987877535942_1_alg».proof.Proof.Gen.KernelIdeal.Skeleton
import proofs.«106419_j65987877535942_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 0: the row-minimum kernel, point by point

The grid is 4 batches × 8 row tiles × 8 column tiles, the column tile fastest.  A scratch column of 1024
numbers carries the running minimum of a row tile across its eight column tiles: reset to +∞ at column
tile 0, lowered by each tile's minimum, and at column tile 7 written out with the rows' own square norms
added.  Three cases of the body, by the column tile: the first, a middle one, the last. -/

/-- The whole-buffer rectangles start at zero on every axis. -/
private theorem hz2 : (![0, 0] : Fin 2 → Nat) = fun _ => 0 := by funext a; fin_cases a <;> rfl
private theorem hz3 : (![0, 0, 0] : Fin 3 → Nat) = fun _ => 0 := by funext a; fin_cases a <;> rfl

/-- Column tile 0: the body's first condition, as it computes it from the third grid coordinate. -/
abbrev condFirst0 (i : grid0.Coords) : Prop :=
  (Scalar.cmpi .ne (Scalar.extui (Scalar.cmpi .eq (BitVec.ofNat 32 (i 2).val) 0#32)) 0#32) = 1#1
/-- Column tile 7: the body's second condition. -/
abbrev condLast0 (i : grid0.Coords) : Prop := k0_cond2 i = 1#1

/-- The column tile is the point's number modulo 8. -/
theorem hcondFirst0 : ∀ t : Fin cfg0.N, condFirst0 (grid0.coords t) ↔ t.val % 8 = 0 :=
  (by decide +kernel : ∀ t : Fin grid0.N, condFirst0 (grid0.coords t) ↔ t.val % 8 = 0)
theorem hcondLast0 : ∀ t : Fin cfg0.N, condLast0 (grid0.coords t) ↔ t.val % 8 = 7 :=
  (by decide +kernel : ∀ t : Fin grid0.N, condLast0 (grid0.coords t) ↔ t.val % 8 = 7)

/-- The output window is live exactly at the last column tile, and only there is it written back. -/
theorem idle0_4_of : ∀ t : Fin cfg0.N, ¬condLast0 (grid0.coords t) → cfg0.idle 4 (grid0.coords t) = true :=
  (by decide +kernel : ∀ t : Fin grid0.N, ¬condLast0 (grid0.coords t) → cfg0.idle 4 (grid0.coords t) = true)
theorem live0_4_of : ∀ t : Fin cfg0.N, condLast0 (grid0.coords t) → cfg0.idle 4 (grid0.coords t) = false :=
  (by decide +kernel : ∀ t : Fin grid0.N, condLast0 (grid0.coords t) → cfg0.idle 4 (grid0.coords t) = false)
theorem noFlush0_4_of (t : Fin cfg0.N) (h : ¬condLast0 (grid0.coords t)) : (cfg0.win 4).flush t = false :=
  Bool.eq_false_iff.mpr fun hf => h ((hcondLast0 t).mpr ((flush0_4 t).mp hf))

/-- The scratch column, a whole buffer of the kernel's own. -/
abbrev scM0 : Memref sig .tc .vmem S1024x1 .f32 := Memref.whole cc0_scratch0

/-! ## The body, case by case -/

set_option maxHeartbeats 1000000 in
/-- A MIDDLE column tile: the scratch column `s` is lowered by this tile's minimum; nothing else changes. -/
theorem sound_kernel0_mid (c : Dev nD) (E : Set ℕ) (i : grid0.Coords) (h1 : ¬condFirst0 i) (h2 : ¬condLast0 i)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1024x1 .f32) (harg8 : arg8.IsWhole)
    (x3 x4 : Vec F S1x3x1024 .f32) (x5 x6 x7 : Vec F S1x1x1024 .f32) (s : Vec F S1024x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare s
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (k0_pay2 x3 x4 x5 s)) -∗ K ⟨⟩))
      ⊢ wp frame (wpE (defs₀ (F := F)) Variants.none c none) E (cc0__row_min_kernel i arg3 harg3 arg4 harg4 arg5 harg5 arg6 harg6 arg7 harg7 arg8 harg8) K := by
  simp only [cc0__row_min_kernel_eq_skeleton]; unfold cc0__row_min_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  rw [View.read_writes_eq_canon _ _ _ (fun y => ⟨_, List.mem_cons_self, View.mem_set_unit_zero hz2 Facts₀.inb_S1024x1_S1024x1_0_0 y⟩)]
  first | rw [View.canon_unit_zero hz2] | rw [View.canon_cons_unit_zero hz2]
  simp only [View.readAt_eq_ld, View.ld_unit_zero (S := S1x3x1024) hz3, View.ld_unit_zero (S := S1x1x1024) hz3,
    View.ld_unit_zero (S := S1024x1) hz2, View.readCov_unit_zero (S := S1024x1) _ hz2]

set_option maxHeartbeats 1000000 in
/-- The FIRST column tile: whatever the scratch column held, it is reset to +∞ and lowered by this tile's
    minimum. -/
theorem sound_kernel0_first (c : Dev nD) (E : Set ℕ) (i : grid0.Coords) (h1 : condFirst0 i) (h2 : ¬condLast0 i)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1024x1 .f32) (harg8 : arg8.IsWhole)
    (x3 x4 : Vec F S1x3x1024 .f32) (x5 x6 x7 : Vec F S1x1x1024 .f32) (s : Vec F S1024x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare s
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (k0_pay2 x3 x4 x5 (k0_pay1 (F := F)))) -∗ K ⟨⟩))
      ⊢ wp frame (wpE (defs₀ (F := F)) Variants.none c none) E (cc0__row_min_kernel i arg3 harg3 arg4 harg4 arg5 harg5 arg6 harg6 arg7 harg7 arg8 harg8) K := by
  simp only [cc0__row_min_kernel_eq_skeleton]; unfold cc0__row_min_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  rw [View.read_writes_eq_canon _ _ _ (fun y => ⟨_, List.mem_cons_self, View.mem_set_unit_zero hz2 Facts₀.inb_S1024x1_S1024x1_0_0 y⟩)]
  first | rw [View.canon_unit_zero hz2] | rw [View.canon_cons_unit_zero hz2]
  simp only [View.readAt_eq_ld, View.ld_unit_zero (S := S1x3x1024) hz3, View.ld_unit_zero (S := S1x1x1024) hz3,
    View.ld_unit_zero (S := S1024x1) hz2, View.readCov_unit_zero (S := S1024x1) _ hz2]

set_option maxHeartbeats 1000000 in
/-- The LAST column tile: the scratch column is lowered by this tile's minimum, and the output block
    receives it with the rows' square norms added. -/
theorem sound_kernel0_last (c : Dev nD) (E : Set ℕ) (i : grid0.Coords) (h1 : ¬condFirst0 i) (h2 : condLast0 i)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1024x1 .f32) (harg8 : arg8.IsWhole)
    (x3 x4 : Vec F S1x3x1024 .f32) (x5 x6 : Vec F S1x1x1024 .f32) (s : Vec F S1024x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare s
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k0_pay3 x6 (k0_pay2 x3 x4 x5 s))
            ∗ owns (c : Thread nD τ) arg8 fullShare (k0_pay2 x3 x4 x5 s)) -∗ K ⟨⟩))
      ⊢ wp frame (wpE (defs₀ (F := F)) Variants.none c none) E (cc0__row_min_kernel i arg3 harg3 arg4 harg4 arg5 harg5 arg6 harg6 arg7 harg7 arg8 harg8) K := by
  simp only [cc0__row_min_kernel_eq_skeleton]; unfold cc0__row_min_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf3; subst hf4; subst hf5; subst hf6; subst hf8
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_cons_self, View.mem_set_unit_zero hz3 Facts₀.inb_S1x1x1024_S1x1x1024_0_0_0 y⟩)]
    rw [View.canon_unit_zero hz3]
    simp only [View.readAt_eq_ld, View.ld_unit_zero (S := S1x3x1024) hz3, View.ld_unit_zero (S := S1x1x1024) hz3,
      View.ld_unit_zero (S := S1024x1) hz2, View.readCov_unit_zero (S := S1024x1) _ hz2]
  iexists _; isplitr
  swap; · iexact H8
  ipureintro
  sl_unfold_words
  rw [View.read_writes_eq_canon _ _ _ (fun y => ⟨_, List.mem_cons_self, View.mem_set_unit_zero hz2 Facts₀.inb_S1024x1_S1024x1_0_0 y⟩)]
  first | rw [View.canon_unit_zero hz2] | rw [View.canon_cons_unit_zero hz2]
  simp only [View.readAt_eq_ld, View.ld_unit_zero (S := S1x3x1024) hz3, View.ld_unit_zero (S := S1x1x1024) hz3,
    View.ld_unit_zero (S := S1024x1) hz2, View.readCov_unit_zero (S := S1024x1) _ hz2]

/-! ## The proof data of this launch, at the buffer contents `V` it is entered with -/

section Region

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- THE RUNNING MINIMUM.  The scratch column after point `n`: at a first column tile the reset value
    lowered by the tile's minimum, otherwise what the point before left, lowered by the tile's minimum. -/
def acc0 (c : Dev nD) : (n : ℕ) → n < cfg0.N → Vec F S1024x1 .f32
  | 0, hn => k0_pay2 (iblk0 V c 0 ⟨0, hn⟩) (iblk0 V c 1 ⟨0, hn⟩) (iblk0 V c 2 ⟨0, hn⟩) (k0_pay1 (F := F))
  | n + 1, hn =>
    if (n + 1) % 8 = 0 then
      k0_pay2 (iblk0 V c 0 ⟨n + 1, hn⟩) (iblk0 V c 1 ⟨n + 1, hn⟩) (iblk0 V c 2 ⟨n + 1, hn⟩) (k0_pay1 (F := F))
    else
      k0_pay2 (iblk0 V c 0 ⟨n + 1, hn⟩) (iblk0 V c 1 ⟨n + 1, hn⟩) (iblk0 V c 2 ⟨n + 1, hn⟩) (acc0 c n (Nat.lt_of_succ_lt hn))

theorem acc0_first (c : Dev nD) (t : Fin cfg0.N) (h : t.val % 8 = 0) :
    acc0 V c t.val t.isLt = k0_pay2 (iblk0 V c 0 t) (iblk0 V c 1 t) (iblk0 V c 2 t) (k0_pay1 (F := F)) := by
  obtain ⟨n, hn⟩ := t
  cases n with
  | zero => rfl
  | succ n => exact if_pos h

theorem acc0_next (c : Dev nD) (t : Fin cfg0.N) (h : ¬t.val % 8 = 0) :
    acc0 V c t.val t.isLt = k0_pay2 (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact if_neg h

/-- Every scoped buffer that is neither a staging buffer of this launch nor its scratch column, at some contents. -/
abbrev rest0 (c : Dev nD) : sProp 𝕄 :=
  Pipeline.scopedRestBut (Ix := Unit) (Name := ℕ) (U := UR sig nD τ) (Lvl := ℕ) (Val := Elt F) spec0 c [cc0_scratch0]

/-- The invariant every launch is entered with, the scratch column taken out of the scoped rest. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole]
  rfl

/-- The invariant before point `n`: before the first point the one the launch is entered with; afterwards the
    scratch column at the running minimum the point before left, the other scoped buffers at anything, the
    generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ (∃ r, prngReg c r)) := by
  cases n with
  | zero => exact absurd rfl hz
  | succ n => rfl

/-- The proof data: the arrays as the launch finds them; after the body each input's buffer at its block, the
    output's at the running minimum plus the rows' square norms (consulted only at a last column tile, where the
    block is written back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (iblk0 V c 3 t) (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay3 (iblk0 V c 3 t) (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_in (c : Dev nD) (t : Fin cfg0.N) (w : Fin cfg0.W) (hw : cfg0.idle w (grid0.coords t) = false) :
    (dat0 V c).leavesExact w t = owns (c : Thread nD τ) ((cfg0.win w).stage (cfg0.slots t w)) fullShare ((dat0 V c).after w t) := by
  unfold Dat.leavesExact; rw [hw]

set_option maxHeartbeats 4000000 in
/-- The body at any point, by the column tile: the invariant hands it the scratch column (at anything before
    the first point, else at what the point before left) and takes it back at this point's running minimum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_in V c t 0 rfl, leaves0_in V c t 1 rfl, leaves0_in V c t 2 rfl, leaves0_in V c t 3 rfl,
    after0_0, after0_1, after0_2, after0_3]
  have hN : t.val < 256 := lt_of_lt_of_eq t.isLt (show cfg0.N = 256 from N_0)
  by_cases hl : t.val % 8 = 7
  · -- the last column tile
    have h1 : ¬condFirst0 (grid0.coords t) := fun h => by have := (hcondFirst0 t).mp h; omega
    have h2 : condLast0 (grid0.coords t) := (hcondLast0 t).mpr hl
    have hz : t.val ≠ 0 := by omega
    rw [leaves0_in V c t 4 (live0_4_of t h2), after0_4, acc0_next V c t (by omega)]
    rw [PhiS0_castSucc V c t, PhiS0_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (sound_kernel0_last c Set.univ (grid0.coords t) h1 h2 _ _ _ _ _ _ _ _ _ _ _ _
      (iblk0 V c 0 t) (iblk0 V c 1 t) (iblk0 V c 2 t) (iblk0 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · have h2 : ¬condLast0 (grid0.coords t) := fun h => hl ((hcondLast0 t).mp h)
    rw [Dat.leavesExact_idle (dat0 V c) 4 t (idle0_4_of t h2) (noFlush0_4_of t h2)]
    by_cases hf : t.val % 8 = 0
    · -- a first column tile
      have h1 : condFirst0 (grid0.coords t) := (hcondFirst0 t).mpr hf
      rw [acc0_first V c t hf]
      by_cases hz : t.val = 0
      · rw [PhiS0_castSucc V c t, PhiS0_zero V c _ _ hz, PhiA0_eq]
        iintro ⟨⟨⟨⟨%s, HS⟩, HR⟩, Hg⟩, Ho, ⟨%d0, H0⟩, ⟨%d1, H1⟩, ⟨%d2, H2⟩, ⟨%d3, H3⟩, ⟨%d4, H4⟩⟩
        iapply (sound_kernel0_first c Set.univ (grid0.coords t) h1 h2 _ _ _ _ _ _ _ _ _ _ _ _
          (iblk0 V c 0 t) (iblk0 V c 1 t) (iblk0 V c 2 t) (iblk0 V c 3 t) ((dat0 V c).before 4 t d4) s _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists d4; iexact H4
      · rw [PhiS0_castSucc V c t, PhiS0_pos V c _ _ hz]
        iintro ⟨⟨⟨HS, HR⟩, Hg⟩, Ho, ⟨%d0, H0⟩, ⟨%d1, H1⟩, ⟨%d2, H2⟩, ⟨%d3, H3⟩, ⟨%d4, H4⟩⟩
        iapply (sound_kernel0_first c Set.univ (grid0.coords t) h1 h2 _ _ _ _ _ _ _ _ _ _ _ _
          (iblk0 V c 0 t) (iblk0 V c 1 t) (iblk0 V c 2 t) (iblk0 V c 3 t) ((dat0 V c).before 4 t d4) _ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists d4; iexact H4
    · -- a middle column tile
      have h1 : ¬condFirst0 (grid0.coords t) := fun h => hf ((hcondFirst0 t).mp h)
      have hz : t.val ≠ 0 := fun h => hf (by rw [h])
      rw [acc0_next V c t hf]
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel0_mid c Set.univ (grid0.coords t) h1 h2 _ _ _ _ _ _ _ _ _ _ _ _
        (iblk0 V c 0 t) (iblk0 V c 1 t) (iblk0 V c 2 t) (iblk0 V c 3 t) ((dat0 V c).before 4 t d4) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the kernel is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the running minimum is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega), PhiA0_eq]
  iintro ⟨⟨HS, HR⟩, Hg⟩
  isplitl [HS HR]
  · isplitl [HS]; · iexists _; iexact HS
    iexact HR
  iexact Hg

end Region

end Cert.KernelIdeal.Hand

end
-- ==== Proof.Body1.lean ====
import proofs.«106419_j65987877535942_1_alg».proof.Proof.Gen.KernelIdeal.Launch
import proofs.«106419_j65987877535942_1_alg».proof.Proof.Gen.KernelIdeal.Skeleton
import proofs.«106419_j65987877535942_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 1: the row-minimum kernel, point by point

The grid is 4 batches × 8 row tiles × 8 column tiles, the column tile fastest.  A scratch column of 1024
numbers carries the running minimum of a row tile across its eight column tiles: reset to +∞ at column
tile 0, lowered by each tile's minimum, and at column tile 7 written out with the rows' own square norms
added.  Three cases of the body, by the column tile: the first, a middle one, the last. -/

/-- The whole-buffer rectangles start at zero on every axis. -/
private theorem hz2 : (![0, 0] : Fin 2 → Nat) = fun _ => 0 := by funext a; fin_cases a <;> rfl
private theorem hz3 : (![0, 0, 0] : Fin 3 → Nat) = fun _ => 0 := by funext a; fin_cases a <;> rfl

/-- Column tile 0: the body's first condition, as it computes it from the third grid coordinate. -/
abbrev condFirst1 (i : grid1.Coords) : Prop :=
  (Scalar.cmpi .ne (Scalar.extui (Scalar.cmpi .eq (BitVec.ofNat 32 (i 2).val) 0#32)) 0#32) = 1#1
/-- Column tile 7: the body's second condition. -/
abbrev condLast1 (i : grid1.Coords) : Prop := k1_cond2 i = 1#1

/-- The column tile is the point's number modulo 8. -/
theorem hcondFirst1 : ∀ t : Fin cfg1.N, condFirst1 (grid1.coords t) ↔ t.val % 8 = 0 :=
  (by decide +kernel : ∀ t : Fin grid1.N, condFirst1 (grid1.coords t) ↔ t.val % 8 = 0)
theorem hcondLast1 : ∀ t : Fin cfg1.N, condLast1 (grid1.coords t) ↔ t.val % 8 = 7 :=
  (by decide +kernel : ∀ t : Fin grid1.N, condLast1 (grid1.coords t) ↔ t.val % 8 = 7)

/-- The output window is live exactly at the last column tile, and only there is it written back. -/
theorem idle1_4_of : ∀ t : Fin cfg1.N, ¬condLast1 (grid1.coords t) → cfg1.idle 4 (grid1.coords t) = true :=
  (by decide +kernel : ∀ t : Fin grid1.N, ¬condLast1 (grid1.coords t) → cfg1.idle 4 (grid1.coords t) = true)
theorem live1_4_of : ∀ t : Fin cfg1.N, condLast1 (grid1.coords t) → cfg1.idle 4 (grid1.coords t) = false :=
  (by decide +kernel : ∀ t : Fin grid1.N, condLast1 (grid1.coords t) → cfg1.idle 4 (grid1.coords t) = false)
theorem noFlush1_4_of (t : Fin cfg1.N) (h : ¬condLast1 (grid1.coords t)) : (cfg1.win 4).flush t = false :=
  Bool.eq_false_iff.mpr fun hf => h ((hcondLast1 t).mpr ((flush1_4 t).mp hf))

/-- The scratch column, a whole buffer of the kernel's own. -/
abbrev scM1 : Memref sig .tc .vmem S1024x1 .f32 := Memref.whole cc1_scratch0

/-! ## The body, case by case -/

set_option maxHeartbeats 1000000 in
/-- A MIDDLE column tile: the scratch column `s` is lowered by this tile's minimum; nothing else changes. -/
theorem sound_kernel1_mid (c : Dev nD) (E : Set ℕ) (i : grid1.Coords) (h1 : ¬condFirst1 i) (h2 : ¬condLast1 i)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1024x1 .f32) (harg8 : arg8.IsWhole)
    (x3 x4 : Vec F S1x3x1024 .f32) (x5 x6 x7 : Vec F S1x1x1024 .f32) (s : Vec F S1024x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare s
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (k1_pay2 x3 x4 x5 s)) -∗ K ⟨⟩))
      ⊢ wp frame (wpE (defs₀ (F := F)) Variants.none c none) E (cc1__row_min_kernel i arg3 harg3 arg4 harg4 arg5 harg5 arg6 harg6 arg7 harg7 arg8 harg8) K := by
  simp only [cc1__row_min_kernel_eq_skeleton]; unfold cc1__row_min_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  rw [View.read_writes_eq_canon _ _ _ (fun y => ⟨_, List.mem_cons_self, View.mem_set_unit_zero hz2 Facts₀.inb_S1024x1_S1024x1_0_0 y⟩)]
  first | rw [View.canon_unit_zero hz2] | rw [View.canon_cons_unit_zero hz2]
  simp only [View.readAt_eq_ld, View.ld_unit_zero (S := S1x3x1024) hz3, View.ld_unit_zero (S := S1x1x1024) hz3,
    View.ld_unit_zero (S := S1024x1) hz2, View.readCov_unit_zero (S := S1024x1) _ hz2]

set_option maxHeartbeats 1000000 in
/-- The FIRST column tile: whatever the scratch column held, it is reset to +∞ and lowered by this tile's
    minimum. -/
theorem sound_kernel1_first (c : Dev nD) (E : Set ℕ) (i : grid1.Coords) (h1 : condFirst1 i) (h2 : ¬condLast1 i)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1024x1 .f32) (harg8 : arg8.IsWhole)
    (x3 x4 : Vec F S1x3x1024 .f32) (x5 x6 x7 : Vec F S1x1x1024 .f32) (s : Vec F S1024x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare s
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (k1_pay2 x3 x4 x5 (k1_pay1 (F := F)))) -∗ K ⟨⟩))
      ⊢ wp frame (wpE (defs₀ (F := F)) Variants.none c none) E (cc1__row_min_kernel i arg3 harg3 arg4 harg4 arg5 harg5 arg6 harg6 arg7 harg7 arg8 harg8) K := by
  simp only [cc1__row_min_kernel_eq_skeleton]; unfold cc1__row_min_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  rw [View.read_writes_eq_canon _ _ _ (fun y => ⟨_, List.mem_cons_self, View.mem_set_unit_zero hz2 Facts₀.inb_S1024x1_S1024x1_0_0 y⟩)]
  first | rw [View.canon_unit_zero hz2] | rw [View.canon_cons_unit_zero hz2]
  simp only [View.readAt_eq_ld, View.ld_unit_zero (S := S1x3x1024) hz3, View.ld_unit_zero (S := S1x1x1024) hz3,
    View.ld_unit_zero (S := S1024x1) hz2, View.readCov_unit_zero (S := S1024x1) _ hz2]

set_option maxHeartbeats 1000000 in
/-- The LAST column tile: the scratch column is lowered by this tile's minimum, and the output block
    receives it with the rows' square norms added. -/
theorem sound_kernel1_last (c : Dev nD) (E : Set ℕ) (i : grid1.Coords) (h1 : ¬condFirst1 i) (h2 : condLast1 i)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1024x1 .f32) (harg8 : arg8.IsWhole)
    (x3 x4 : Vec F S1x3x1024 .f32) (x5 x6 : Vec F S1x1x1024 .f32) (s : Vec F S1024x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ owns (c : Thread nD τ) arg8 fullShare s
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k1_pay3 x6 (k1_pay2 x3 x4 x5 s))
            ∗ owns (c : Thread nD τ) arg8 fullShare (k1_pay2 x3 x4 x5 s)) -∗ K ⟨⟩))
      ⊢ wp frame (wpE (defs₀ (F := F)) Variants.none c none) E (cc1__row_min_kernel i arg3 harg3 arg4 harg4 arg5 harg5 arg6 harg6 arg7 harg7 arg8 harg8) K := by
  simp only [cc1__row_min_kernel_eq_skeleton]; unfold cc1__row_min_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf3; subst hf4; subst hf5; subst hf6; subst hf8
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_cons_self, View.mem_set_unit_zero hz3 Facts₀.inb_S1x1x1024_S1x1x1024_0_0_0 y⟩)]
    rw [View.canon_unit_zero hz3]
    simp only [View.readAt_eq_ld, View.ld_unit_zero (S := S1x3x1024) hz3, View.ld_unit_zero (S := S1x1x1024) hz3,
      View.ld_unit_zero (S := S1024x1) hz2, View.readCov_unit_zero (S := S1024x1) _ hz2]
  iexists _; isplitr
  swap; · iexact H8
  ipureintro
  sl_unfold_words
  rw [View.read_writes_eq_canon _ _ _ (fun y => ⟨_, List.mem_cons_self, View.mem_set_unit_zero hz2 Facts₀.inb_S1024x1_S1024x1_0_0 y⟩)]
  first | rw [View.canon_unit_zero hz2] | rw [View.canon_cons_unit_zero hz2]
  simp only [View.readAt_eq_ld, View.ld_unit_zero (S := S1x3x1024) hz3, View.ld_unit_zero (S := S1x1x1024) hz3,
    View.ld_unit_zero (S := S1024x1) hz2, View.readCov_unit_zero (S := S1024x1) _ hz2]

/-! ## The proof data of this launch, at the buffer contents `V` it is entered with -/

section Region

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- THE RUNNING MINIMUM.  The scratch column after point `n`: at a first column tile the reset value
    lowered by the tile's minimum, otherwise what the point before left, lowered by the tile's minimum. -/
def acc1 (c : Dev nD) : (n : ℕ) → n < cfg1.N → Vec F S1024x1 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 8 = 0 then
      k1_pay2 (iblk1 V c 0 ⟨n + 1, hn⟩) (iblk1 V c 1 ⟨n + 1, hn⟩) (iblk1 V c 2 ⟨n + 1, hn⟩) (k1_pay1 (F := F))
    else
      k1_pay2 (iblk1 V c 0 ⟨n + 1, hn⟩) (iblk1 V c 1 ⟨n + 1, hn⟩) (iblk1 V c 2 ⟨n + 1, hn⟩) (acc1 c n (Nat.lt_of_succ_lt hn))

theorem acc1_first (c : Dev nD) (t : Fin cfg1.N) (h : t.val % 8 = 0) :
    acc1 V c t.val t.isLt = k1_pay2 (iblk1 V c 0 t) (iblk1 V c 1 t) (iblk1 V c 2 t) (k1_pay1 (F := F)) := by
  obtain ⟨n, hn⟩ := t
  cases n with
  | zero => rfl
  | succ n => exact if_pos h

theorem acc1_next (c : Dev nD) (t : Fin cfg1.N) (h : ¬t.val % 8 = 0) :
    acc1 V c t.val t.isLt = k1_pay2 (iblk1 V c 0 t) (iblk1 V c 1 t) (iblk1 V c 2 t)
      (acc1 V c (t.val - 1) (Nat.lt_of_le_of_lt (Nat.sub_le _ _) t.isLt)) := by
  obtain ⟨n, hn⟩ := t
  cases n with
  | zero => exact absurd (Nat.zero_mod _) h
  | succ n => exact if_neg h

/-- Every scoped buffer that is neither a staging buffer of this launch nor its scratch column, at some contents. -/
abbrev rest1 (c : Dev nD) : sProp 𝕄 :=
  Pipeline.scopedRestBut (Ix := Unit) (Name := ℕ) (U := UR sig nD τ) (Lvl := ℕ) (Val := Elt F) spec1 c [cc1_scratch0]

/-- The invariant every launch is entered with, the scratch column taken out of the scoped rest. -/
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole]
  rfl

/-- The invariant before point `n`: before the first point the one the launch is entered with; afterwards the
    scratch column at the running minimum the point before left, the other scoped buffers at anything, the
    generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ rest1 c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ rest1 c) ∗ (∃ r, prngReg c r)) := by
  cases n with
  | zero => exact absurd rfl hz
  | succ n => rfl

/-- The proof data: the arrays as the launch finds them; after the body each input's buffer at its block, the
    output's at the running minimum plus the rows' square norms (consulted only at a last column tile, where the
    block is written back); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (iblk1 V c 3 t) (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (iblk1 V c 3 t) (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_in (c : Dev nD) (t : Fin cfg1.N) (w : Fin cfg1.W) (hw : cfg1.idle w (grid1.coords t) = false) :
    (dat1 V c).leavesExact w t = owns (c : Thread nD τ) ((cfg1.win w).stage (cfg1.slots t w)) fullShare ((dat1 V c).after w t) := by
  unfold Dat.leavesExact; rw [hw]

set_option maxHeartbeats 4000000 in
/-- The body at any point, by the column tile: the invariant hands it the scratch column (at anything before
    the first point, else at what the point before left) and takes it back at this point's running minimum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_in V c t 0 rfl, leaves1_in V c t 1 rfl, leaves1_in V c t 2 rfl, leaves1_in V c t 3 rfl,
    after1_0, after1_1, after1_2, after1_3]
  have hN : t.val < 256 := lt_of_lt_of_eq t.isLt (show cfg1.N = 256 from N_1)
  by_cases hl : t.val % 8 = 7
  · -- the last column tile
    have h1 : ¬condFirst1 (grid1.coords t) := fun h => by have := (hcondFirst1 t).mp h; omega
    have h2 : condLast1 (grid1.coords t) := (hcondLast1 t).mpr hl
    have hz : t.val ≠ 0 := by omega
    rw [leaves1_in V c t 4 (live1_4_of t h2), after1_4, acc1_next V c t (by omega)]
    rw [PhiS1_castSucc V c t, PhiS1_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (sound_kernel1_last c Set.univ (grid1.coords t) h1 h2 _ _ _ _ _ _ _ _ _ _ _ _
      (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · have h2 : ¬condLast1 (grid1.coords t) := fun h => hl ((hcondLast1 t).mp h)
    rw [Dat.leavesExact_idle (dat1 V c) 4 t (idle1_4_of t h2) (noFlush1_4_of t h2)]
    by_cases hf : t.val % 8 = 0
    · -- a first column tile
      have h1 : condFirst1 (grid1.coords t) := (hcondFirst1 t).mpr hf
      rw [acc1_first V c t hf]
      by_cases hz : t.val = 0
      · rw [PhiS1_castSucc V c t, PhiS1_zero V c _ _ hz, PhiA1_eq]
        iintro ⟨⟨⟨⟨%s, HS⟩, HR⟩, Hg⟩, Ho, ⟨%d0, H0⟩, ⟨%d1, H1⟩, ⟨%d2, H2⟩, ⟨%d3, H3⟩, ⟨%d4, H4⟩⟩
        iapply (sound_kernel1_first c Set.univ (grid1.coords t) h1 h2 _ _ _ _ _ _ _ _ _ _ _ _
          (iblk1 V c 0 t) (iblk1 V c 1 t) (iblk1 V c 2 t) (iblk1 V c 3 t) ((dat1 V c).before 4 t d4) s _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists d4; iexact H4
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩⟩
        iapply (sound_kernel1_first c Set.univ (grid1.coords t) h1 h2 _ _ _ _ _ _ _ _ _ _ _ _
          (iblk1 V c 0 t) (iblk1 V c 1 t) (iblk1 V c 2 t) (iblk1 V c 3 t) ((dat1 V c).before 4 t d4) _ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists d4; iexact H4
    · -- a middle column tile
      have h1 : ¬condFirst1 (grid1.coords t) := fun h => hf ((hcondFirst1 t).mp h)
      have hz : t.val ≠ 0 := fun h => hf (by rw [h])
      rw [acc1_next V c t hf]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel1_mid c Set.univ (grid1.coords t) h1 h2 _ _ _ _ _ _ _ _ _ _ _ _
        (iblk1 V c 0 t) (iblk1 V c 1 t) (iblk1 V c 2 t) (iblk1 V c 3 t) ((dat1 V c).before 4 t d4) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the running minimum is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  iintro ⟨⟨HS, HR⟩, Hg⟩
  isplitl [HS HR]
  · isplitl [HS]; · iexists _; iexact HS
    iexact HR
  iexact Hg

end Region

end Cert.KernelIdeal.Hand

end
-- ==== Proof.Regs.lean ====
/-
  The launch side of the program's frame: the contents the two launches leave in their output arrays, each launch's
  proof data at the contents its region is entered from, the two regions as segments between the thread states
  "every unscoped buffer whole at the item's valuation, the generator register at some state, nothing owed", the
  launch's side conditions, and the frame claim from them.
-/
import proofs.«106419_j65987877535942_1_alg».proof.Proof.Body0
import proofs.«106419_j65987877535942_1_alg».proof.Proof.Body1
import proofs.«106419_j65987877535942_1_alg».proof.Proof.Gen.KernelIdeal.Regions
import proofs.«106419_j65987877535942_1_alg».proof.Proof.Gen.KernelIdeal.Launch
import proofs.«106419_j65987877535942_1_alg».proof.Proof.Gen.KernelIdeal.Points
import Idealize.ShloMosaic.Lib.Pipeline.FrameBody
import Idealize.ShloMosaic.Lib.Pipeline.RegionsLoop
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the two launches leave in their output arrays -/

/-- The TensorCore's buffers when the first launch is entered. -/
abbrev Vin0 : (c : Dev nD) → (b : Ref sig .tc) → Buf (Elt F) ((c : Thread nD τ).loc b) :=
  fun c b => Gen.V1 m c (Proc.devRef .tc b)

/-- What the first launch's write-backs leave in its output array. -/
def out8 (c : Dev nD) : Buf (Elt F) ((c : Thread nD τ).loc main_v8) :=
  (dat0 (Vin0 m) c).arrAt 4 cfg0.N

/-- The buffers when the second launch is entered, stated from the first launch's output alone. -/
def Wmid (c : Dev nD) : Valuation τ sig (Elt F) :=
  StableHlo.after hostOps1 (Function.update (Gen.V1 m c) main_v8 (out8 m c))

/-- The same read at the TensorCore's references. -/
abbrev VinA : (c : Dev nD) → (b : Ref sig .tc) → Buf (Elt F) ((c : Thread nD τ).loc b) :=
  fun c b => Wmid m c (Proc.devRef .tc b)

/-- What the second launch's write-backs leave in its output array. -/
def out10 (c : Dev nD) : Buf (Elt F) ((c : Thread nD τ).loc main_v10) :=
  (dat1 (VinA m) c).arrAt 4 cfg1.N

/-- The contents the regions leave: the first launch's output array, the second's, and anything elsewhere
    (it is read at those two points only). -/
def outs : Gen.Outs (F := F) := fun _ r c =>
  if h : r = main_v8 then h ▸ out8 m c
  else if h' : r = main_v10 then h' ▸ out10 m c
  else m ((c : Thread nD τ).loc r)

theorem outs_main_v8 (j : ℕ) (c : Dev nD) : outs m j main_v8 c = out8 m c := by
  unfold outs; rw [dif_pos rfl]

theorem outs_main_v10 (j : ℕ) (c : Dev nD) : outs m j main_v10 c = out10 m c := by
  unfold outs; rw [dif_neg (by decide), dif_pos rfl]

/-- The TensorCore's buffers when the second launch is entered. -/
abbrev Vin1 : (c : Dev nD) → (b : Ref sig .tc) → Buf (Elt F) ((c : Thread nD τ).loc b) :=
  fun c b => Gen.V3 m (outs m) c (Proc.devRef .tc b)

/-- The buffers at the second launch's entry depend on the first launch's output only. -/
theorem V3_outs (c : Dev nD) : Gen.V3 m (outs m) c = Wmid m c := by
  show StableHlo.after hostOps1 (Function.update (Gen.V1 m c) main_v8 (outs m 2 main_v8 c)) = _
  rw [outs_main_v8]; rfl

theorem Vin1_eq : Vin1 m = VinA m := by
  funext c b; show Gen.V3 m (outs m) c (Proc.devRef .tc b) = _; rw [V3_outs]

/-- The first launch's output array holds what its write-backs leave. -/
theorem outs_2 (c : Dev nD) :
    outs m 2 main_v8 c = (dat0 (fun c b => Gen.V1 m c (Proc.devRef .tc b)) c).arrAt 4 cfg0.N :=
  outs_main_v8 m 2 c

/-- The second launch's output array holds what its write-backs leave. -/
theorem outs_4 (c : Dev nD) :
    outs m 4 main_v10 c = (dat1 (fun c b => Gen.V3 m (outs m) c (Proc.devRef .tc b)) c).arrAt 4 cfg1.N := by
  rw [outs_main_v10, show (fun (c : Dev nD) (b : Ref sig .tc) => Gen.V3 m (outs m) c (Proc.devRef .tc b)) = VinA m from Vin1_eq m]; rfl

/-! ## The proof data family -/

/-- Each launch's proof data at the contents its region is entered from. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-! ## The exit contents of each region -/

/-- At the first region's exit each window's array holds the exit contents at its reference: an input array is never
    written, the output array holds what the write-backs leave. -/
theorem hF0 (c : Dev nD) (w : Fin cfg0.W) :
    (pdats m 0 c).arrAt w cfg0.N = Gen.V2 m (outs m) c (Proc.devRef .tc (Pipeline.arrRef spec0 w)) := by
  match w with
  | ⟨0, _⟩ =>
    exact ((dat0 (Vin0 m) c).arrAt_in 0 rfl _).trans ((A_eq0 (Vin0 m) c 0).trans (Gen.V2_of m (outs m) c _ (by decide)).symm)
  | ⟨1, _⟩ =>
    exact ((dat0 (Vin0 m) c).arrAt_in 1 rfl _).trans ((A_eq0 (Vin0 m) c 1).trans (Gen.V2_of m (outs m) c _ (by decide)).symm)
  | ⟨2, _⟩ =>
    exact ((dat0 (Vin0 m) c).arrAt_in 2 rfl _).trans ((A_eq0 (Vin0 m) c 2).trans (Gen.V2_of m (outs m) c _ (by decide)).symm)
  | ⟨3, _⟩ =>
    exact ((dat0 (Vin0 m) c).arrAt_in 3 rfl _).trans ((A_eq0 (Vin0 m) c 3).trans (Gen.V2_of m (outs m) c _ (by decide)).symm)
  | ⟨4, _⟩ =>
    show (dat0 (Vin0 m) c).arrAt 4 cfg0.N
      = Function.update (Gen.V1 m c) (Proc.devRef .tc main_v8) (outs m 2 main_v8 c) (Proc.devRef .tc main_v8)
    rw [Function.update_self, outs_main_v8]; rfl

/-- Every buffer that is no window's array of the first launch leaves its region as it entered. -/
theorem hrest0 (c : Dev nD) (b : Ref sig .tc) (hb : b ∉ Finset.univ.image (Pipeline.arrRef spec0)) :
    Gen.V2 m (outs m) c (Proc.devRef .tc b) = Vin0 m c b :=
  Gen.V2_of m (outs m) c b fun h =>
    hb (Finset.mem_image.mpr ⟨4, Finset.mem_univ _, (List.mem_singleton.mp h).symm⟩)

/-- At the second region's exit each window's array holds the exit contents at its reference. -/
theorem hF1 (c : Dev nD) (w : Fin cfg1.W) :
    (pdats m 1 c).arrAt w cfg1.N = Gen.V4 m (outs m) c (Proc.devRef .tc (Pipeline.arrRef spec1 w)) := by
  match w with
  | ⟨0, _⟩ =>
    exact ((dat1 (Vin1 m) c).arrAt_in 0 rfl _).trans ((A_eq1 (Vin1 m) c 0).trans (Gen.V4_of m (outs m) c _ (by decide)).symm)
  | ⟨1, _⟩ =>
    exact ((dat1 (Vin1 m) c).arrAt_in 1 rfl _).trans ((A_eq1 (Vin1 m) c 1).trans (Gen.V4_of m (outs m) c _ (by decide)).symm)
  | ⟨2, _⟩ =>
    exact ((dat1 (Vin1 m) c).arrAt_in 2 rfl _).trans ((A_eq1 (Vin1 m) c 2).trans (Gen.V4_of m (outs m) c _ (by decide)).symm)
  | ⟨3, _⟩ =>
    exact ((dat1 (Vin1 m) c).arrAt_in 3 rfl _).trans ((A_eq1 (Vin1 m) c 3).trans (Gen.V4_of m (outs m) c _ (by decide)).symm)
  | ⟨4, _⟩ =>
    show (dat1 (Vin1 m) c).arrAt 4 cfg1.N
      = Function.update (Gen.V3 m (outs m) c) (Proc.devRef .tc main_v10) (outs m 4 main_v10 c) (Proc.devRef .tc main_v10)
    rw [Function.update_self, outs_4]

/-- Every buffer that is no window's array of the second launch leaves its region as it entered. -/
theorem hrest1 (c : Dev nD) (b : Ref sig .tc) (hb : b ∉ Finset.univ.image (Pipeline.arrRef spec1)) :
    Gen.V4 m (outs m) c (Proc.devRef .tc b) = Gen.V3 m (outs m) c (Proc.devRef .tc b) :=
  Gen.V4_of m (outs m) c b fun h =>
    hb (Finset.mem_image.mpr ⟨4, Finset.mem_univ _, (List.mem_singleton.mp h).symm⟩)

/-! ## What rides beside the buffers -/

/-- No level is assigned: no core owes another anything. -/
abbrev Lz : GSem nD τ sig → Finset Unit := fun _ => ∅
abbrev lvz : GSem nD τ sig → Unit → ℕ := fun _ _ => 0

/-- Beside the buffers, through every item: the core's generator register at some state, and nothing owed. -/
def E : Fin 3 → Dev nD → sProp 𝕄 := fun _ c =>
  iprop((∃ r, prngReg c r) ∗ ∃ W, owes (c : Thread nD τ) (0 : CellTallies nD τ sig Unit) W)

/-! ## Small steps shared by the two regions -/

/-- The kernels' class invariant is the generator register and the scoped buffers no window stages; a resource
    beside them is dropped. -/
theorem ΦA_intro {gr W : Nat} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hprng, -, Hscoped⟩
  isplitl [Hscoped]; · iexact Hscoped
  iexact Hprng

/-- The class invariant gives the generator register and those scoped buffers back. -/
theorem ΦA_elim {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hscoped, Hprng⟩
  isplitl [Hprng]; · iexact Hprng
  isplitr; · iempintro
  iexact Hscoped

/-! ## The regions as segments -/

set_option backward.isDefEq.respectTransparency.types false in
/-- The first launch's region: entered with every unscoped buffer at the contents after the first host stretch, left
    with them at the same contents but for the launch's output array, which holds what the write-backs leave. The
    generator register goes into the kernel's invariant and comes back; nothing is owed; the kernel has no
    semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (Gen.V1 m c) ∗ E 0 c)
  post c := iprop(StableHlo.held (c : Thread nD τ) (Pipeline.ucRefs τ sig) (Gen.V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    -- the unscoped buffers are the launch's arrays and the rest
    have hsplit := Pipeline.arrays_of_unscopedBufs (p := 0) (pcfgs (F := F)) Gen.adm (pdats m) launch0.win launch0.arr_whole c
      ((pdats m 0 c).share_full fun _ => rfl) (Vin0 m c) (fun w => A_eq0 (Vin0 m) c w)
    rw [Pipeline.unscopedBufs_held] at hsplit
    unfold E
    iintro ⟨⟨Hheld, Hprng, Howes⟩, -, -⟩
    ihave Hs := hsplit $$ Hheld
    icases Hs with ⟨Harr, Hrest⟩
    imodintro
    isplitl [Harr]; · iexact Harr
    isplitr
    · -- no table is prefetched
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := (ΦA_intro spec0 c _).trans (hin0 (Vin0 m) c)
  hout c := by
    rw [Pipeline.ownSems0_none]
    exact (hout0 (Vin0 m) c).trans (ΦA_elim spec0 c)
  hexit c := by
    -- the arrays at their final contents and the rest are the unscoped buffers at the exit contents
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (fun b => Gen.V2 m (outs m) c (Proc.devRef .tc b)) ((pdats m 0 c).arrAt · cfg0.N) (hF0 m c) (hrest0 m c)
    rw [Pipeline.unscopedBufs_held c (Gen.V2 m (outs m) c)] at hjoin
    unfold E
    iintro ⟨Harr, Howes, Hprng, Hrest⟩
    imodintro
    isplitl [Harr Hrest]
    · iapply hjoin
      isplitl [Harr]; · iexact Harr
      iexact Hrest
    isplitl [Hprng]; · iexact Hprng
    unfold Pipeline.Dat.owesAt Pipeline.owesWithin
    icases Howes with ⟨%W, -, Howes⟩
    iexists W
    iexact Howes

set_option backward.isDefEq.respectTransparency.types false in
/-- The second launch's region: entered with every unscoped buffer at the contents after the second host stretch,
    left with them at the same contents but for the launch's output array. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (Gen.V3 m (outs m) c) ∗ E 1 c)
  post c := iprop(StableHlo.held (c : Thread nD τ) (Pipeline.ucRefs τ sig) (Gen.V4 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    have hsplit := Pipeline.arrays_of_unscopedBufs (p := 1) (pcfgs (F := F)) Gen.adm (pdats m) launch1.win launch1.arr_whole c
      ((pdats m 1 c).share_full fun _ => rfl) (Vin1 m c) (fun w => A_eq1 (Vin1 m) c w)
    rw [Pipeline.unscopedBufs_held] at hsplit
    unfold E
    iintro ⟨⟨Hheld, Hprng, Howes⟩, -, -⟩
    ihave Hs := hsplit $$ Hheld
    icases Hs with ⟨Harr, Hrest⟩
    imodintro
    isplitl [Harr]; · iexact Harr
    isplitr
    · -- no table is prefetched
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := (ΦA_intro spec1 c _).trans (hin1 (Vin1 m) c)
  hout c := by
    rw [Pipeline.ownSems0_none]
    exact (hout1 (Vin1 m) c).trans (ΦA_elim spec1 c)
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (fun b => Gen.V4 m (outs m) c (Proc.devRef .tc b)) ((pdats m 1 c).arrAt · cfg1.N) (hF1 m c) (hrest1 m c)
    rw [Pipeline.unscopedBufs_held c (Gen.V4 m (outs m) c)] at hjoin
    unfold E
    iintro ⟨Harr, Howes, Hprng, Hrest⟩
    imodintro
    isplitl [Harr Hrest]
    · iapply hjoin
      isplitl [Harr]; · iexact Harr
      iexact Hrest
    isplitl [Hprng]; · iexact Hprng
    unfold Pipeline.Dat.owesAt Pipeline.owesWithin
    icases Howes with ⟨%W, -, Howes⟩
    iexists W
    iexact Howes

/-! ## The regions meet the items' thread states -/

theorem hpre0 (c : Dev nD) :
    iprop(StableHlo.held (c : Thread nD τ) (Pipeline.ucRefs τ sig) (Gen.V1 m c) ∗ E (F := F) 0 c) ⊢ (reg0 m).pre c := .rfl
theorem hpost0 (c : Dev nD) :
    (reg0 m).post c ⊢ iprop(StableHlo.held (c : Thread nD τ) (Pipeline.ucRefs τ sig) (Gen.V2 m (outs m) c) ∗ E (F := F) 1 c) := .rfl
theorem hpre1 (c : Dev nD) :
    iprop(StableHlo.held (c : Thread nD τ) (Pipeline.ucRefs τ sig) (Gen.V3 m (outs m) c) ∗ E (F := F) 1 c) ⊢ (reg1 m).pre c := .rfl
theorem hpost1 (c : Dev nD) :
    (reg1 m).post c ⊢ iprop(StableHlo.held (c : Thread nD τ) (Pipeline.ucRefs τ sig) (Gen.V4 m (outs m) c) ∗ E (F := F) 2 c) := .rfl

/-! ## The launch's side conditions -/

/-- The launch element: the pipeline library's at every launch's staging cells. -/
abbrev u₀ : UR sig nD τ := initOf (Pipeline.cells cfgs cellOf_inj) (Pipeline.launchToks cfgs cellOf_inj)

/-- The launch element is the library's own, and no ghost resource is dealt to a core. -/
theorem hu₀ : (ownU (u₀ : UR sig nD τ) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  rw [BI.bigSep_emp_const]
  iintro Hu
  imodintro
  isplitl [Hu]
  · iapply (show (ownU (u₀ : UR sig nD τ) : sProp 𝕄) ⊢ BI.own (emb₁ (u₀ : UR sig nD τ)) from .rfl)
    iexact Hu
  iempintro

/-- What the launch deals a core makes the first rest state: the generator register, and the core's empty dues. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (E (F := F) 0) : sProp 𝕄) := by
  refine Pipeline.initEach Lz lvz fun c => ?_
  unfold E
  iintro ⟨⟨-, Howes, -, Hprng, -⟩, -⟩
  imodintro
  isplitl [Hprng]
  · iexists _; iexact Hprng
  iexists ∅
  iexact Howes

/-- The last rest state owes nothing. -/
theorem hE2 (c : Dev nD) :
    E (F := F) 2 c ⊢ (iprop(∃ W, owes (c : Thread nD τ) (0 : CellTallies nD τ sig Unit) W) : sProp 𝕄) := by
  unfold E
  iintro ⟨-, Howes⟩
  iexact Howes

/-! ## The frame -/

set_option backward.isDefEq.respectTransparency.types false in
/-- From any memory with zero counters every weakly fair execution of the program terminates and every final memory
    holds each argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m (Ix := Unit) (U := UR sig nD τ) (Lvl := ℕ) emb₁ () Variants.none Lz lvz (fun _ _ => rfl) ρ (outs m) (pdats m)
    0 (fun _ => BI.emp) u₀ hu₀ E (hE0 ρ) hE2 (reg0 m) (hpre0 m) (hpost0 m) (reg1 m) (hpre1 m) (hpost1 m)

end Cert.KernelIdeal.Hand

end
-- ==== Proof.Spec.lean ====
/-
  The mathematics both programs compute, free of any program text.

  Two clouds of 8192 points in three coordinates, four batches.  For a pair of points the squared
  distance is spelt  -2·(x·y) + |x|² + |y|²;  `D1` takes, for each point of the first cloud, the
  minimum over the second cloud, `D2` the minimum the other way round.  The kernel reaches the same
  minima tile by tile: eight tiles of 1024 columns, a running minimum started at +∞, the row's own
  square norm added only at the end.  Adding a constant is monotone on the extended reals, so it
  commutes with a minimum over a nonempty set; minima are associative, commutative and have +∞ as
  unit; sums and products commute.  Nothing here needs finiteness.
-/
import Idealize.ShloMosaic.PureOps.Ideal
import Idealize.ShloMosaic.PureOps.Ideal.Laws

noncomputable section

namespace Cert.Spec

open Idealize.ShloMosaic

/-- A cloud: batch, coordinate, point. -/
abbrev Cloud : Type := Fin 4 → Fin 3 → Fin 8192 → EReal
/-- One number per batch and point. -/
abbrev Row : Type := Fin 4 → Fin 8192 → EReal

/-- The literal -2, +∞ and 0 as the programs spell them. -/
abbrev wNeg2 : EReal := Ideal.ofBits .f32 0xC0000000#32
abbrev posInf : EReal := Ideal.ofBits .f32 0x7F800000#32
abbrev zeroLit : EReal := Ideal.ofBits .f32 0x00000000#32

/-- The pointwise sum of two clouds (a cloud is `coords + registration`). -/
def plus (x y : Cloud) : Cloud := fun b k n => x b k n + y b k n

/-- The square norm of each point: the sum over the three coordinates, from the literal zero. -/
def sq (P : Cloud) : Row := fun b n => zeroLit + ∑ k : Fin 3, P b k n * P b k n

/-- The inner product of point `n` of `P` with point `m` of `Q`. -/
def dot (P Q : Cloud) (b : Fin 4) (n m : Fin 8192) : EReal := ∑ k : Fin 3, P b k n * Q b k m

/-- The squared distance as the reference associates it. -/
def dist (P Q : Cloud) (b : Fin 4) (n m : Fin 8192) : EReal := (wNeg2 * dot P Q b n m + sq P b n) + sq Q b m

/-- For each point of `P` the least squared distance to a point of `Q`. -/
def D1 (P Q : Cloud) : Row := fun b n => (Finset.univ : Finset (Fin 8192)).fold min posInf (fun m => dist P Q b n m)
/-- For each point of `Q` the least squared distance to a point of `P`. -/
def D2 (P Q : Cloud) : Row := fun b m => (Finset.univ : Finset (Fin 8192)).fold min posInf (fun n => dist P Q b n m)

/-- Column `r` of tile `j`. -/
def col (j : Fin 8) (r : Fin 1024) : Fin 8192 := ⟨j.val * 1024 + r.val, by have := j.isLt; have := r.isLt; omega⟩

/-- What one tile contributes to row `n` of `P` against the columns of `Q`: the least of
    -2·(x·y) + |y|² over the tile's 1024 columns, from +∞. -/
def tileMin (P Q : Cloud) (b : Fin 4) (n : Fin 8192) (j : Fin 8) : EReal :=
  (Finset.univ : Finset (Fin 1024)).fold min posInf (fun r => wNeg2 * dot P Q b n (col j r) + sq Q b (col j r))

/-- The running minimum after tile `j`: started at +∞ before tile 0. -/
def running (P Q : Cloud) (b : Fin 4) (n : Fin 8192) : (j : ℕ) → j < 8 → EReal
  | 0, h => min posInf (tileMin P Q b n ⟨0, h⟩)
  | j + 1, h => min (running P Q b n j (Nat.lt_of_succ_lt h)) (tileMin P Q b n ⟨j + 1, h⟩)

/-- The kernel's row value: the running minimum after the last tile, then the row's own square norm. -/
def kernelRow (P Q : Cloud) : Row := fun b n => running P Q b n 7 (by decide) + sq P b n

/-- The literal +∞ is the top of the extended reals. -/
theorem posInf_eq_top : posInf = (⊤ : EReal) := by
  simp [Ideal.ofBits, Ideal.ieee]

/-- A fold of `min` from +∞ is the finite infimum. -/
theorem fold_min_eq_inf {ι : Type} (s : Finset ι) (f : ι → EReal) :
    s.fold min posInf f = s.inf f := by
  rw [posInf_eq_top]; rfl

/-- The running minimum after tile `j` is the infimum over the tiles up to `j`. -/
theorem running_eq (P Q : Cloud) (b : Fin 4) (n : Fin 8192) : ∀ (j : ℕ) (h : j < 8),
    running P Q b n j h
      = (Finset.univ.filter (fun i : Fin 8 => i.val ≤ j)).inf (tileMin P Q b n)
  | 0, h => by
    have hs : (Finset.univ.filter (fun i : Fin 8 => i.val ≤ 0)) = {⟨0, h⟩} := by
      ext i
      simp only [Finset.mem_filter, Finset.mem_univ, true_and, Finset.mem_singleton, Fin.ext_iff]
      omega
    rw [running, hs, Finset.inf_singleton, posInf_eq_top, min_top_left]
  | j + 1, h => by
    have hs : (Finset.univ.filter (fun i : Fin 8 => i.val ≤ j + 1))
        = insert ⟨j + 1, h⟩ (Finset.univ.filter (fun i : Fin 8 => i.val ≤ j)) := by
      ext i
      simp only [Finset.mem_filter, Finset.mem_univ, true_and, Finset.mem_insert, Fin.ext_iff]
      omega
    rw [running, hs, Finset.inf_insert, running_eq P Q b n j (Nat.lt_of_succ_lt h), min_comm]

/-- After the last tile the running minimum is the infimum over all eight tiles. -/
theorem running_last (P Q : Cloud) (b : Fin 4) (n : Fin 8192) :
    running P Q b n 7 (by decide) = Finset.univ.inf (tileMin P Q b n) := by
  have hs : (Finset.univ.filter (fun i : Fin 8 => i.val ≤ 7)) = Finset.univ :=
    Finset.filter_true_of_mem (fun i _ => by have := i.isLt; omega)
  rw [running_eq, hs]

/-- Every column lies in exactly one tile; here: every column is reached. -/
theorem col_surjective : Function.Surjective (fun p : Fin 8 × Fin 1024 => col p.1 p.2) := by
  intro m
  refine ⟨(⟨m.val / 1024, by have := m.isLt; omega⟩, ⟨m.val % 1024, Nat.mod_lt _ (by decide)⟩), ?_⟩
  apply Fin.ext
  show m.val / 1024 * 1024 + m.val % 1024 = m.val
  omega

/-- The infimum tile by tile is the infimum over all columns. -/
theorem inf_tiles (h : Fin 8192 → EReal) :
    Finset.univ.inf (fun j : Fin 8 => Finset.univ.inf (fun r : Fin 1024 => h (col j r)))
      = Finset.univ.inf h := by
  simp only [Finset.inf_univ_eq_iInf]
  rw [← iInf_prod (f := fun p : Fin 8 × Fin 1024 => h (col p.1 p.2))]
  exact col_surjective.iInf_comp h

/-- Adding a constant on the right commutes with a minimum. -/
theorem min_add_const (x y c : EReal) : min x y + c = min (x + c) (y + c) :=
  Monotone.map_min (f := fun a : EReal => a + c) (fun _ _ hab => add_le_add hab le_rfl)

/-- Adding a constant commutes with an infimum over a nonempty finite type. -/
theorem inf_add_const {ι : Type} [Fintype ι] [Nonempty ι] (g : ι → EReal) (c : EReal) :
    Finset.univ.inf g + c = Finset.univ.inf (fun m => g m + c) := by
  rw [← Finset.inf'_eq_inf Finset.univ_nonempty, ← Finset.inf'_eq_inf Finset.univ_nonempty]
  exact Finset.apply_inf'_eq_inf'_comp Finset.univ_nonempty (fun a : EReal => a + c)
    (fun x y => min_add_const x y c)

/-- The kernel's row value as one infimum over all columns. -/
theorem kernelRow_apply (P Q : Cloud) (b : Fin 4) (n : Fin 8192) :
    kernelRow P Q b n
      = Finset.univ.inf (fun m : Fin 8192 => (wNeg2 * dot P Q b n m + sq Q b m) + sq P b n) := by
  have ht : tileMin P Q b n
      = fun j => Finset.univ.inf (fun r : Fin 1024 =>
          wNeg2 * dot P Q b n (col j r) + sq Q b (col j r)) := by
    funext j; exact fold_min_eq_inf _ _
  rw [kernelRow, running_last, ht, inf_tiles (fun m => wNeg2 * dot P Q b n m + sq Q b m),
    inf_add_const]

/-- The inner product is symmetric. -/
theorem dot_comm (P Q : Cloud) (b : Fin 4) (n m : Fin 8192) : dot Q P b m n = dot P Q b n m := by
  unfold dot
  exact Finset.sum_congr rfl (fun k _ => mul_comm _ _)

/-- Rows of `P` against columns of `Q`: the kernel's tiled minimum is the reference's. -/
theorem kernelRow_eq_D1 (P Q : Cloud) : kernelRow P Q = D1 P Q := by
  funext b n
  rw [kernelRow_apply]
  show _ = (Finset.univ : Finset (Fin 8192)).fold min posInf (fun m => dist P Q b n m)
  rw [fold_min_eq_inf]
  refine Finset.inf_congr rfl (fun m _ => ?_)
  unfold dist
  exact add_right_comm _ _ _

/-- Rows of `Q` against columns of `P` (the second launch swaps the clouds): the reference's
    minimum over the other axis. -/
theorem kernelRow_swap_eq_D2 (P Q : Cloud) : kernelRow Q P = D2 P Q := by
  funext b m
  rw [kernelRow_apply]
  show _ = (Finset.univ : Finset (Fin 8192)).fold min posInf (fun n => dist P Q b n m)
  rw [fold_min_eq_inf]
  refine Finset.inf_congr rfl (fun n _ => ?_)
  unfold dist
  rw [dot_comm]

/-- The tail both programs share: per batch the sum over the points from the literal zero, the sum
    over the batches from the literal zero, the quotient by the literal 4; the two halves added. -/
abbrev fourLit : EReal := Ideal.ofBits .f32 0x40800000#32
def half (d : Row) : EReal :=
  Ideal.div (zeroLit + ∑ b : Fin 4, (zeroLit + ∑ n : Fin 8192, d b n)) fourLit
def total (d1 d2 : Row) : EReal := half d1 + half d2

/-! ## The same with the square norms given as rows of their own

The kernel does not recompute the square norms: it reads them from two arrays the host filled.  Stated over
any two rows; at the clouds' own square norms it is `kernelRow`. -/

/-- One tile's contribution, the columns' norms read from `sQ`. -/
def tileMinG (P Q : Cloud) (sQ : Row) (b : Fin 4) (n : Fin 8192) (j : Fin 8) : EReal :=
  (Finset.univ : Finset (Fin 1024)).fold min posInf (fun r => wNeg2 * dot P Q b n (col j r) + sQ b (col j r))

/-- The running minimum after tile `j`. -/
def runningG (P Q : Cloud) (sQ : Row) (b : Fin 4) (n : Fin 8192) : (j : ℕ) → j < 8 → EReal
  | 0, h => min posInf (tileMinG P Q sQ b n ⟨0, h⟩)
  | j + 1, h => min (runningG P Q sQ b n j (Nat.lt_of_succ_lt h)) (tileMinG P Q sQ b n ⟨j + 1, h⟩)

/-- The kernel's row value, the rows' norms read from `sP`. -/
def kernelRowG (P Q : Cloud) (sP sQ : Row) : Row := fun b n => runningG P Q sQ b n 7 (by decide) + sP b n

theorem runningG_sq (P Q : Cloud) (b : Fin 4) (n : Fin 8192) :
    ∀ (j : ℕ) (h : j < 8), runningG P Q (sq Q) b n j h = running P Q b n j h
  | 0, _ => rfl
  | j + 1, h => by
    show min (runningG P Q (sq Q) b n j _) (tileMinG P Q (sq Q) b n ⟨j + 1, h⟩) = min (running P Q b n j _) (tileMin P Q b n ⟨j + 1, h⟩)
    rw [runningG_sq P Q b n j]; rfl

/-- At the clouds' own square norms it is the row value above. -/
theorem kernelRowG_sq (P Q : Cloud) : kernelRowG P Q (sq P) (sq Q) = kernelRow P Q := by
  funext b n
  show runningG P Q (sq Q) b n 7 _ + sq P b n = running P Q b n 7 _ + sq P b n
  rw [runningG_sq]

end Cert.Spec

end
-- ==== Proof.Payload.lean ====
/-
  The kernel body's three payloads read at an index, at the ideal instance.

  The reset value is +∞ everywhere.  The update of the scratch column at row `r` is the minimum of what
  the column held and the tile's minimum: over the tile's 1024 columns `m`, of
  -2·(Σₖ a[k,r]·b[k,m]) + sqb[m]  (the change of float format is the identity at the ideal instance, the
  matrix product into a zero accumulator is the plain sum).  The value written out at row `r` is the
  scratch column plus the row's square norm.
-/
import proofs.«106419_j65987877535942_1_alg».proof.Proof.Gen.KernelIdeal.Skeleton
import proofs.«106419_j65987877535942_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx

/-- The two launches run one body: their payloads are the same functions. -/
theorem k1_pay1_eq : (k1_pay1 (F := Ideal)) = k0_pay1 (F := Ideal) := rfl
theorem k1_pay2_eq : (k1_pay2 (F := Ideal)) = k0_pay2 (F := Ideal) := rfl
theorem k1_pay3_eq : (k1_pay3 (F := Ideal)) = k0_pay3 (F := Ideal) := rfl

/-! ### Layout steps read at explicit coordinates -/

section Layout

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-! ### The row minimum -/

/-- The minimum over axis 1 of a `[1024, 1024]` array from +∞, read at row `r`: the fold of `min` over the
    row's 1024 entries. -/
theorem rowMin_apply (src : FVec Ideal S1024x1024 .f32) (h : S1024x1024.Reduces [1] S1024) (hφ : FKind.Formats .f32)
    (hacc : (0x7F800000#32 : BitVec 32) = FKind.minimumf.neutral .f32 hφ) (r : Fin 1024) :
    multiReduction (F := Ideal) .minimumf [1] S1024 src 0x7F800000#32 h hφ hacc (ix1 r)
      = (Finset.univ : Finset (Fin 1024)).fold min Cert.Spec.posInf (fun m => src (ix2 r m)) := by
  refine (multiReduction_minimumf_eq_fold src _ h hφ hacc (ix1 r)).trans ?_
  refine (h.fold_filter_drop_single FloatOps.minimumf _ src (ix1 r)).trans ?_
  have e : (src ∘ h.lift (ix1 r)) = fun m : Fin 1024 => src (ix2 r m) :=
    funext fun m => congrArg src (funext fun c => Fin.ext (by
      match c with
      | ⟨0, _⟩ => rfl
      | ⟨1, _⟩ => rfl))
  rw [e]
  rfl

/-! ### The matrix product: both operands contracted over their axis 0 -/

theorem lhs_mm_0 (i : S1024x1024.Idx) (q : dot_S3x1024_S3x1024_S1024x1024_0_0_1_1_n_n.contr.Idx) :
    (dot_S3x1024_S3x1024_S1024x1024_0_0_1_1_n_n.lhsIdx i q 0).val = (q ⟨0, by decide⟩).val :=
  dot_S3x1024_S3x1024_S1024x1024_0_0_1_1_n_n.lhsIdx_val_of_single rfl i q
theorem lhs_mm_1 (i : S1024x1024.Idx) (q : dot_S3x1024_S3x1024_S1024x1024_0_0_1_1_n_n.contr.Idx) :
    (dot_S3x1024_S3x1024_S1024x1024_0_0_1_1_n_n.lhsIdx i q 1).val = (i 0).val := by
  unfold DotDims.lhsIdx
  rw [dif_neg (show ¬(1 : Fin S3x1024.rank) ∈ dot_S3x1024_S3x1024_S1024x1024_0_0_1_1_n_n.lhsBatch by decide), dif_pos (show (1 : Fin S3x1024.rank) ∈ dot_S3x1024_S3x1024_S1024x1024_0_0_1_1_n_n.lhsNonContracting by decide)]
  rfl
theorem rhs_mm_0 (i : S1024x1024.Idx) (q : dot_S3x1024_S3x1024_S1024x1024_0_0_1_1_n_n.contr.Idx) :
    (dot_S3x1024_S3x1024_S1024x1024_0_0_1_1_n_n.rhsIdx i q 0).val = (q ⟨0, by decide⟩).val :=
  dot_S3x1024_S3x1024_S1024x1024_0_0_1_1_n_n.rhsIdx_val_of_single rfl i q
theorem rhs_mm_1 (i : S1024x1024.Idx) (q : dot_S3x1024_S3x1024_S1024x1024_0_0_1_1_n_n.contr.Idx) :
    (dot_S3x1024_S3x1024_S1024x1024_0_0_1_1_n_n.rhsIdx i q 1).val = (i 1).val := by
  unfold DotDims.rhsIdx
  rw [dif_neg (show ¬(1 : Fin S3x1024.rank) ∈ dot_S3x1024_S3x1024_S1024x1024_0_0_1_1_n_n.rhsBatch by decide), dif_pos (show (1 : Fin S3x1024.rank) ∈ dot_S3x1024_S3x1024_S1024x1024_0_0_1_1_n_n.rhsNonContracting by decide)]
  rfl

/-- The matrix product into the zero accumulator, read at `(r, m)`: the sum over the three contracted
    coordinates of the products. -/
theorem mm_apply (A B : FVec Ideal S3x1024 .bf16) (r m : Fin 1024) :
    matmul dot_S3x1024_S3x1024_S1024x1024_0_0_1_1_n_n none A B (constant (F := Ideal) S1024x1024 .f32 0x00000000#32) (ix2 r m)
      = ∑ k : Fin 3, A (ix2 k r) * B (ix2 k m) := by
  refine (Ideal.matmul_constant_zero_apply dot_S3x1024_S3x1024_S1024x1024_0_0_1_1_n_n none A B (ix2 r m)).trans ?_
  rw [← Equiv.sum_comp (contrEquiv1 dot_S3x1024_S3x1024_S1024x1024_0_0_1_1_n_n 3 rfl rfl).symm]
  refine Finset.sum_congr rfl fun k _ => ?_
  have hk := contrEquiv1_symm_val dot_S3x1024_S3x1024_S1024x1024_0_0_1_1_n_n 3 rfl rfl k
  have el : dot_S3x1024_S3x1024_S1024x1024_0_0_1_1_n_n.lhsIdx (ix2 r m) ((contrEquiv1 dot_S3x1024_S3x1024_S1024x1024_0_0_1_1_n_n 3 rfl rfl).symm k) = ix2 k r := funext fun a => Fin.ext (by
    match a with
    | ⟨0, _⟩ => exact (lhs_mm_0 _ _).trans hk
    | ⟨1, _⟩ => exact lhs_mm_1 _ _)
  have er : dot_S3x1024_S3x1024_S1024x1024_0_0_1_1_n_n.rhsIdx (ix2 r m) ((contrEquiv1 dot_S3x1024_S3x1024_S1024x1024_0_0_1_1_n_n 3 rfl rfl).symm k) = ix2 k m := funext fun a => Fin.ext (by
    match a with
    | ⟨0, _⟩ => exact (rhs_mm_0 _ _).trans hk
    | ⟨1, _⟩ => exact rhs_mm_1 _ _)
  rw [el, er]

/-- The reset value: +∞ at every row. -/
theorem pay1_apply (r : Fin 1024) : k0_pay1 (F := Ideal) (ix2 r (0 : Fin 1)) = Cert.Spec.posInf := by
  unfold k0_pay1
  rw [shapeCast_self]
  rfl

/-- The scratch column's update at row `r`: the minimum of what it held and the tile's minimum. -/
theorem pay2_apply (x3 x4 : Vec Ideal S1x3x1024 .f32) (x5 : Vec Ideal S1x1x1024 .f32) (s : Vec Ideal S1024x1 .f32) (r : Fin 1024) :
    k0_pay2 (F := Ideal) x3 x4 x5 s (ix2 r (0 : Fin 1))
      = min (s (ix2 r (0 : Fin 1)))
          ((Finset.univ : Finset (Fin 1024)).fold min Cert.Spec.posInf fun m =>
            Cert.Spec.wNeg2 * (∑ k : Fin 3, x3 (ix3 (0 : Fin 1) k r) * x4 (ix3 (0 : Fin 1) k m)) + x5 (ix3 (0 : Fin 1) (0 : Fin 1) m)) := by
  unfold k0_pay2
  rw [shapeCast_self, minimumf_apply, shapeCast_a_a1_apply]
  refine congrArg (min (s (ix2 r (0 : Fin 1)))) ?_
  refine (rowMin_apply _ _ _ _ r).trans ?_
  refine congrArg (Finset.fold min Cert.Spec.posInf · Finset.univ) (funext fun m => ?_)
  rw [addf_apply, mulf_apply, broadcast_apply, broadcastTo_1b_ab_apply, shapeCast_a_1a_apply, shapeCast_11a_a_apply, mm_apply]
  refine congrArg (fun t => Cert.Spec.wNeg2 * t + x5 (ix3 (0 : Fin 1) (0 : Fin 1) m)) (Finset.sum_congr rfl fun k _ => ?_)
  rw [truncf_apply, truncf_apply, shapeCast_1ab_ab_apply, shapeCast_1ab_ab_apply]

/-- The value written out at row `r`: the scratch column plus the row's square norm. -/
theorem pay3_apply (x6 : Vec Ideal S1x1x1024 .f32) (s : Vec Ideal S1024x1 .f32) (r : Fin 1024) :
    k0_pay3 (F := Ideal) x6 s (ix3 (0 : Fin 1) (0 : Fin 1) r) = s (ix2 r (0 : Fin 1)) + x6 (ix3 (0 : Fin 1) (0 : Fin 1) r) := by
  unfold k0_pay3
  rw [shapeCast_a_11a_apply, addf_apply, shapeCast_a1_a_apply, shapeCast_11a_a_apply]

end Cert.KernelIdeal.Pay

end
-- ==== Proof.HostSide.lean ====
/-
  The host operations of the kernel program, read as mathematics at the ideal instance.

  Before the first launch the host forms the two clouds `coords + registration_gt` and
  `coords + registration_pred` and their square norms; between the launches it only reshapes; after the
  second it sums each launch's row values over the points and the batches, divides by the literal 4 and
  adds the two halves.  None of this depends on what the launches wrote: the tail is stated for any contents
  of their output arrays.
-/
import proofs.«106419_j65987877535942_1_alg».proof.Proof.Gen.KernelIdeal.Regions
import proofs.«106419_j65987877535942_1_alg».proof.Proof.Spec
import Idealize.ShloMosaic.Lib.ValueIdx
import Idealize.ShloMosaic.Lib.ValueIdxRank1
import Idealize.ShloMosaic.Lib.Pipeline.Value
import Idealize.ShloMosaic.Lib.StableHlo.Run
import Idealize.ShloMosaic.PureOps.Ideal.Laws

noncomputable section

namespace Cert.KernelIdeal.HostSide

open Cert.KernelIdeal Cert.KernelIdeal.Gen Idealize.ShloMosaic Idealize.ShloMosaic.TcCoe Idealize.ShloMosaic.ValueIdx Idealize.SL.Sem

/-- A [4, 3, 8192] array as a cloud: batch, coordinate, point. -/
def cl (x : (⟨S4x3x8192, .f32⟩ : BufTy).Contents (Elt Ideal)) : Cert.Spec.Cloud := fun b k n => x (ix3 b k n)
/-- A [4, 1, 8192] array as one number per batch and point. -/
def row (y : (⟨S4x1x8192, .f32⟩ : BufTy).Contents (Elt Ideal)) : Cert.Spec.Row := fun b n => y (ix3 b (0 : Fin 1) n)

variable (m : (ℓ : Loc nD τ sig) → Buf (Elt Ideal) ℓ) (outs : Outs (F := Ideal)) (c : Dev nD)

/-! ## Reading the host operations at an index -/

/-- The square norms as the host forms them: the products summed over the coordinate axis from the literal
    zero, then given a unit axis. -/
theorem norms_at (X : FVec Ideal S4x3x8192 .f32) (hr : S4x3x8192.ReducesTo [1] S4x8192) (hu : 0 < S_.numel)
    (hb : S4x8192.BroadcastsInDim S4x1x8192 (![0, 2] : Fin 2 → Fin S4x1x8192.rank)) (b : Fin 4) (n : Fin 8192) :
    (broadcastInDim S4x1x8192 ![0, 2] hb
        (Host.reduceAdd (mulf X X) (constant (F := Ideal) S_ .f32 0x00000000#32) hr hu) : FVec Ideal S4x1x8192 .f32)
      (ix3 b (0 : Fin 1) n) = Cert.Spec.sq (cl X) b n := by
  have h : S4x3x8192.Reduces [1] S4x8192 := by decide
  rw [broadcastInDim_apply (![0, 2] : Fin 2 → Fin S4x1x8192.rank) hb _ (ix3 b (0 : Fin 1) n) (ix2 b n)
    (fun a => match a with | ⟨0, _⟩ => rfl | ⟨1, _⟩ => rfl)]
  show Ideal.hostReduceAdd hr (mulf X X) Cert.Spec.zeroLit (ix2 b n) = _
  rw [Ideal.hostReduceAdd_single hr h]
  unfold Cert.Spec.sq
  refine congrArg (_ + ·) (Finset.sum_congr rfl fun k _ => ?_)
  have e : h.lift (ix2 b n) k = ix3 b k n :=
    funext fun a => Fin.ext (by match a with | ⟨0, _⟩ => rfl | ⟨1, _⟩ => rfl | ⟨2, _⟩ => rfl)
  rw [e]; rfl

/-! ## The host prefix -/

/-- The first cloud as the prefix computes it. -/
theorem e_v0 : @Eq (FVec Ideal S4x3x8192 .f32) (V1 m c (Proc.devRef .tc main_v0))
    (addf (m ((c : Thread nD τ).loc main_arg2)) (m ((c : Thread nD τ).loc main_arg1))) := by
  show StableHlo.after hostOps0 _ (Proc.devRef .tc main_v0) = _
  after_results

/-- The second cloud as the prefix computes it. -/
theorem e_v1 : @Eq (FVec Ideal S4x3x8192 .f32) (V1 m c (Proc.devRef .tc main_v1))
    (addf (m ((c : Thread nD τ).loc main_arg2)) (m ((c : Thread nD τ).loc main_arg0))) := by
  show StableHlo.after hostOps0 _ (Proc.devRef .tc main_v1) = _
  after_results

/-- The first cloud's norms as the prefix computes them. -/
theorem e_v4 : @Eq (FVec Ideal S4x1x8192 .f32) (V1 m c (Proc.devRef .tc main_v4))
    (broadcastInDim S4x1x8192 ![0, 2] bcast_S4x8192_S4x1x8192_0_2
      (Host.reduceAdd
        (mulf (addf (m ((c : Thread nD τ).loc main_arg2)) (m ((c : Thread nD τ).loc main_arg1)) : FVec Ideal S4x3x8192 .f32)
          (addf (m ((c : Thread nD τ).loc main_arg2)) (m ((c : Thread nD τ).loc main_arg1))))
        (constant (F := Ideal) S_ .f32 0x00000000#32) reducesTo_S4x3x8192_S4x8192_d1 h_S_)) := by
  show StableHlo.after hostOps0 _ (Proc.devRef .tc main_v4) = _
  after_results

/-- The second cloud's norms as the prefix computes them. -/
theorem e_v7 : @Eq (FVec Ideal S4x1x8192 .f32) (V1 m c (Proc.devRef .tc main_v7))
    (broadcastInDim S4x1x8192 ![0, 2] bcast_S4x8192_S4x1x8192_0_2
      (Host.reduceAdd
        (mulf (addf (m ((c : Thread nD τ).loc main_arg2)) (m ((c : Thread nD τ).loc main_arg0)) : FVec Ideal S4x3x8192 .f32)
          (addf (m ((c : Thread nD τ).loc main_arg2)) (m ((c : Thread nD τ).loc main_arg0))))
        (constant (F := Ideal) S_ .f32 0x00000000#32) reducesTo_S4x3x8192_S4x8192_d1 h_S_)) := by
  show StableHlo.after hostOps0 _ (Proc.devRef .tc main_v7) = _
  after_results

/-- The first cloud: `coords + registration_gt`. -/
theorem V1_v0 : cl (V1 m c (Proc.devRef .tc main_v0))
    = Cert.Spec.plus (cl (m ((c : Thread nD τ).loc main_arg2))) (cl (m ((c : Thread nD τ).loc main_arg1))) :=
  (congrArg cl (e_v0 m c)).trans rfl
/-- The second cloud: `coords + registration_pred`. -/
theorem V1_v1 : cl (V1 m c (Proc.devRef .tc main_v1))
    = Cert.Spec.plus (cl (m ((c : Thread nD τ).loc main_arg2))) (cl (m ((c : Thread nD τ).loc main_arg0))) :=
  (congrArg cl (e_v1 m c)).trans rfl
/-- The first cloud's square norms, kept with a unit axis. -/
theorem V1_v4 : row (V1 m c (Proc.devRef .tc main_v4)) = Cert.Spec.sq (cl (V1 m c (Proc.devRef .tc main_v0))) := by
  funext b n
  refine (congrFun (congrFun (congrArg row (e_v4 m c)) b) n).trans ?_
  refine (norms_at _ _ _ _ b n).trans ?_
  rw [← e_v0 m c]
/-- The second cloud's square norms. -/
theorem V1_v7 : row (V1 m c (Proc.devRef .tc main_v7)) = Cert.Spec.sq (cl (V1 m c (Proc.devRef .tc main_v1))) := by
  funext b n
  refine (congrFun (congrFun (congrArg row (e_v7 m c)) b) n).trans ?_
  refine (norms_at _ _ _ _ b n).trans ?_
  rw [← e_v1 m c]

/-- The first launch writes only its own output, and the reshape after it only its own result: the second
    launch finds the clouds and the norms as the first did. -/
theorem V3_v0 : V3 m outs c (Proc.devRef .tc main_v0) = V1 m c (Proc.devRef .tc main_v0) :=
  (V3_of m outs c _ (by decide)).trans (V2_of m outs c _ (by decide))
theorem V3_v1 : V3 m outs c (Proc.devRef .tc main_v1) = V1 m c (Proc.devRef .tc main_v1) :=
  (V3_of m outs c _ (by decide)).trans (V2_of m outs c _ (by decide))
theorem V3_v4 : V3 m outs c (Proc.devRef .tc main_v4) = V1 m c (Proc.devRef .tc main_v4) :=
  (V3_of m outs c _ (by decide)).trans (V2_of m outs c _ (by decide))
theorem V3_v7 : V3 m outs c (Proc.devRef .tc main_v7) = V1 m c (Proc.devRef .tc main_v7) :=
  (V3_of m outs c _ (by decide)).trans (V2_of m outs c _ (by decide))

/-! ## The host tail -/

/-- Dropping the unit axis of a [4, 1, 8192] array keeps each batch's and point's value. -/
theorem reshape_at (y : FVec Ideal S4x1x8192 .f32) (hc : S4x1x8192.ShapeCasts S4x8192) (b : Fin 4) (n : Fin 8192) :
    shapeCast S4x8192 y hc (ix2 b n) = row y b n := by
  refine shapeCast_apply y hc (ix2 b n) (ix3 b (0 : Fin 1) n) ?_
  rw [Shape.rowMajor_val_three, Shape.rowMajor_val_two]
  show (b.val * 1 + 0) * 8192 + n.val = b.val * 8192 + n.val
  omega

/-- A sum over the indices of a [4] array is the sum over the four batches. -/
theorem sum_S4 (f : S4.Idx → EReal) : ∑ i, f i = ∑ b : Fin 4, f (ix1 b) :=
  (Equiv.sum_comp (idxEquiv1 (n := 4)).symm f).symm

/-- One half of the tail: the sum over the points, then over the batches, each from the literal zero, and the
    quotient by the literal 4. -/
theorem half_at (y : FVec Ideal S4x8192 .f32) (g : Cert.Spec.Row) (hy : ∀ b n, y (ix2 b n) = g b n)
    (h1 : S4x8192.ReducesTo [1] S4) (h0 : S4.ReducesTo [0] S_) (hu : 0 < S_.numel) (i : S_.Idx) :
    (Host.divf (Host.reduceAdd (Host.reduceAdd y (constant (F := Ideal) S_ .f32 0x00000000#32) h1 hu)
        (constant (F := Ideal) S_ .f32 0x00000000#32) h0 hu) (constant (F := Ideal) S_ .f32 0x40800000#32)
          : FVec Ideal S_ .f32) i
      = Cert.Spec.half g := by
  have r1 : S4x8192.Reduces [1] S4 := by decide
  show Ideal.div (Ideal.hostReduceAdd h0 (Host.reduceAdd y (constant (F := Ideal) S_ .f32 0x00000000#32) h1 hu)
    Cert.Spec.zeroLit i) Cert.Spec.fourLit = _
  unfold Cert.Spec.half
  refine congrArg (Ideal.div · Cert.Spec.fourLit) ?_
  rw [Ideal.hostReduceAdd_total h0 (fun b => b.elim0), sum_S4]
  refine congrArg (Cert.Spec.zeroLit + ·) (Finset.sum_congr rfl fun (b : Fin 4) _ => ?_)
  show Ideal.hostReduceAdd h1 y Cert.Spec.zeroLit (ix1 b) = _
  rw [Ideal.hostReduceAdd_single h1 r1]
  refine congrArg (Cert.Spec.zeroLit + ·) (Finset.sum_congr rfl fun (n : Fin 8192) _ => ?_)
  have e : r1.lift (ix1 b) n = ix2 b n :=
    funext fun a => Fin.ext (by match a with | ⟨0, _⟩ => rfl | ⟨1, _⟩ => rfl)
  rw [e]
  exact hy b n

/-- The tail's result over any contents of the arrays it reads. -/
theorem tail_of (W : Valuation τ sig (Elt Ideal)) :
    @Eq (FVec Ideal S_ .f32) (StableHlo.after hostOps2 W (Proc.devRef .tc main_v18))
      (addf
        (Host.divf (Host.reduceAdd (Host.reduceAdd (W (Proc.devRef .tc main_v9) : FVec Ideal S4x8192 .f32)
            (constant (F := Ideal) S_ .f32 0x00000000#32) reducesTo_S4x8192_S4_d1 h_S_)
            (constant (F := Ideal) S_ .f32 0x00000000#32) reducesTo_S4_S_d0 h_S_)
          (constant (F := Ideal) S_ .f32 0x40800000#32))
        (Host.divf (Host.reduceAdd (Host.reduceAdd
            (shapeCast S4x8192 (W (Proc.devRef .tc main_v10) : FVec Ideal S4x1x8192 .f32) shapeCasts_S4x1x8192_S4x8192)
            (constant (F := Ideal) S_ .f32 0x00000000#32) reducesTo_S4x8192_S4_d1 h_S_)
            (constant (F := Ideal) S_ .f32 0x00000000#32) reducesTo_S4_S_d0 h_S_)
          (constant (F := Ideal) S_ .f32 0x40800000#32))) := by
  after_results
  all_goals rfl

/-- The reshape between the launches, of the first launch's output. -/
theorem e_v9 : @Eq (FVec Ideal S4x8192 .f32) (V4 m outs c (Proc.devRef .tc main_v9))
    (shapeCast S4x8192 (outs 2 main_v8 c : FVec Ideal S4x1x8192 .f32) shapeCasts_S4x1x8192_S4x8192) := by
  refine (V4_of m outs c _ (by decide)).trans ?_
  show StableHlo.after hostOps1 (V2 m outs c) (Proc.devRef .tc main_v9) = _
  after_results
  all_goals (rw [show V2 m outs c (Proc.devRef .tc main_v8) = outs 2 main_v8 c from Function.update_self _ _ _]; rfl)

/-- The second launch's output as it left it. -/
theorem e_v10 : V4 m outs c (Proc.devRef .tc main_v10) = outs 4 main_v10 c := Function.update_self _ _ _

/-- The program's result: the shared tail of the two launches' row values. -/
theorem V5_result : V5 m outs c (Proc.devRef .tc main_v18)
    = fun _ => Cert.Spec.total (row (outs 2 main_v8 c)) (row (outs 4 main_v10 c)) := by
  funext i
  refine (congrFun (tail_of (V4 m outs c)) i).trans ?_
  unfold Cert.Spec.total
  refine congrArg₂ (fun a b : EReal => a + b) (half_at _ _ (fun b n => ?_) _ _ _ i) (half_at _ _ (fun b n => ?_) _ _ _ i)
  · exact (congrFun (e_v9 m outs c) (ix2 b n)).trans (reshape_at _ _ b n)
  · exact (reshape_at _ _ b n).trans (congrArg (fun z => row z b n) (e_v10 m outs c))

end Cert.KernelIdeal.HostSide

end
-- ==== Proof.Value0.lean ====
/-
  What launch 0 leaves in its output array, at the ideal instance: for batch `b` and row `n` the running
  minimum over the eight column tiles of  -2·(x·y) + (column norm), started at +∞, plus the row's norm.

  Row `n` lies in row tile `n / 1024`; the block written back at the last column tile of that row tile covers
  it, and that point's running minimum unrolls over the seven points before it down to the reset.
-/
import proofs.«106419_j65987877535942_1_alg».proof.Proof.Body0
import proofs.«106419_j65987877535942_1_alg».proof.Proof.Payload
import proofs.«106419_j65987877535942_1_alg».proof.Proof.HostSide
import proofs.«106419_j65987877535942_1_alg».proof.Proof.Spec
import Idealize.ShloMosaic.Lib.ValueIdx
import Idealize.ShloMosaic.Lib.Pipeline.Value

set_option maxRecDepth 16384

noncomputable section

namespace Cert.KernelIdeal.RowValue

open Cert.KernelIdeal Cert.KernelIdeal.Gen Cert.KernelIdeal.Hand Cert.KernelIdeal.HostSide
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-! ### The four arrays the launch reads, as the mathematics names them -/

/-- The rows' cloud: window 0's array. -/
abbrev cloudP0 : Cert.Spec.Cloud := cl (V c (Pipeline.arrRef spec0 0))
/-- The columns' cloud: window 1's array. -/
abbrev cloudQ0 : Cert.Spec.Cloud := cl (V c (Pipeline.arrRef spec0 1))
/-- The rows' norms: window 3's array. -/
abbrev normP0 : Cert.Spec.Row := row (V c (Pipeline.arrRef spec0 3))
/-- The columns' norms: window 2's array. -/
abbrev normQ0 : Cert.Spec.Row := row (V c (Pipeline.arrRef spec0 2))

/-- What the output array ends holding, as one function of its index. -/
def G0 : (⟨S4x1x8192, .f32⟩ : BufTy).Contents (Elt Ideal) := fun i =>
  Cert.Spec.kernelRowG (cloudP0 V c) (cloudQ0 V c) (normP0 V c) (normQ0 V c) (i 0) (i 2)

/-! ### The payloads at this launch's names -/

theorem pay1_at0 (r : Fin 1024) : k0_pay1 (F := Ideal) (ix2 r (0 : Fin 1)) = Cert.Spec.posInf :=
  Cert.KernelIdeal.Pay.pay1_apply r

theorem pay2_at0 (x3 x4 : Vec Ideal S1x3x1024 .f32) (x5 : Vec Ideal S1x1x1024 .f32) (s : Vec Ideal S1024x1 .f32) (r : Fin 1024) :
    k0_pay2 (F := Ideal) x3 x4 x5 s (ix2 r (0 : Fin 1))
      = min (s (ix2 r (0 : Fin 1)))
          ((Finset.univ : Finset (Fin 1024)).fold min Cert.Spec.posInf fun m =>
            Cert.Spec.wNeg2 * (∑ k : Fin 3, x3 (ix3 (0 : Fin 1) k r) * x4 (ix3 (0 : Fin 1) k m)) + x5 (ix3 (0 : Fin 1) (0 : Fin 1) m)) :=
  Cert.KernelIdeal.Pay.pay2_apply x3 x4 x5 s r

theorem pay3_at0 (x6 : Vec Ideal S1x1x1024 .f32) (s : Vec Ideal S1024x1 .f32) (r : Fin 1024) :
    k0_pay3 (F := Ideal) x6 s (ix3 (0 : Fin 1) (0 : Fin 1) r) = s (ix2 r (0 : Fin 1)) + x6 (ix3 (0 : Fin 1) (0 : Fin 1) r) :=
  Cert.KernelIdeal.Pay.pay3_apply x6 s r

/-! ### The index maps, decided once over the grid

Point `t` is batch `t / 64`, row tile `t / 8 % 8`, column tile `t % 8`.  Windows 0, 3 and 4 follow the row tile,
windows 1 and 2 the column tile. -/

theorem idx_facts0 : ∀ t : Fin cfg0.N,
    win0_0.index t (0 : Fin 3) = t.val / 64 ∧ win0_0.index t (1 : Fin 3) = 0 ∧ win0_0.index t (2 : Fin 3) = t.val / 8 % 8
    ∧ win0_1.index t (0 : Fin 3) = t.val / 64 ∧ win0_1.index t (1 : Fin 3) = 0 ∧ win0_1.index t (2 : Fin 3) = t.val % 8
    ∧ win0_2.index t (0 : Fin 3) = t.val / 64 ∧ win0_2.index t (1 : Fin 3) = 0 ∧ win0_2.index t (2 : Fin 3) = t.val % 8
    ∧ win0_3.index t (0 : Fin 3) = t.val / 64 ∧ win0_3.index t (1 : Fin 3) = 0 ∧ win0_3.index t (2 : Fin 3) = t.val / 8 % 8
    ∧ win0_4.index t (0 : Fin 3) = t.val / 64 ∧ win0_4.index t (1 : Fin 3) = 0 ∧ win0_4.index t (2 : Fin 3) = t.val / 8 % 8 :=
  (by decide +kernel : ∀ t : Fin grid0.N, _)

/-! ### Each input block as entries of its array -/

/-- Window 0's block at point `t`: the three coordinates of the row tile's points. -/
theorem iblk0_0_apply (t : Fin cfg0.N) (k : Fin 3) (r : Fin 1024) (i : S4x3x8192.Idx)
    (h0 : (i 0).val = t.val / 64) (h1 : (i 1).val = k.val) (h2 : (i 2).val = t.val / 8 % 8 * 1024 + r.val) :
    (iblk0 V c 0 t : Vec Ideal S1x3x1024 .f32) (ix3 (0 : Fin 1) k r)
      = (V c (Pipeline.arrRef spec0 0) : (⟨S4x3x8192, .f32⟩ : BufTy).Contents (Elt Ideal)) i := by
  obtain ⟨e0, e1, e2, -⟩ := idx_facts0 t
  unfold iblk0
  rw [View.read_apply]
  show (V c (Pipeline.arrRef spec0 0) : (⟨S4x3x8192, .f32⟩ : BufTy).Contents (Elt Ideal)) _ = _
  congr 1
  funext a
  apply Fin.ext
  match a with
  | ⟨0, _⟩ => show win0_0.index t (0 : Fin 3) * 1 + 1 * 0 = (i 0).val; rw [e0, h0]; omega
  | ⟨1, _⟩ => show win0_0.index t (1 : Fin 3) * 3 + 1 * k.val = (i 1).val; rw [e1, h1]; omega
  | ⟨2, _⟩ => show win0_0.index t (2 : Fin 3) * 1024 + 1 * r.val = (i 2).val; rw [e2, h2]; omega

/-- Window 1's block at point `t`: the three coordinates of the column tile's points. -/
theorem iblk0_1_apply (t : Fin cfg0.N) (k : Fin 3) (m : Fin 1024) (i : S4x3x8192.Idx)
    (h0 : (i 0).val = t.val / 64) (h1 : (i 1).val = k.val) (h2 : (i 2).val = t.val % 8 * 1024 + m.val) :
    (iblk0 V c 1 t : Vec Ideal S1x3x1024 .f32) (ix3 (0 : Fin 1) k m)
      = (V c (Pipeline.arrRef spec0 1) : (⟨S4x3x8192, .f32⟩ : BufTy).Contents (Elt Ideal)) i := by
  obtain ⟨-, -, -, e0, e1, e2, -⟩ := idx_facts0 t
  unfold iblk0
  rw [View.read_apply]
  show (V c (Pipeline.arrRef spec0 1) : (⟨S4x3x8192, .f32⟩ : BufTy).Contents (Elt Ideal)) _ = _
  congr 1
  funext a
  apply Fin.ext
  match a with
  | ⟨0, _⟩ => show win0_1.index t (0 : Fin 3) * 1 + 1 * 0 = (i 0).val; rw [e0, h0]; omega
  | ⟨1, _⟩ => show win0_1.index t (1 : Fin 3) * 3 + 1 * k.val = (i 1).val; rw [e1, h1]; omega
  | ⟨2, _⟩ => show win0_1.index t (2 : Fin 3) * 1024 + 1 * m.val = (i 2).val; rw [e2, h2]; omega

/-- Window 2's block at point `t`: the norms of the column tile's points. -/
theorem iblk0_2_apply (t : Fin cfg0.N) (m : Fin 1024) (i : S4x1x8192.Idx)
    (h0 : (i 0).val = t.val / 64) (h1 : (i 1).val = 0) (h2 : (i 2).val = t.val % 8 * 1024 + m.val) :
    (iblk0 V c 2 t : Vec Ideal S1x1x1024 .f32) (ix3 (0 : Fin 1) (0 : Fin 1) m)
      = (V c (Pipeline.arrRef spec0 2) : (⟨S4x1x8192, .f32⟩ : BufTy).Contents (Elt Ideal)) i := by
  obtain ⟨-, -, -, -, -, -, e0, e1, e2, -⟩ := idx_facts0 t
  unfold iblk0
  rw [View.read_apply]
  show (V c (Pipeline.arrRef spec0 2) : (⟨S4x1x8192, .f32⟩ : BufTy).Contents (Elt Ideal)) _ = _
  congr 1
  funext a
  apply Fin.ext
  match a with
  | ⟨0, _⟩ => show win0_2.index t (0 : Fin 3) * 1 + 1 * 0 = (i 0).val; rw [e0, h0]; omega
  | ⟨1, _⟩ => show win0_2.index t (1 : Fin 3) * 1 + 1 * 0 = (i 1).val; rw [e1, h1]
  | ⟨2, _⟩ => show win0_2.index t (2 : Fin 3) * 1024 + 1 * m.val = (i 2).val; rw [e2, h2]; omega

/-- Window 3's block at point `t`: the norms of the row tile's points. -/
theorem iblk0_3_apply (t : Fin cfg0.N) (r : Fin 1024) (i : S4x1x8192.Idx)
    (h0 : (i 0).val = t.val / 64) (h1 : (i 1).val = 0) (h2 : (i 2).val = t.val / 8 % 8 * 1024 + r.val) :
    (iblk0 V c 3 t : Vec Ideal S1x1x1024 .f32) (ix3 (0 : Fin 1) (0 : Fin 1) r)
      = (V c (Pipeline.arrRef spec0 3) : (⟨S4x1x8192, .f32⟩ : BufTy).Contents (Elt Ideal)) i := by
  obtain ⟨-, -, -, -, -, -, -, -, -, e0, e1, e2, -⟩ := idx_facts0 t
  unfold iblk0
  rw [View.read_apply]
  show (V c (Pipeline.arrRef spec0 3) : (⟨S4x1x8192, .f32⟩ : BufTy).Contents (Elt Ideal)) _ = _
  congr 1
  funext a
  apply Fin.ext
  match a with
  | ⟨0, _⟩ => show win0_3.index t (0 : Fin 3) * 1 + 1 * 0 = (i 0).val; rw [e0, h0]; omega
  | ⟨1, _⟩ => show win0_3.index t (1 : Fin 3) * 1 + 1 * 0 = (i 1).val; rw [e1, h1]
  | ⟨2, _⟩ => show win0_3.index t (2 : Fin 3) * 1024 + 1 * r.val = (i 2).val; rw [e2, h2]; omega

/-! ### One point's step of the running minimum -/

/-- One step over any three blocks whose entries are known: the scratch entry for row `r` is lowered by the
    minimum, over the tile's columns, of -2·(x·y) + (column norm). -/
theorem tile0_of (x3 x4 : Vec Ideal S1x3x1024 .f32) (x5 : Vec Ideal S1x1x1024 .f32) (s : Vec Ideal S1024x1 .f32) (r : Fin 1024)
    (P Q : Cert.Spec.Cloud) (sQ : Cert.Spec.Row) (b : Fin 4) (n : Fin 8192) (jj : Fin 8)
    (h3 : ∀ k : Fin 3, x3 (ix3 (0 : Fin 1) k r) = P b k n)
    (h4 : ∀ (k : Fin 3) (m : Fin 1024), x4 (ix3 (0 : Fin 1) k m) = Q b k (Cert.Spec.col jj m))
    (h5 : ∀ m : Fin 1024, x5 (ix3 (0 : Fin 1) (0 : Fin 1) m) = sQ b (Cert.Spec.col jj m)) :
    k0_pay2 (F := Ideal) x3 x4 x5 s (ix2 r (0 : Fin 1))
      = min (s (ix2 r (0 : Fin 1))) (Cert.Spec.tileMinG P Q sQ b n jj) := by
  refine (pay2_at0 x3 x4 x5 s r).trans ?_
  refine congrArg (min (s (ix2 r (0 : Fin 1)))) ?_
  unfold Cert.Spec.tileMinG
  refine congrArg (Finset.fold min Cert.Spec.posInf · Finset.univ) (funext fun m => ?_)
  rw [h5 m, Finset.sum_congr rfl (fun k _ => by rw [h3 k, h4 k m])]
  rfl

/-- At point `t` the scratch column's entry for row `r` is lowered by the minimum over the point's column tile. -/
theorem tile0_apply (t : Fin cfg0.N) (r : Fin 1024) (s : Vec Ideal S1024x1 .f32) (b : Fin 4) (n : Fin 8192) (jj : Fin 8)
    (hb : b.val = t.val / 64) (hn : n.val = t.val / 8 % 8 * 1024 + r.val) (hj : jj.val = t.val % 8) :
    k0_pay2 (F := Ideal) (iblk0 V c 0 t) (iblk0 V c 1 t) (iblk0 V c 2 t) s (ix2 r (0 : Fin 1))
      = min (s (ix2 r (0 : Fin 1)))
          (Cert.Spec.tileMinG (cloudP0 V c) (cloudQ0 V c) (normQ0 V c) b n jj) :=
  tile0_of (iblk0 V c 0 t) (iblk0 V c 1 t) (iblk0 V c 2 t) s r (cloudP0 V c) (cloudQ0 V c) (normQ0 V c) b n jj
    (fun k => iblk0_0_apply V c t k r (ix3 b k n) hb rfl hn)
    (fun k m => iblk0_1_apply V c t k m (ix3 b k (Cert.Spec.col jj m)) hb rfl (by show jj.val * 1024 + m.val = _; rw [hj]))
    (fun m => iblk0_2_apply V c t m (ix3 b (0 : Fin 1) (Cert.Spec.col jj m)) hb rfl (by show jj.val * 1024 + m.val = _; rw [hj]))

/-! ### The running minimum across a row tile's eight points -/

/-- After the point at column tile `j` of a row tile, the scratch column's entry for row `r` is the running
    minimum over column tiles `0 … j`. -/
theorem acc0_apply (r : Fin 1024) (b : Fin 4) (n : Fin 8192) : ∀ (j : ℕ) (hj : j < 8) (t : Fin cfg0.N),
    t.val % 8 = j → b.val = t.val / 64 → n.val = t.val / 8 % 8 * 1024 + r.val →
    acc0 V c t.val t.isLt (ix2 r (0 : Fin 1))
      = Cert.Spec.runningG (cloudP0 V c) (cloudQ0 V c) (normQ0 V c) b n j hj
  | 0, hj, t, ht, hb, hn => by
    rw [acc0_first V c t ht]
    refine (tile0_apply V c t r _ b n ⟨0, hj⟩ hb hn ht.symm).trans ?_
    rw [pay1_at0]
    rfl
  | j + 1, hj, t, ht, hb, hn => by
    have hN : cfg0.N = 256 := N_0
    have htlt : t.val < 256 := lt_of_lt_of_eq t.isLt hN
    rw [acc0_next V c t (by omega)]
    refine (tile0_apply V c t r _ b n ⟨j + 1, hj⟩ hb hn ht.symm).trans ?_
    have ih := acc0_apply r b n j (Nat.lt_of_succ_lt hj) ⟨t.val - 1, Nat.lt_of_le_of_lt (Nat.sub_le _ _) t.isLt⟩
      (by show (t.val - 1) % 8 = j; omega) (by show b.val = (t.val - 1) / 64; omega)
      (by show n.val = (t.val - 1) / 8 % 8 * 1024 + r.val; omega)
    rw [ih]
    rfl

/-! ### What a last column tile writes back -/

/-- The value written out for row `r` of the block at a last column tile is the whole-array function at the entry
    that row lies at. -/
theorem out0_point (t : Fin cfg0.N) (ht : t.val % 8 = 7) (r : Fin 1024) (i : S4x1x8192.Idx)
    (h0 : (i 0).val = t.val / 64) (h2 : (i 2).val = t.val / 8 % 8 * 1024 + r.val) :
    k0_pay3 (F := Ideal) (iblk0 V c 3 t) (acc0 V c t.val t.isLt) (ix3 (0 : Fin 1) (0 : Fin 1) r) = G0 V c i := by
  refine (pay3_at0 _ _ r).trans ?_
  rw [acc0_apply V c r (i 0) (i 2) 7 (by decide) t ht h0 h2,
    iblk0_3_apply V c t r (ix3 (i 0) (0 : Fin 1) (i 2)) h0 rfl h2]
  rfl

/-- What a flushing point writes back is its block of the whole-array function. -/
theorem flushed0_eq (t : Fin cfg0.N) (hf : (cfg0.win 4).flush t = true) :
    (dat0 (F := Ideal) V c).flushed 4 t = ((cfg0.win 4).blk t).view.read (Elt Ideal) (G0 V c) := by
  have ht : t.val % 8 = 7 := (flush0_4 t).mp hf
  obtain ⟨-, -, -, -, -, -, -, -, -, -, -, -, e0, e1, e2⟩ := idx_facts0 t
  show (cfg0.win 4).cut (grid0.coords t) ((dat0 (F := Ideal) V c).after 4 t) = _
  rw [after0_4]
  funext y
  rw [View.read_apply]
  show k0_pay3 (F := Ideal) (iblk0 V c 3 t) (acc0 V c t.val t.isLt) y = G0 V c (((cfg0.win 4).blk t).view.emb y)
  have hy0 : (y 0).val < 1 := (y 0).isLt
  have hy1 : (y 1).val < 1 := (y 1).isLt
  have hy : (y : S1x1x1024.Idx) = ix3 (0 : Fin 1) (0 : Fin 1) (y 2) := by
    funext a
    match a with
    | ⟨0, _⟩ => exact Fin.ext (by show (y 0).val = 0; omega)
    | ⟨1, _⟩ => exact Fin.ext (by show (y 1).val = 0; omega)
    | ⟨2, _⟩ => rfl
  refine (congrArg (k0_pay3 (F := Ideal) (iblk0 V c 3 t) (acc0 V c t.val t.isLt)) hy).trans ?_
  refine out0_point V c t ht (y 2) _ ?_ ?_
  · show win0_4.index t (0 : Fin 3) * 1 + 1 * (y 0).val = t.val / 64
    rw [e0]; omega
  · show win0_4.index t (2 : Fin 3) * 1024 + 1 * (y 2).val = t.val / 8 % 8 * 1024 + (y 2).val
    rw [e2]; omega

/-! ### The output's blocks cover its array -/

/-- An index of the array is in point `t`'s block iff each coordinate is in the block's range on its axis. -/
theorem mem_blk0 (t : Fin cfg0.N) (i : S4x1x8192.Idx) :
    i ∈ ((cfg0.win 4).blk t).view.set
      ↔ ∀ a : Fin 3, win0_4.index t a * S1x1x1024.size a ≤ (i a).val
          ∧ (i a).val < win0_4.index t a * S1x1x1024.size a + S1x1x1024.size a := by
  show i ∈ ((View.whole (Pipeline.arrRef spec0 4)).slice (win0_4.rect t)).set ↔ _
  rw [View.set_slice_whole, Rect.mem_set_unit]
  exact Iff.rfl

/-- Row `n` of batch `b` lies in the block written back at the last column tile of row tile `n / 1024`. -/
theorem cover0 (i : S4x1x8192.Idx) :
    ∃ t : Fin cfg0.N, (cfg0.win 4).flush t = true ∧ i ∈ ((cfg0.win 4).blk t).view.set := by
  have hN : cfg0.N = 256 := N_0
  have hi0 : (i 0).val < 4 := (i 0).isLt
  have hi1 : (i 1).val < 1 := (i 1).isLt
  have hi2 : (i 2).val < 8192 := (i 2).isLt
  obtain ⟨t, htv⟩ : ∃ t : Fin cfg0.N, t.val = ((i 0).val * 8 + (i 2).val / 1024) * 8 + 7 :=
    ⟨⟨((i 0).val * 8 + (i 2).val / 1024) * 8 + 7, by rw [hN]; omega⟩, rfl⟩
  obtain ⟨-, -, -, -, -, -, -, -, -, -, -, -, e0, e1, e2⟩ := idx_facts0 t
  refine ⟨t, (flush0_4 t).mpr (by omega), ?_⟩
  rw [mem_blk0]
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 1 ≤ (i 1).val ∧ (i 1).val < win0_4.index t (1 : Fin 3) * 1 + 1
    rw [e1]; omega
  | ⟨2, _⟩ =>
    show win0_4.index t (2 : Fin 3) * 1024 ≤ (i 2).val ∧ (i 2).val < win0_4.index t (2 : Fin 3) * 1024 + 1024
    rw [e2]; omega

/-- So the output array ends holding the whole-array function. -/
theorem final0 : (dat0 (F := Ideal) V c).arrAt 4 cfg0.N = G0 V c :=
  (dat0 (F := Ideal) V c).arrAt_eq_of_cover 4 (G0 V c) (fun t hf => flushed0_eq V c t hf) (fun i => cover0 i)

/-- The output array after the launch, row by row: the tiled running minimum of window 0's cloud (rows) against
    window 1's (columns), the columns' norms read from window 2's array, the rows' from window 3's. -/
theorem row_out0 :
    row ((dat0 (F := Ideal) V c).arrAt 4 cfg0.N)
      = Cert.Spec.kernelRowG (cl (V c (Pipeline.arrRef spec0 0))) (cl (V c (Pipeline.arrRef spec0 1)))
          (row (V c (Pipeline.arrRef spec0 3))) (row (V c (Pipeline.arrRef spec0 2))) := by
  exact (congrArg row (final0 V c)).trans rfl

end Cert.KernelIdeal.RowValue

end
-- ==== Proof.Value1.lean ====
/-
  What launch 1 leaves in its output array, at the ideal instance: for batch `b` and row `n` the running
  minimum over the eight column tiles of  -2·(x·y) + (column norm), started at +∞, plus the row's norm.

  Row `n` lies in row tile `n / 1024`; the block written back at the last column tile of that row tile covers
  it, and that point's running minimum unrolls over the seven points before it down to the reset.
-/
import proofs.«106419_j65987877535942_1_alg».proof.Proof.Body1
import proofs.«106419_j65987877535942_1_alg».proof.Proof.Payload
import proofs.«106419_j65987877535942_1_alg».proof.Proof.HostSide
import proofs.«106419_j65987877535942_1_alg».proof.Proof.Spec
import Idealize.ShloMosaic.Lib.ValueIdx
import Idealize.ShloMosaic.Lib.Pipeline.Value

set_option maxRecDepth 16384

noncomputable section

namespace Cert.KernelIdeal.RowValue

open Cert.KernelIdeal Cert.KernelIdeal.Gen Cert.KernelIdeal.Hand Cert.KernelIdeal.HostSide
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-! ### The four arrays the launch reads, as the mathematics names them -/

/-- The rows' cloud: window 0's array. -/
abbrev cloudP1 : Cert.Spec.Cloud := cl (V c (Pipeline.arrRef spec1 0))
/-- The columns' cloud: window 1's array. -/
abbrev cloudQ1 : Cert.Spec.Cloud := cl (V c (Pipeline.arrRef spec1 1))
/-- The rows' norms: window 3's array. -/
abbrev normP1 : Cert.Spec.Row := row (V c (Pipeline.arrRef spec1 3))
/-- The columns' norms: window 2's array. -/
abbrev normQ1 : Cert.Spec.Row := row (V c (Pipeline.arrRef spec1 2))

/-- What the output array ends holding, as one function of its index. -/
def G1 : (⟨S4x1x8192, .f32⟩ : BufTy).Contents (Elt Ideal) := fun i =>
  Cert.Spec.kernelRowG (cloudP1 V c) (cloudQ1 V c) (normP1 V c) (normQ1 V c) (i 0) (i 2)

/-! ### The payloads at this launch's names -/

theorem pay1_at1 (r : Fin 1024) : k1_pay1 (F := Ideal) (ix2 r (0 : Fin 1)) = Cert.Spec.posInf :=
  Cert.KernelIdeal.Pay.pay1_apply r

theorem pay2_at1 (x3 x4 : Vec Ideal S1x3x1024 .f32) (x5 : Vec Ideal S1x1x1024 .f32) (s : Vec Ideal S1024x1 .f32) (r : Fin 1024) :
    k1_pay2 (F := Ideal) x3 x4 x5 s (ix2 r (0 : Fin 1))
      = min (s (ix2 r (0 : Fin 1)))
          ((Finset.univ : Finset (Fin 1024)).fold min Cert.Spec.posInf fun m =>
            Cert.Spec.wNeg2 * (∑ k : Fin 3, x3 (ix3 (0 : Fin 1) k r) * x4 (ix3 (0 : Fin 1) k m)) + x5 (ix3 (0 : Fin 1) (0 : Fin 1) m)) :=
  Cert.KernelIdeal.Pay.pay2_apply x3 x4 x5 s r

theorem pay3_at1 (x6 : Vec Ideal S1x1x1024 .f32) (s : Vec Ideal S1024x1 .f32) (r : Fin 1024) :
    k1_pay3 (F := Ideal) x6 s (ix3 (0 : Fin 1) (0 : Fin 1) r) = s (ix2 r (0 : Fin 1)) + x6 (ix3 (0 : Fin 1) (0 : Fin 1) r) :=
  Cert.KernelIdeal.Pay.pay3_apply x6 s r

/-! ### The index maps, decided once over the grid

Point `t` is batch `t / 64`, row tile `t / 8 % 8`, column tile `t % 8`.  Windows 0, 3 and 4 follow the row tile,
windows 1 and 2 the column tile. -/

theorem idx_facts1 : ∀ t : Fin cfg1.N,
    win1_0.index t (0 : Fin 3) = t.val / 64 ∧ win1_0.index t (1 : Fin 3) = 0 ∧ win1_0.index t (2 : Fin 3) = t.val / 8 % 8
    ∧ win1_1.index t (0 : Fin 3) = t.val / 64 ∧ win1_1.index t (1 : Fin 3) = 0 ∧ win1_1.index t (2 : Fin 3) = t.val % 8
    ∧ win1_2.index t (0 : Fin 3) = t.val / 64 ∧ win1_2.index t (1 : Fin 3) = 0 ∧ win1_2.index t (2 : Fin 3) = t.val % 8
    ∧ win1_3.index t (0 : Fin 3) = t.val / 64 ∧ win1_3.index t (1 : Fin 3) = 0 ∧ win1_3.index t (2 : Fin 3) = t.val / 8 % 8
    ∧ win1_4.index t (0 : Fin 3) = t.val / 64 ∧ win1_4.index t (1 : Fin 3) = 0 ∧ win1_4.index t (2 : Fin 3) = t.val / 8 % 8 :=
  (by decide +kernel : ∀ t : Fin grid1.N, _)

/-! ### Each input block as entries of its array -/

/-- Window 0's block at point `t`: the three coordinates of the row tile's points. -/
theorem iblk1_0_apply (t : Fin cfg1.N) (k : Fin 3) (r : Fin 1024) (i : S4x3x8192.Idx)
    (h0 : (i 0).val = t.val / 64) (h1 : (i 1).val = k.val) (h2 : (i 2).val = t.val / 8 % 8 * 1024 + r.val) :
    (iblk1 V c 0 t : Vec Ideal S1x3x1024 .f32) (ix3 (0 : Fin 1) k r)
      = (V c (Pipeline.arrRef spec1 0) : (⟨S4x3x8192, .f32⟩ : BufTy).Contents (Elt Ideal)) i := by
  obtain ⟨e0, e1, e2, -⟩ := idx_facts1 t
  unfold iblk1
  rw [View.read_apply]
  show (V c (Pipeline.arrRef spec1 0) : (⟨S4x3x8192, .f32⟩ : BufTy).Contents (Elt Ideal)) _ = _
  congr 1
  funext a
  apply Fin.ext
  match a with
  | ⟨0, _⟩ => show win1_0.index t (0 : Fin 3) * 1 + 1 * 0 = (i 0).val; rw [e0, h0]; omega
  | ⟨1, _⟩ => show win1_0.index t (1 : Fin 3) * 3 + 1 * k.val = (i 1).val; rw [e1, h1]; omega
  | ⟨2, _⟩ => show win1_0.index t (2 : Fin 3) * 1024 + 1 * r.val = (i 2).val; rw [e2, h2]; omega

/-- Window 1's block at point `t`: the three coordinates of the column tile's points. -/
theorem iblk1_1_apply (t : Fin cfg1.N) (k : Fin 3) (m : Fin 1024) (i : S4x3x8192.Idx)
    (h0 : (i 0).val = t.val / 64) (h1 : (i 1).val = k.val) (h2 : (i 2).val = t.val % 8 * 1024 + m.val) :
    (iblk1 V c 1 t : Vec Ideal S1x3x1024 .f32) (ix3 (0 : Fin 1) k m)
      = (V c (Pipeline.arrRef spec1 1) : (⟨S4x3x8192, .f32⟩ : BufTy).Contents (Elt Ideal)) i := by
  obtain ⟨-, -, -, e0, e1, e2, -⟩ := idx_facts1 t
  unfold iblk1
  rw [View.read_apply]
  show (V c (Pipeline.arrRef spec1 1) : (⟨S4x3x8192, .f32⟩ : BufTy).Contents (Elt Ideal)) _ = _
  congr 1
  funext a
  apply Fin.ext
  match a with
  | ⟨0, _⟩ => show win1_1.index t (0 : Fin 3) * 1 + 1 * 0 = (i 0).val; rw [e0, h0]; omega
  | ⟨1, _⟩ => show win1_1.index t (1 : Fin 3) * 3 + 1 * k.val = (i 1).val; rw [e1, h1]; omega
  | ⟨2, _⟩ => show win1_1.index t (2 : Fin 3) * 1024 + 1 * m.val = (i 2).val; rw [e2, h2]; omega

/-- Window 2's block at point `t`: the norms of the column tile's points. -/
theorem iblk1_2_apply (t : Fin cfg1.N) (m : Fin 1024) (i : S4x1x8192.Idx)
    (h0 : (i 0).val = t.val / 64) (h1 : (i 1).val = 0) (h2 : (i 2).val = t.val % 8 * 1024 + m.val) :
    (iblk1 V c 2 t : Vec Ideal S1x1x1024 .f32) (ix3 (0 : Fin 1) (0 : Fin 1) m)
      = (V c (Pipeline.arrRef spec1 2) : (⟨S4x1x8192, .f32⟩ : BufTy).Contents (Elt Ideal)) i := by
  obtain ⟨-, -, -, -, -, -, e0, e1, e2, -⟩ := idx_facts1 t
  unfold iblk1
  rw [View.read_apply]
  show (V c (Pipeline.arrRef spec1 2) : (⟨S4x1x8192, .f32⟩ : BufTy).Contents (Elt Ideal)) _ = _
  congr 1
  funext a
  apply Fin.ext
  match a with
  | ⟨0, _⟩ => show win1_2.index t (0 : Fin 3) * 1 + 1 * 0 = (i 0).val; rw [e0, h0]; omega
  | ⟨1, _⟩ => show win1_2.index t (1 : Fin 3) * 1 + 1 * 0 = (i 1).val; rw [e1, h1]
  | ⟨2, _⟩ => show win1_2.index t (2 : Fin 3) * 1024 + 1 * m.val = (i 2).val; rw [e2, h2]; omega

/-- Window 3's block at point `t`: the norms of the row tile's points. -/
theorem iblk1_3_apply (t : Fin cfg1.N) (r : Fin 1024) (i : S4x1x8192.Idx)
    (h0 : (i 0).val = t.val / 64) (h1 : (i 1).val = 0) (h2 : (i 2).val = t.val / 8 % 8 * 1024 + r.val) :
    (iblk1 V c 3 t : Vec Ideal S1x1x1024 .f32) (ix3 (0 : Fin 1) (0 : Fin 1) r)
      = (V c (Pipeline.arrRef spec1 3) : (⟨S4x1x8192, .f32⟩ : BufTy).Contents (Elt Ideal)) i := by
  obtain ⟨-, -, -, -, -, -, -, -, -, e0, e1, e2, -⟩ := idx_facts1 t
  unfold iblk1
  rw [View.read_apply]
  show (V c (Pipeline.arrRef spec1 3) : (⟨S4x1x8192, .f32⟩ : BufTy).Contents (Elt Ideal)) _ = _
  congr 1
  funext a
  apply Fin.ext
  match a with
  | ⟨0, _⟩ => show win1_3.index t (0 : Fin 3) * 1 + 1 * 0 = (i 0).val; rw [e0, h0]; omega
  | ⟨1, _⟩ => show win1_3.index t (1 : Fin 3) * 1 + 1 * 0 = (i 1).val; rw [e1, h1]
  | ⟨2, _⟩ => show win1_3.index t (2 : Fin 3) * 1024 + 1 * r.val = (i 2).val; rw [e2, h2]; omega

/-! ### One point's step of the running minimum -/

/-- One step over any three blocks whose entries are known: the scratch entry for row `r` is lowered by the
    minimum, over the tile's columns, of -2·(x·y) + (column norm). -/
theorem tile1_of (x3 x4 : Vec Ideal S1x3x1024 .f32) (x5 : Vec Ideal S1x1x1024 .f32) (s : Vec Ideal S1024x1 .f32) (r : Fin 1024)
    (P Q : Cert.Spec.Cloud) (sQ : Cert.Spec.Row) (b : Fin 4) (n : Fin 8192) (jj : Fin 8)
    (h3 : ∀ k : Fin 3, x3 (ix3 (0 : Fin 1) k r) = P b k n)
    (h4 : ∀ (k : Fin 3) (m : Fin 1024), x4 (ix3 (0 : Fin 1) k m) = Q b k (Cert.Spec.col jj m))
    (h5 : ∀ m : Fin 1024, x5 (ix3 (0 : Fin 1) (0 : Fin 1) m) = sQ b (Cert.Spec.col jj m)) :
    k1_pay2 (F := Ideal) x3 x4 x5 s (ix2 r (0 : Fin 1))
      = min (s (ix2 r (0 : Fin 1))) (Cert.Spec.tileMinG P Q sQ b n jj) := by
  refine (pay2_at1 x3 x4 x5 s r).trans ?_
  refine congrArg (min (s (ix2 r (0 : Fin 1)))) ?_
  unfold Cert.Spec.tileMinG
  refine congrArg (Finset.fold min Cert.Spec.posInf · Finset.univ) (funext fun m => ?_)
  rw [h5 m, Finset.sum_congr rfl (fun k _ => by rw [h3 k, h4 k m])]
  rfl

/-- At point `t` the scratch column's entry for row `r` is lowered by the minimum over the point's column tile. -/
theorem tile1_apply (t : Fin cfg1.N) (r : Fin 1024) (s : Vec Ideal S1024x1 .f32) (b : Fin 4) (n : Fin 8192) (jj : Fin 8)
    (hb : b.val = t.val / 64) (hn : n.val = t.val / 8 % 8 * 1024 + r.val) (hj : jj.val = t.val % 8) :
    k1_pay2 (F := Ideal) (iblk1 V c 0 t) (iblk1 V c 1 t) (iblk1 V c 2 t) s (ix2 r (0 : Fin 1))
      = min (s (ix2 r (0 : Fin 1)))
          (Cert.Spec.tileMinG (cloudP1 V c) (cloudQ1 V c) (normQ1 V c) b n jj) :=
  tile1_of (iblk1 V c 0 t) (iblk1 V c 1 t) (iblk1 V c 2 t) s r (cloudP1 V c) (cloudQ1 V c) (normQ1 V c) b n jj
    (fun k => iblk1_0_apply V c t k r (ix3 b k n) hb rfl hn)
    (fun k m => iblk1_1_apply V c t k m (ix3 b k (Cert.Spec.col jj m)) hb rfl (by show jj.val * 1024 + m.val = _; rw [hj]))
    (fun m => iblk1_2_apply V c t m (ix3 b (0 : Fin 1) (Cert.Spec.col jj m)) hb rfl (by show jj.val * 1024 + m.val = _; rw [hj]))

/-! ### The running minimum across a row tile's eight points -/

/-- After the point at column tile `j` of a row tile, the scratch column's entry for row `r` is the running
    minimum over column tiles `0 … j`. -/
theorem acc1_apply (r : Fin 1024) (b : Fin 4) (n : Fin 8192) : ∀ (j : ℕ) (hj : j < 8) (t : Fin cfg1.N),
    t.val % 8 = j → b.val = t.val / 64 → n.val = t.val / 8 % 8 * 1024 + r.val →
    acc1 V c t.val t.isLt (ix2 r (0 : Fin 1))
      = Cert.Spec.runningG (cloudP1 V c) (cloudQ1 V c) (normQ1 V c) b n j hj
  | 0, hj, t, ht, hb, hn => by
    rw [acc1_first V c t ht]
    refine (tile1_apply V c t r _ b n ⟨0, hj⟩ hb hn ht.symm).trans ?_
    rw [pay1_at1]
    rfl
  | j + 1, hj, t, ht, hb, hn => by
    have hN : cfg1.N = 256 := N_1
    have htlt : t.val < 256 := lt_of_lt_of_eq t.isLt hN
    rw [acc1_next V c t (by omega)]
    refine (tile1_apply V c t r _ b n ⟨j + 1, hj⟩ hb hn ht.symm).trans ?_
    have ih := acc1_apply r b n j (Nat.lt_of_succ_lt hj) ⟨t.val - 1, Nat.lt_of_le_of_lt (Nat.sub_le _ _) t.isLt⟩
      (by show (t.val - 1) % 8 = j; omega) (by show b.val = (t.val - 1) / 64; omega)
      (by show n.val = (t.val - 1) / 8 % 8 * 1024 + r.val; omega)
    rw [ih]
    rfl

/-! ### What a last column tile writes back -/

/-- The value written out for row `r` of the block at a last column tile is the whole-array function at the entry
    that row lies at. -/
theorem out1_point (t : Fin cfg1.N) (ht : t.val % 8 = 7) (r : Fin 1024) (i : S4x1x8192.Idx)
    (h0 : (i 0).val = t.val / 64) (h2 : (i 2).val = t.val / 8 % 8 * 1024 + r.val) :
    k1_pay3 (F := Ideal) (iblk1 V c 3 t) (acc1 V c t.val t.isLt) (ix3 (0 : Fin 1) (0 : Fin 1) r) = G1 V c i := by
  refine (pay3_at1 _ _ r).trans ?_
  rw [acc1_apply V c r (i 0) (i 2) 7 (by decide) t ht h0 h2,
    iblk1_3_apply V c t r (ix3 (i 0) (0 : Fin 1) (i 2)) h0 rfl h2]
  rfl

/-- What a flushing point writes back is its block of the whole-array function. -/
theorem flushed1_eq (t : Fin cfg1.N) (hf : (cfg1.win 4).flush t = true) :
    (dat1 (F := Ideal) V c).flushed 4 t = ((cfg1.win 4).blk t).view.read (Elt Ideal) (G1 V c) := by
  have ht : t.val % 8 = 7 := (flush1_4 t).mp hf
  obtain ⟨-, -, -, -, -, -, -, -, -, -, -, -, e0, e1, e2⟩ := idx_facts1 t
  show (cfg1.win 4).cut (grid1.coords t) ((dat1 (F := Ideal) V c).after 4 t) = _
  rw [after1_4]
  funext y
  rw [View.read_apply]
  show k1_pay3 (F := Ideal) (iblk1 V c 3 t) (acc1 V c t.val t.isLt) y = G1 V c (((cfg1.win 4).blk t).view.emb y)
  have hy0 : (y 0).val < 1 := (y 0).isLt
  have hy1 : (y 1).val < 1 := (y 1).isLt
  have hy : (y : S1x1x1024.Idx) = ix3 (0 : Fin 1) (0 : Fin 1) (y 2) := by
    funext a
    match a with
    | ⟨0, _⟩ => exact Fin.ext (by show (y 0).val = 0; omega)
    | ⟨1, _⟩ => exact Fin.ext (by show (y 1).val = 0; omega)
    | ⟨2, _⟩ => rfl
  refine (congrArg (k1_pay3 (F := Ideal) (iblk1 V c 3 t) (acc1 V c t.val t.isLt)) hy).trans ?_
  refine out1_point V c t ht (y 2) _ ?_ ?_
  · show win1_4.index t (0 : Fin 3) * 1 + 1 * (y 0).val = t.val / 64
    rw [e0]; omega
  · show win1_4.index t (2 : Fin 3) * 1024 + 1 * (y 2).val = t.val / 8 % 8 * 1024 + (y 2).val
    rw [e2]; omega

/-! ### The output's blocks cover its array -/

/-- An index of the array is in point `t`'s block iff each coordinate is in the block's range on its axis. -/
theorem mem_blk1 (t : Fin cfg1.N) (i : S4x1x8192.Idx) :
    i ∈ ((cfg1.win 4).blk t).view.set
      ↔ ∀ a : Fin 3, win1_4.index t a * S1x1x1024.size a ≤ (i a).val
          ∧ (i a).val < win1_4.index t a * S1x1x1024.size a + S1x1x1024.size a := by
  show i ∈ ((View.whole (Pipeline.arrRef spec1 4)).slice (win1_4.rect t)).set ↔ _
  rw [View.set_slice_whole, Rect.mem_set_unit]
  exact Iff.rfl

/-- Row `n` of batch `b` lies in the block written back at the last column tile of row tile `n / 1024`. -/
theorem cover1 (i : S4x1x8192.Idx) :
    ∃ t : Fin cfg1.N, (cfg1.win 4).flush t = true ∧ i ∈ ((cfg1.win 4).blk t).view.set := by
  have hN : cfg1.N = 256 := N_1
  have hi0 : (i 0).val < 4 := (i 0).isLt
  have hi1 : (i 1).val < 1 := (i 1).isLt
  have hi2 : (i 2).val < 8192 := (i 2).isLt
  obtain ⟨t, htv⟩ : ∃ t : Fin cfg1.N, t.val = ((i 0).val * 8 + (i 2).val / 1024) * 8 + 7 :=
    ⟨⟨((i 0).val * 8 + (i 2).val / 1024) * 8 + 7, by rw [hN]; omega⟩, rfl⟩
  obtain ⟨-, -, -, -, -, -, -, -, -, -, -, -, e0, e1, e2⟩ := idx_facts1 t
  refine ⟨t, (flush1_4 t).mpr (by omega), ?_⟩
  rw [mem_blk1]
  intro a
  match a with
  | ⟨0, _⟩ =>
    show win1_4.index t (0 : Fin 3) * 1 ≤ (i 0).val ∧ (i 0).val < win1_4.index t (0 : Fin 3) * 1 + 1
    rw [e0]; omega
  | ⟨1, _⟩ =>
    show win1_4.index t (1 : Fin 3) * 1 ≤ (i 1).val ∧ (i 1).val < win1_4.index t (1 : Fin 3) * 1 + 1
    rw [e1]; omega
  | ⟨2, _⟩ =>
    show win1_4.index t (2 : Fin 3) * 1024 ≤ (i 2).val ∧ (i 2).val < win1_4.index t (2 : Fin 3) * 1024 + 1024
    rw [e2]; omega

/-- So the output array ends holding the whole-array function. -/
theorem final1 : (dat1 (F := Ideal) V c).arrAt 4 cfg1.N = G1 V c :=
  (dat1 (F := Ideal) V c).arrAt_eq_of_cover 4 (G1 V c) (fun t hf => flushed1_eq V c t hf) (fun i => cover1 i)

/-- The output array after the launch, row by row: the tiled running minimum of window 0's cloud (rows) against
    window 1's (columns), the columns' norms read from window 2's array, the rows' from window 3's. -/
theorem row_out1 :
    row ((dat1 (F := Ideal) V c).arrAt 4 cfg1.N)
      = Cert.Spec.kernelRowG (cl (V c (Pipeline.arrRef spec1 0))) (cl (V c (Pipeline.arrRef spec1 1)))
          (row (V c (Pipeline.arrRef spec1 3))) (row (V c (Pipeline.arrRef spec1 2))) := by
  exact (congrArg row (final1 V c)).trans rfl

end Cert.KernelIdeal.RowValue

end
-- ==== Proof.Final.lean ====
/-
  The idealized kernel program's result.

  The run leaves every unscoped buffer at the last valuation.  The result buffer there is the shared tail of
  the two launches' output arrays; launch 0's rows are the tiled running minimum of the first cloud against
  the second, launch 1's the same with the clouds swapped; the norms the launches read are the clouds' own
  square norms; and the tiled minimum is the plain minimum over all columns.  Hence the result is the tail of
  the two row minima `D1` and `D2` of the clouds `coords + registration_gt` and `coords + registration_pred`.
-/
import proofs.«106419_j65987877535942_1_alg».proof.Proof.Regs
import proofs.«106419_j65987877535942_1_alg».proof.Proof.RunValue
import proofs.«106419_j65987877535942_1_alg».proof.Proof.Value0
import proofs.«106419_j65987877535942_1_alg».proof.Proof.Value1
import proofs.«106419_j65987877535942_1_alg».proof.Proof.HostSide
import proofs.«106419_j65987877535942_1_alg».proof.Proof.Spec

set_option maxRecDepth 16384

noncomputable section

namespace Cert.KernelIdeal.Result

open Cert.KernelIdeal Cert.KernelIdeal.Gen Cert.KernelIdeal.Hand Cert.KernelIdeal.HostSide
open Idealize.ShloMosaic Idealize.ShloMosaic.TcCoe Idealize.ShloMosaic.ValueIdx
open Idealize.SL Idealize.SL.BI Idealize.SL.Sem
open Idealize.ShloMosaic.Pipeline (Dat)

variable (m : (ℓ : Loc nD τ sig) → Buf (Elt Ideal) ℓ)

/-- The first cloud, `coords + registration_gt`, and the second, `coords + registration_pred`. -/
def cloudP (c : Dev nD) : Cert.Spec.Cloud :=
  Cert.Spec.plus (cl (m ((c : Thread nD τ).loc main_arg2))) (cl (m ((c : Thread nD τ).loc main_arg1)))
def cloudQ (c : Dev nD) : Cert.Spec.Cloud :=
  Cert.Spec.plus (cl (m ((c : Thread nD τ).loc main_arg2))) (cl (m ((c : Thread nD τ).loc main_arg0)))

set_option backward.isDefEq.respectTransparency.types false in
/-- Every weakly fair execution ends with every unscoped buffer at the last valuation. -/
theorem run_all (ρ : Dev nD → PrngReg) :
    θ_run defs (onTc (τ := τ) (main (F := Ideal))) ⟨m, fun _ => 0, ρ⟩ (fun r => ∀ c : Dev nD,
      ∀ b ∈ Pipeline.ucRefs τ sig, r.2.mem ((c : Thread nD τ).1, b) = V5 m (outs m) c b) :=
  Cert.KernelIdeal.GenP.run_cond m (Ix := Unit) (U := UR sig nD τ) (Lvl := ℕ) emb₁ () Variants.none Lz lvz (fun _ _ => rfl) ρ (outs m) (pdats m)
    0 (fun _ => BI.emp) u₀ hu₀ E (hE0 ρ) hE2 (reg0 m) (hpre0 m) (hpost0 m) (reg1 m) (hpre1 m) (hpost1 m)

/-- Launch 0's output rows: for each point of the first cloud the least squared distance to the second. -/
theorem out8_row (c : Dev nD) : row (outs m 2 main_v8 c) = Cert.Spec.D1 (cloudP m c) (cloudQ m c) := by
  rw [outs_2, Cert.KernelIdeal.RowValue.row_out0]
  show Cert.Spec.kernelRowG (cl (V1 m c (Proc.devRef .tc main_v0))) (cl (V1 m c (Proc.devRef .tc main_v1)))
    (row (V1 m c (Proc.devRef .tc main_v4))) (row (V1 m c (Proc.devRef .tc main_v7))) = _
  rw [V1_v4, V1_v7, Cert.Spec.kernelRowG_sq, Cert.Spec.kernelRow_eq_D1, V1_v0, V1_v1]
  rfl

/-- Launch 1's output rows: for each point of the second cloud the least squared distance to the first. -/
theorem out10_row (c : Dev nD) : row (outs m 4 main_v10 c) = Cert.Spec.D2 (cloudP m c) (cloudQ m c) := by
  rw [outs_4, Cert.KernelIdeal.RowValue.row_out1]
  show Cert.Spec.kernelRowG (cl (V3 m (outs m) c (Proc.devRef .tc main_v1))) (cl (V3 m (outs m) c (Proc.devRef .tc main_v0)))
    (row (V3 m (outs m) c (Proc.devRef .tc main_v7))) (row (V3 m (outs m) c (Proc.devRef .tc main_v4))) = _
  rw [V3_v0, V3_v1, V3_v4, V3_v7, V1_v4, V1_v7, Cert.Spec.kernelRowG_sq, Cert.Spec.kernelRow_swap_eq_D2, V1_v0, V1_v1]
  rfl

/-- An unscoped TensorCore reference is among those the last valuation is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program's run: the result is the shared tail of the two row minima; the arguments end as launched. -/
theorem result (ρ : Dev nD → PrngReg) :
    θ_run defs (onTc (τ := τ) (main (F := Ideal))) ⟨m, fun _ => 0, ρ⟩ (fun r => ∀ c : Dev nD,
      r.2.mem ((c.tc : Thread nD τ).loc main_v18)
        = (fun _ => Cert.Spec.total (Cert.Spec.D1 (cloudP m c) (cloudQ m c)) (Cert.Spec.D2 (cloudP m c) (cloudQ m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v18 (by decide))).trans ((V5_result m (outs m) c).trans (by rw [out8_row, out10_row])),
      (h c _ (mem_uc main_arg0 (by decide))).trans (V5_main_arg0 m (outs m) c),
      (h c _ (mem_uc main_arg1 (by decide))).trans (V5_main_arg1 m (outs m) c),
      (h c _ (mem_uc main_arg2 (by decide))).trans (V5_main_arg2 m (outs m) c)⟩) (run_all m ρ)

end Cert.KernelIdeal.Result

end
-- ==== Proof.RefSide.lean ====
/-
  The reference's result, read as mathematics: its composed term of the three argument arrays is the
  shared tail of the two row minima `D1` and `D2` of the clouds `coords + registration_gt` and
  `coords + registration_pred`.
-/
import proofs.«106419_j65987877535942_1_alg».proof.Proof.Gen.ReferenceIdeal.Read
import proofs.«106419_j65987877535942_1_alg».proof.Proof.Spec
import Idealize.ShloMosaic.Lib.ValueIdx
import Idealize.ShloMosaic.Lib.ValueIdxRank1
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.TcCoe Idealize.ShloMosaic.ValueIdx
open Cert.ReferenceIdeal.Read

/-- An argument array as a cloud: batch, coordinate, point. -/
def cloud (x : (⟨S4x3x8192, .f32⟩ : BufTy).Contents (Elt Ideal)) : Cert.Spec.Cloud := fun b k n => x (ix3 b k n)

/-! ## The two transposed clouds at an index -/

/-- The transposed ground-truth cloud at (batch, point, coordinate). -/
theorem v1_at (x1 x2 : (⟨S4x3x8192, .f32⟩ : BufTy).Contents (Elt Ideal)) (b : Fin 4) (n : Fin 8192) (k : Fin 3) :
    val_main_v1 (F := Ideal) x1 x2 (ix3 b n k) = Cert.Spec.plus (cloud x2) (cloud x1) b k n := by
  rw [val_main_v1_apply, val_main_v0_apply]
  have e : idx_main_v1 (ix3 b n k) = ix3 b k n :=
    funext fun a => match a with | ⟨0, _⟩ => rfl | ⟨1, _⟩ => rfl | ⟨2, _⟩ => rfl
  rw [e]; rfl

/-- The transposed predicted cloud at (batch, point, coordinate). -/
theorem v3_at (x0 x2 : (⟨S4x3x8192, .f32⟩ : BufTy).Contents (Elt Ideal)) (b : Fin 4) (n : Fin 8192) (k : Fin 3) :
    val_main_v3 (F := Ideal) x0 x2 (ix3 b n k) = Cert.Spec.plus (cloud x2) (cloud x0) b k n := by
  rw [val_main_v3_apply, val_main_v2_apply]
  have e : idx_main_v3 (ix3 b n k) = ix3 b k n :=
    funext fun a => match a with | ⟨0, _⟩ => rfl | ⟨1, _⟩ => rfl | ⟨2, _⟩ => rfl
  rw [e]; rfl

/-! ## Square norms and inner products -/

/-- The square norms of the ground-truth cloud. -/
theorem v5_at (x1 x2 : (⟨S4x3x8192, .f32⟩ : BufTy).Contents (Elt Ideal)) (b : Fin 4) (n : Fin 8192) :
    val_main_v5 (F := Ideal) x1 x2 (ix2 b n) = Cert.Spec.sq (Cert.Spec.plus (cloud x2) (cloud x1)) b n := by
  rw [val_main_v5_apply, val_main_cst_apply]
  unfold Cert.Spec.sq
  refine congrArg (_ + ·) (Finset.sum_congr rfl fun k _ => ?_)
  have e : idx_main_v5 (ix2 b n) k = ix3 b n k :=
    funext fun a => match a with | ⟨0, _⟩ => rfl | ⟨1, _⟩ => rfl | ⟨2, _⟩ => rfl
  rw [val_main_v4_apply, e, v1_at]; rfl

/-- The square norms of the predicted cloud. -/
theorem v7_at (x0 x2 : (⟨S4x3x8192, .f32⟩ : BufTy).Contents (Elt Ideal)) (b : Fin 4) (m : Fin 8192) :
    val_main_v7 (F := Ideal) x0 x2 (ix2 b m) = Cert.Spec.sq (Cert.Spec.plus (cloud x2) (cloud x0)) b m := by
  rw [val_main_v7_apply, val_main_cst_0_apply]
  unfold Cert.Spec.sq
  refine congrArg (_ + ·) (Finset.sum_congr rfl fun k _ => ?_)
  have e : idx_main_v7 (ix2 b m) k = ix3 b m k :=
    funext fun a => match a with | ⟨0, _⟩ => rfl | ⟨1, _⟩ => rfl | ⟨2, _⟩ => rfl
  rw [val_main_v6_apply, e, v3_at]; rfl

/-- The inner products of the points of the two clouds. -/
theorem v8_at (x0 x1 x2 : (⟨S4x3x8192, .f32⟩ : BufTy).Contents (Elt Ideal)) (b : Fin 4) (n m : Fin 8192) :
    val_main_v8 (F := Ideal) x0 x1 x2 (ix3 b n m)
      = Cert.Spec.dot (Cert.Spec.plus (cloud x2) (cloud x1)) (Cert.Spec.plus (cloud x2) (cloud x0)) b n m := by
  rw [val_main_v8_apply]
  unfold Cert.Spec.dot
  refine Finset.sum_congr rfl fun k _ => ?_
  have el : lidx_main_v8 (ix3 b n m) k = ix3 b n k :=
    funext fun a => match a with | ⟨0, _⟩ => rfl | ⟨1, _⟩ => rfl | ⟨2, _⟩ => rfl
  have er : ridx_main_v8 (ix3 b n m) k = ix3 b m k :=
    funext fun a => match a with | ⟨0, _⟩ => rfl | ⟨1, _⟩ => rfl | ⟨2, _⟩ => rfl
  rw [el, er, v1_at, v3_at]

/-! ## The squared distances -/

/-- The array of squared distances at (batch, point of the first cloud, point of the second). -/
theorem v16_at (x0 x1 x2 : (⟨S4x3x8192, .f32⟩ : BufTy).Contents (Elt Ideal)) (b : Fin 4) (n m : Fin 8192) :
    val_main_v16 (F := Ideal) x0 x1 x2 (ix3 b n m)
      = Cert.Spec.dist (Cert.Spec.plus (cloud x2) (cloud x1)) (Cert.Spec.plus (cloud x2) (cloud x0)) b n m := by
  have e12 : idx_main_v11 (idx_main_v12 (ix3 b n m)) = ix2 b n :=
    funext fun a => match a with | ⟨0, _⟩ => rfl | ⟨1, _⟩ => rfl
  have e15 : idx_main_v14 (idx_main_v15 (ix3 b n m)) = ix2 b m :=
    funext fun a => match a with | ⟨0, _⟩ => rfl | ⟨1, _⟩ => rfl
  rw [val_main_v16_apply, val_main_v13_apply, val_main_v10_apply, val_main_v9_apply, val_main_cst_1_apply,
    v8_at, val_main_v12_apply, val_main_v11_apply, e12, v5_at, val_main_v15_apply, val_main_v14_apply, e15, v7_at]
  rfl

/-! ## The two minima -/

/-- A minimum over the last axis of a three-axis array, read by coordinates. -/
theorem min_axis2 (y : (⟨S4x8192x8192, .f32⟩ : BufTy).Contents (Elt Ideal)) (init : (⟨S_, .f32⟩ : BufTy).Contents (Elt Ideal))
    (g : Fin 4 → Fin 8192 → Fin 8192 → EReal) (hy : ∀ b n m, y (ix3 b n m) = g b n m) (b : Fin 4) (n : Fin 8192) :
    Host.reduce (FloatOps.minimumf (F := Ideal) (φ := .f32)) y init reducesTo_S4x8192x8192_S4x8192_d2 h_S_ (ix2 b n)
      = (Finset.univ : Finset (Fin 8192)).fold min (init (Shape.Idx.first h_S_)) (fun m => g b n m) := by
  have h : S4x8192x8192.Reduces [2] S4x8192 := by decide
  refine (Host.reduce_eq_fold_single (FloatOps.minimumf (F := Ideal) (φ := .f32)) y init
    reducesTo_S4x8192x8192_S4x8192_d2 h h_S_ (ix2 b n)).trans ?_
  refine Finset.fold_congr fun (m : Fin 8192) _ => ?_
  have e : h.lift (ix2 b n) m = ix3 b n m :=
    funext fun a => Fin.ext (by match a with | ⟨0, _⟩ => rfl | ⟨1, _⟩ => rfl | ⟨2, _⟩ => rfl)
  show y (h.lift (ix2 b n) m) = g b n m
  rw [e, hy]

/-- A minimum over the middle axis of a three-axis array, read by coordinates. -/
theorem min_axis1 (y : (⟨S4x8192x8192, .f32⟩ : BufTy).Contents (Elt Ideal)) (init : (⟨S_, .f32⟩ : BufTy).Contents (Elt Ideal))
    (g : Fin 4 → Fin 8192 → Fin 8192 → EReal) (hy : ∀ b n m, y (ix3 b n m) = g b n m) (b : Fin 4) (m : Fin 8192) :
    Host.reduce (FloatOps.minimumf (F := Ideal) (φ := .f32)) y init reducesTo_S4x8192x8192_S4x8192_d1 h_S_ (ix2 b m)
      = (Finset.univ : Finset (Fin 8192)).fold min (init (Shape.Idx.first h_S_)) (fun n => g b n m) := by
  have h : S4x8192x8192.Reduces [1] S4x8192 := by decide
  refine (Host.reduce_eq_fold_single (FloatOps.minimumf (F := Ideal) (φ := .f32)) y init
    reducesTo_S4x8192x8192_S4x8192_d1 h h_S_ (ix2 b m)).trans ?_
  refine Finset.fold_congr fun (n : Fin 8192) _ => ?_
  have e : h.lift (ix2 b m) n = ix3 b n m :=
    funext fun a => Fin.ext (by match a with | ⟨0, _⟩ => rfl | ⟨1, _⟩ => rfl | ⟨2, _⟩ => rfl)
  show y (h.lift (ix2 b m) n) = g b n m
  rw [e, hy]

/-- The minimum over the second cloud, for each point of the first. -/
theorem v17_at (x0 x1 x2 : (⟨S4x3x8192, .f32⟩ : BufTy).Contents (Elt Ideal)) (b : Fin 4) (n : Fin 8192) :
    val_main_v17 (F := Ideal) x0 x1 x2 (ix2 b n)
      = Cert.Spec.D1 (Cert.Spec.plus (cloud x2) (cloud x1)) (Cert.Spec.plus (cloud x2) (cloud x0)) b n := by
  unfold val_main_v17
  exact min_axis2 _ _ _ (v16_at x0 x1 x2) b n

/-- The minimum over the first cloud, for each point of the second. -/
theorem v18_at (x0 x1 x2 : (⟨S4x3x8192, .f32⟩ : BufTy).Contents (Elt Ideal)) (b : Fin 4) (m : Fin 8192) :
    val_main_v18 (F := Ideal) x0 x1 x2 (ix2 b m)
      = Cert.Spec.D2 (Cert.Spec.plus (cloud x2) (cloud x1)) (Cert.Spec.plus (cloud x2) (cloud x0)) b m := by
  unfold val_main_v18
  exact min_axis1 _ _ _ (v16_at x0 x1 x2) b m

/-! ## The shared tail -/

/-- A sum over a one-axis index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Per batch, the summed minima `D1`. -/
theorem v19_at (x0 x1 x2 : (⟨S4x3x8192, .f32⟩ : BufTy).Contents (Elt Ideal)) (b : Fin 4) :
    val_main_v19 (F := Ideal) x0 x1 x2 (ix1 b)
      = Cert.Spec.zeroLit + ∑ n : Fin 8192,
          Cert.Spec.D1 (Cert.Spec.plus (cloud x2) (cloud x1)) (Cert.Spec.plus (cloud x2) (cloud x0)) b n := by
  rw [val_main_v19_apply, val_main_cst_4_apply, Ideal.ofBits_def]
  refine congrArg (Cert.Spec.zeroLit + ·) (Finset.sum_congr rfl fun n _ => ?_)
  have e : idx_main_v19 (ix1 b) n = ix2 b n :=
    funext fun a => match a with | ⟨0, _⟩ => rfl | ⟨1, _⟩ => rfl
  rw [e, v17_at]

/-- Per batch, the summed minima `D2`. -/
theorem v22_at (x0 x1 x2 : (⟨S4x3x8192, .f32⟩ : BufTy).Contents (Elt Ideal)) (b : Fin 4) :
    val_main_v22 (F := Ideal) x0 x1 x2 (ix1 b)
      = Cert.Spec.zeroLit + ∑ m : Fin 8192,
          Cert.Spec.D2 (Cert.Spec.plus (cloud x2) (cloud x1)) (Cert.Spec.plus (cloud x2) (cloud x0)) b m := by
  rw [val_main_v22_apply, val_main_cst_7_apply, Ideal.ofBits_def]
  refine congrArg (Cert.Spec.zeroLit + ·) (Finset.sum_congr rfl fun m _ => ?_)
  have e : idx_main_v22 (ix1 b) m = ix2 b m :=
    funext fun a => match a with | ⟨0, _⟩ => rfl | ⟨1, _⟩ => rfl
  rw [e, v18_at]

/-- The first half of the result: the mean over the batches of the summed minima `D1`. -/
theorem v21_at (x0 x1 x2 : (⟨S4x3x8192, .f32⟩ : BufTy).Contents (Elt Ideal)) (i : S_.Idx) :
    val_main_v21 (F := Ideal) x0 x1 x2 i
      = Cert.Spec.half (Cert.Spec.D1 (Cert.Spec.plus (cloud x2) (cloud x1)) (Cert.Spec.plus (cloud x2) (cloud x0))) := by
  rw [val_main_v21_apply, val_main_v20_apply, val_main_cst_5_apply, val_main_cst_6_apply, sum_idx1,
    Ideal.hostDivf_def, Ideal.ofBits_def, Ideal.ofBits_def]
  unfold Cert.Spec.half
  refine congrArg (Ideal.div · Cert.Spec.fourLit) ?_
  refine congrArg (Cert.Spec.zeroLit + ·) (Finset.sum_congr rfl fun b _ => ?_)
  exact v19_at x0 x1 x2 b

/-- The second half of the result: the mean over the batches of the summed minima `D2`. -/
theorem v24_at (x0 x1 x2 : (⟨S4x3x8192, .f32⟩ : BufTy).Contents (Elt Ideal)) (i : S_.Idx) :
    val_main_v24 (F := Ideal) x0 x1 x2 i
      = Cert.Spec.half (Cert.Spec.D2 (Cert.Spec.plus (cloud x2) (cloud x1)) (Cert.Spec.plus (cloud x2) (cloud x0))) := by
  rw [val_main_v24_apply, val_main_v23_apply, val_main_cst_8_apply, val_main_cst_9_apply, sum_idx1,
    Ideal.hostDivf_def, Ideal.ofBits_def, Ideal.ofBits_def]
  unfold Cert.Spec.half
  refine congrArg (Ideal.div · Cert.Spec.fourLit) ?_
  refine congrArg (Cert.Spec.zeroLit + ·) (Finset.sum_congr rfl fun b _ => ?_)
  exact v22_at x0 x1 x2 b

/-- The reference's result term at `Ideal` is the shared tail of the two row minima of the clouds
    `x2 + x1` (ground truth) and `x2 + x0` (prediction). -/
theorem result_eq (x0 x1 x2 : (⟨S4x3x8192, .f32⟩ : BufTy).Contents (Elt Ideal)) :
    Cert.ReferenceIdeal.Read.val_main_v25 (F := Ideal) x0 x1 x2
      = fun _ => Cert.Spec.total
          (Cert.Spec.D1 (Cert.Spec.plus (cloud x2) (cloud x1)) (Cert.Spec.plus (cloud x2) (cloud x0)))
          (Cert.Spec.D2 (Cert.Spec.plus (cloud x2) (cloud x1)) (Cert.Spec.plus (cloud x2) (cloud x0))) := by
  funext i
  rw [val_main_v25_apply, v21_at, v24_at]
  rfl

end Cert.ReferenceIdeal.RefValue

end
-- ==== Proof.lean ====
/-
  The certificate: the chamfer-distance kernel against its reference.

  Both programs form the clouds `coords + registration_gt` and `coords + registration_pred`, take for every
  point of one cloud the least squared distance  -2·(x·y) + |x|² + |y|²  to the other cloud, both ways round, sum
  over the points, average over the four batches and add.  The kernel program reaches each minimum in two
  launches of one tiled kernel that keeps a running minimum across eight column tiles and adds the row's own
  square norm at the end; on the extended reals adding a constant commutes with a minimum, minima regroup
  freely and +∞ is their unit, so the two programs compute one function.  No finiteness is used.

  The three frames: each kernel launch runs point by point under an invariant that carries the scratch column
  at the running minimum; the reference is host operations only.  The idealization rewrote nothing.
-/
import proofs.«106419_j65987877535942_1_alg».proof.Defs
import proofs.«106419_j65987877535942_1_alg».proof.Proof.Gen.Kernel
import proofs.«106419_j65987877535942_1_alg».proof.Proof.Gen.KernelIdeal
import proofs.«106419_j65987877535942_1_alg».proof.Proof.Gen.ReferenceIdeal
import proofs.«106419_j65987877535942_1_alg».proof.Proof.Gen.Pre_finite_inputs
import proofs.«106419_j65987877535942_1_alg».proof.Proof.Gen.ReferenceIdeal.Run
import proofs.«106419_j65987877535942_1_alg».proof.Proof.Gen.ReferenceIdeal.Read
import proofs.«106419_j65987877535942_1_alg».proof.Proof.KRegs
import proofs.«106419_j65987877535942_1_alg».proof.Proof.Regs
import proofs.«106419_j65987877535942_1_alg».proof.Proof.Final
import proofs.«106419_j65987877535942_1_alg».proof.Proof.RefSide
import Idealize.ShloMosaic.Adequacy
import Idealize.ShloMosaic.Init

noncomputable section

namespace Cert.Proof

open Idealize.ShloMosaic Idealize.SL.Sem

namespace Claims

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

/-- The reference is host operations only: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem preserves : Cert.preserves_Kernel_KernelIdeal := trivial

/-- Both programs end at the shared tail of the two row minima of the same two clouds. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => fun _ => Cert.Spec.total
      (Cert.Spec.D1 (Cert.KernelIdeal.Result.cloudP m c) (Cert.KernelIdeal.Result.cloudQ m c))
      (Cert.Spec.D2 (Cert.KernelIdeal.Result.cloudP m c) (Cert.KernelIdeal.Result.cloudQ m c)),
    Cert.KernelIdeal.Result.result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq, (hagree c).1, (hagree c).2.1, (hagree c).2.2]
  rfl

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
